-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S800000x3 : Shape := ⟨2, ![800000, 3]⟩
abbrev S5x128 : Shape := ⟨2, ![5, 128]⟩
abbrev S128 : Shape := ⟨1, ![128]⟩
abbrev S128x5 : Shape := ⟨2, ![128, 5]⟩
abbrev S5 : Shape := ⟨1, ![5]⟩
abbrev S4x259x128 : Shape := ⟨3, ![4, 259, 128]⟩
abbrev S4x128 : Shape := ⟨2, ![4, 128]⟩
abbrev S4x128x128 : Shape := ⟨3, ![4, 128, 128]⟩
abbrev S4x256x128 : Shape := ⟨3, ![4, 256, 128]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S4x259x128 : S_.BroadcastsInDim S4x259x128 (![] : Fin 0 → Fin S4x259x128.rank)
  reducesTo_S4x259x128_S_d0_1_2 : S4x259x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 32 := constantI S_ 32 50000#32
  let main_v71 : IVec S2x800000 32 := broadcastInDim S2x800000 ![] bcast_S_S2x800000 main_c_27
  let main_v72 : IVec S2x800000 1 := cmpi .slt main_arg1 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg1 : IVec S2x800000 32) (main_arg12 : FVec F S4x128 .f32) (main_arg13 : FVec F S4x128x128 .f32) (main_arg14 : FVec F S4x128 .f32) (main_v48 : IVec S_ 1) (main_v49 : FVec F S4x256x128 .f32) (main_v50 : FVec F S4x256x128 .f32) : IVec S_ 1 :=
  let main_v51 : IVec S4x256x128 1 := cmpf .olt main_v49 main_v50
  let main_c_19 : IVec S_ 1 := constantI S_ 1 1#1
  let main_v52 : IVec S_ 1 := (fun x v => Host.reduce IntOp.andi x v reducesTo_S4x256x128_S_d0_1_2 h_S_) main_v51 main_c_19
  let main_v53 : IVec S_ 1 := andi main_v48 main_v52
  let main_v54 : FVec F S4x128 .f32 := Host.absf main_arg12
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128x128 .f32 := Host.absf main_arg13
  let main_cst_22 : FVec F S_ .f32 := constant S_ .f32 0x7F800000#32
  let main_v60 : FVec F S4x128x128 .f32 := broadcastInDim S4x128x128 ![] bcast_S_S4x128x128 main_cst_22
  let main_v61 : IVec S4x128x128 1 := cmpf .olt main_v59 main_v60
  let main_c_23 : IVec S_ 1 := constantI S_ 1 1#1
  let main_v62 : IVec S_ 1 := (fun x v => Host.reduce IntOp.andi x v reducesTo_S4x128x128_S_d0_1_2 h_S_) main_v61 main_c_23
  let main_v63 : IVec S_ 1 := andi main_v58 main_v62
  let main_v64 : FVec F S4x128 .f32 := Host.absf main_arg14
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg1 main_v63 main_v67

def fn_part2 {F : FTy → Type} [FloatOps F] (main_arg1 : IVec S2x800000 32) (main_arg8 : FVec F S4x128 .f32) (main_arg9 : FVec F S4x128x128 .f32) (main_arg10 : FVec F S4x128 .f32) (main_arg11 : FVec F S4x256x128 .f32) (main_arg12 : FVec F S4x128 .f32) (main_arg13 : FVec F S4x128x128 .f32) (main_arg14 : FVec F S4x128 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg9
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg10
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x256x128 .f32 := Host.absf main_arg11
  let main_cst_18 : FVec F S_ .f32 := constant S_ .f32 0x7F800000#32
  let main_v50 : FVec F S4x256x128 .f32 := broadcastInDim S4x256x128 ![] bcast_S_S4x256x128 main_cst_18
  fn_part3 (F := F) main_arg1 main_arg12 main_arg13 main_arg14 main_v48 main_v49 main_v50

def fn_part1 {F : FTy → Type} [FloatOps F] (main_arg1 : IVec S2x800000 32) (main_arg5 : FVec F S128x5 .f32) (main_arg6 : FVec F S5 .f32) (main_arg7 : FVec F S4x259x128 .f32) (main_arg8 : FVec F S4x128 .f32) (main_arg9 : FVec F S4x128x128 .f32) (main_arg10 : FVec F S4x128 .f32) (main_arg11 : FVec F S4x256x128 .f32) (main_arg12 : FVec F S4x128 .f32) (main_arg13 : FVec F S4x128x128 .f32) (main_arg14 : FVec F S4x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x5 .f32 := Host.absf main_arg5
  let main_cst_6 : FVec F S_ .f32 := constant S_ .f32 0x7F800000#32
  let main_v20 : FVec F S128x5 .f32 := broadcastInDim S128x5 ![] bcast_S_S128x5 main_cst_6
  let main_v21 : IVec S128x5 1 := cmpf .olt main_v19 main_v20
  let main_c_7 : IVec S_ 1 := constantI S_ 1 1#1
  let main_v22 : IVec S_ 1 := (fun x v => Host.reduce IntOp.andi x v reducesTo_S128x5_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S4x259x128 .f32 := Host.absf main_arg7
  let main_cst_10 : FVec F S_ .f32 := constant S_ .f32 0x7F800000#32
  let main_v30 : FVec F S4x259x128 .f32 := broadcastInDim S4x259x128 ![] bcast_S_S4x259x128 main_cst_10
  let main_v31 : IVec S4x259x128 1 := cmpf .olt main_v29 main_v30
  let main_c_11 : IVec S_ 1 := constantI S_ 1 1#1
  let main_v32 : IVec S_ 1 := (fun x v => Host.reduce IntOp.andi x v reducesTo_S4x259x128_S_d0_1_2 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x5 .f32) (main_arg1 : IVec S2x800000 32) (main_arg2 : FVec F S800000x3 .f32) (main_arg3 : FVec F S5x128 .f32) (main_arg4 : FVec F S128 .f32) (main_arg5 : FVec F S128x5 .f32) (main_arg6 : FVec F S5 .f32) (main_arg7 : FVec F S4x259x128 .f32) (main_arg8 : FVec F S4x128 .f32) (main_arg9 : FVec F S4x128x128 .f32) (main_arg10 : FVec F S4x128 .f32) (main_arg11 : FVec F S4x256x128 .f32) (main_arg12 : FVec F S4x128 .f32) (main_arg13 : FVec F S4x128x128 .f32) (main_arg14 : FVec F S4x128 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x5 : Shape := ⟨2, ![50000, 5]⟩
abbrev S2x800000 : Shape := ⟨2, ![2, 800000]⟩
abbrev S800000x3 : Shape := ⟨2, ![800000, 3]⟩
abbrev S5x128 : Shape := ⟨2, ![5, 128]⟩
abbrev S128 : Shape := ⟨1, ![128]⟩
abbrev S128x5 : Shape := ⟨2, ![128, 5]⟩
abbrev S5 : Shape := ⟨1, ![5]⟩
abbrev S4x259x128 : Shape := ⟨3, ![4, 259, 128]⟩
abbrev S4x128 : Shape := ⟨2, ![4, 128]⟩
abbrev S4x128x128 : Shape := ⟨3, ![4, 128, 128]⟩
abbrev S4x256x128 : Shape := ⟨3, ![4, 256, 128]⟩
abbrev S1x128 : Shape := ⟨2, ![1, 128]⟩
abbrev S50000x128 : Shape := ⟨2, ![50000, 128]⟩
abbrev S2000x5 : Shape := ⟨2, ![2000, 5]⟩
abbrev S2000x128 : Shape := ⟨2, ![2000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x259x128 : Shape := ⟨3, ![1, 259, 128]⟩
abbrev S259x128 : Shape := ⟨2, ![259, 128]⟩
abbrev S128x128 : Shape := ⟨2, ![128, 128]⟩
abbrev S3x128 : Shape := ⟨2, ![3, 128]⟩
abbrev S1x128x128 : Shape := ⟨3, ![1, 128, 128]⟩
abbrev S4000x128 : Shape := ⟨2, ![4000, 128]⟩
abbrev S4000x3 : Shape := ⟨2, ![4000, 3]⟩
abbrev S1x256x128 : Shape := ⟨3, ![1, 256, 128]⟩
abbrev S256x128 : Shape := ⟨2, ![256, 128]⟩
abbrev S1x5 : Shape := ⟨2, ![1, 5]⟩

abbrev nBuf : Space → Nat
  | .hbm => 99
  | .vmem => 33
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S800000x3, .f32⟩
  | .hbm, ⟨3, _⟩ => ⟨S5x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S4x259x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S4x256x128, .f32⟩
  | .hbm, ⟨12, _⟩ => ⟨S4x128, .f32⟩
  | .hbm, ⟨13, _⟩ => ⟨S4x128x128, .f32⟩
  | .hbm, ⟨14, _⟩ => ⟨S4x128, .f32⟩
  | .hbm, ⟨15, _⟩ => ⟨S1x128, .f32⟩
  | .hbm, ⟨16, _⟩ => ⟨S50000x128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x128, .f32⟩
  | .hbm, ⟨40, _⟩ => ⟨S800000x128, .i1⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S1x259x128, .f32⟩
  | .hbm, ⟨68, _⟩ => ⟨S259x128, .f32⟩
  | .hbm, ⟨69, _⟩ => ⟨S128x128, .f32⟩
  | .hbm, ⟨70, _⟩ => ⟨S128x128, .f32⟩
  | .hbm, ⟨71, _⟩ => ⟨S3x128, .f32⟩
  | .hbm, ⟨72, _⟩ => ⟨S1x128, .f32⟩
  | .hbm, ⟨73, _⟩ => ⟨S128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S1x256x128, .f32⟩
  | .hbm, ⟨86, _⟩ => ⟨S256x128, .f32⟩
  | .hbm, ⟨87, _⟩ => ⟨S128x128, .f32⟩
  | .hbm, ⟨88, _⟩ => ⟨S128x128, .f32⟩
  | .hbm, ⟨89, _⟩ => ⟨S1x128, .f32⟩
  | .hbm, ⟨90, _⟩ => ⟨S128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S1x128, .f32⟩
  | .hbm, ⟨97, _⟩ => ⟨S1x5, .f32⟩
  | .hbm, ⟨98, _⟩ => ⟨S50000x5, .f32⟩
  | .local _ .vmem, ⟨0, _⟩ => ⟨S2000x5, .f32⟩
  | .local _ .vmem, ⟨1, _⟩ => ⟨S2000x5, .f32⟩
  | .local _ .vmem, ⟨2, _⟩ => ⟨S5x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x3, .f32⟩
  | .local _ .vmem, ⟨11, _⟩ => ⟨S4000x3, .f32⟩
  | .local _ .vmem, ⟨12, _⟩ => ⟨S128x128, .f32⟩
  | .local _ .vmem, ⟨13, _⟩ => ⟨S128x128, .f32⟩
  | .local _ .vmem, ⟨14, _⟩ => ⟨S3x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x5, .f32⟩
  | .local _ .vmem, ⟨30, _⟩ => ⟨S1x5, .f32⟩
  | .local _ .vmem, ⟨31, _⟩ => ⟨S2000x5, .f32⟩
  | .local _ .vmem, ⟨32, _⟩ => ⟨S2000x5, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v6 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_cst : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem9_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x5 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x5 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S128_S1x128 : S128.ShapeCasts S1x128
  inb_S2000x5_S2000x5_0_0 : ∀ a, (![0, 0] : Fin 2 → Nat) a + S2000x5.size a ≤ S2000x5.size a
  h_S2000x5 : 0 < S2000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S4x259x128_S1x259x128_3_0_0 : S4x259x128.Slices ![3, 0, 0] S1x259x128
  shapeCasts_S1x259x128_S259x128 : S1x259x128.ShapeCasts S259x128
  slices_S259x128_S128x128_0_0 : S259x128.Slices ![0, 0] S128x128
  slices_S259x128_S128x128_128_0 : S259x128.Slices ![128, 0] S128x128
  slices_S259x128_S3x128_256_0 : S259x128.Slices ![256, 0] S3x128
  slices_S4x128_S1x128_3_0 : S4x128.Slices ![3, 0] S1x128
  shapeCasts_S1x128_S128 : S1x128.ShapeCasts S128
  slices_S4x128x128_S1x128x128_3_0_0 : S4x128x128.Slices ![3, 0, 0] S1x128x128
  shapeCasts_S1x128x128_S128x128 : S1x128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  broadcasts_S1x128_S4000x128 : S1x128.Broadcasts S4000x128
  bcast_S_S50000x128 : S_.BroadcastsInDim S50000x128 (![] : Fin 0 → Fin S50000x128.rank)
  slices_S4x256x128_S1x256x128_3_0_0 : S4x256x128.Slices ![3, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  shapeCasts_S5_S1x5 : S5.ShapeCasts S1x5
  shapeCasts_S2000x128_S2000x128 : S2000x128.ShapeCasts S2000x128
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  dot_S2000x5_S5x128_S2000x128_1_0_0_1_n_n_wf : DotDims.WF S2000x5 S5x128 S2000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x3_S3x128_S4000x128_1_0_0_1_n_n_wf : DotDims.WF S4000x3 S3x128 S4000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x5_S2000x5_1_0_0_1_n_n_wf : DotDims.WF S2000x128 S128x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S50000x5.size a
  hwx0_0 : ∀ i : grid0.Coords, EltTy.bits .f32 = 32 ∨ (Rect.block (s := S50000x5) S2000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S800000x3.size a
  hwx1_2 : ∀ i : grid1.Coords, EltTy.bits .f32 = 32 ∨ (Rect.block (s := S800000x3) S4000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x128.size a
  hwx1_5 : ∀ i : grid1.Coords, EltTy.bits .f32 = 32 ∨ (Rect.block (s := S3x128) S3x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S800000x128.size a
  hwx1_9 : ∀ i : grid1.Coords, EltTy.bits .f32 = 32 ∨ (Rect.block (s := S800000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x5.size a ≤ S128x5.size a
  hwx2_7 : ∀ i : grid2.Coords, EltTy.bits .f32 = 32 ∨ (Rect.block (s := S128x5) S128x5.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x5.size a ≤ S1x5.size a
  hwx2_8 : ∀ i : grid2.Coords, EltTy.bits .f32 = 32 ∨ (Rect.block (s := S1x5) S1x5.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x5.size a ≤ S50000x5.size a
  hwx2_9 : ∀ i : grid2.Coords, EltTy.bits .f32 = 32 ∨ (Rect.block (s := S50000x5) S2000x5.size (cc2_transform_9 i) (hinb2_9 i)).WholeWords (EltTy.packing .f32)

variable [Facts₀]

def dot_S2000x5_S5x128_S2000x128_1_0_0_1_n_n : DotDims S2000x5 S5x128 S2000x128 where
  lhsContracting := [1]
  rhsContracting := [0]
  lhsNonContracting := [0]
  rhsNonContracting := [1]
  lhsBatch := []
  rhsBatch := []
  wf := dot_S2000x5_S5x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x5_S2000x5_1_0_0_1_n_n : DotDims S2000x128 S128x5 S2000x5 where
  lhsContracting := [1]
  rhsContracting := [0]
  lhsNonContracting := [0]
  rhsNonContracting := [1]
  lhsBatch := []
  rhsBatch := []
  wf := dot_S2000x128_S128x5_S2000x5_1_0_0_1_n_n_wf

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S3x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S128x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S1x5.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38) S2000x5.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S800000x3 : Shape := ⟨2, ![800000, 3]⟩
abbrev S5x128 : Shape := ⟨2, ![5, 128]⟩
abbrev S128 : Shape := ⟨1, ![128]⟩
abbrev S128x5 : Shape := ⟨2, ![128, 5]⟩
abbrev S5 : Shape := ⟨1, ![5]⟩
abbrev S4x259x128 : Shape := ⟨3, ![4, 259, 128]⟩
abbrev S4x128 : Shape := ⟨2, ![4, 128]⟩
abbrev S4x128x128 : Shape := ⟨3, ![4, 128, 128]⟩
abbrev S4x256x128 : Shape := ⟨3, ![4, 256, 128]⟩
abbrev S50000x128 : Shape := ⟨2, ![50000, 128]⟩
abbrev S1x128 : Shape := ⟨2, ![1, 128]⟩
abbrev S1x259x128 : Shape := ⟨3, ![1, 259, 128]⟩
abbrev S259x128 : Shape := ⟨2, ![259, 128]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x259 : Shape := ⟨2, ![800000, 259]⟩
abbrev S50000x256 : Shape := ⟨2, ![50000, 256]⟩
abbrev S1x5 : Shape := ⟨2, ![1, 5]⟩

abbrev nBuf : Space → Nat
  | .hbm => 288
  | .vmem => 0
  | .smem => 0
  | _ => 0

abbrev hbmTy0_0 (i : Nat) : BufTy := match i % 128 with
  | 0 => ⟨S50000x5, .f32⟩
  | 1 => ⟨S2x800000, .i32⟩
  | 2 => ⟨S800000x3, .f32⟩
  | 3 => ⟨S5x128, .f32⟩
  | 4 => ⟨S128, .f32⟩
  | 5 => ⟨S128x5, .f32⟩
  | 6 => ⟨S5, .f32⟩
  | 7 => ⟨S4x259x128, .f32⟩
  | 8 => ⟨S4x128, .f32⟩
  | 9 => ⟨S4x128x128, .f32⟩
  | 10 => ⟨S4x128, .f32⟩
  | 11 => ⟨S4x256x128, .f32⟩
  | 12 => ⟨S4x128, .f32⟩
  | 13 => ⟨S4x128x128, .f32⟩
  | 14 => ⟨S4x128, .f32⟩
  | 15 => ⟨S50000x128, .f32⟩
  | 16 => ⟨S1x128, .f32⟩
  | 17 => ⟨S50000x128, .f32⟩
  | 18 => ⟨S50000x128, .f32⟩
  | 19 => ⟨S1x259x128, .f32⟩
  | 20 => ⟨S259x128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S1x256x128, .f32⟩
  | 28 => ⟨S256x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x800000, .i32⟩
  | 36 => ⟨S800000, .i32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x259, .f32⟩
  | 58 => ⟨S800000x128, .f32⟩
  | 59 => ⟨S1x128, .f32⟩
  | 60 => ⟨S800000x128, .f32⟩
  | 61 => ⟨S800000x128, .f32⟩
  | 62 => ⟨S_, .f32⟩
  | 63 => ⟨S800000x128, .f32⟩
  | 64 => ⟨S800000x128, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x256, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x259x128, .f32⟩
  | 86 => ⟨S259x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x256x128, .f32⟩
  | 94 => ⟨S256x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S1x800000, .i32⟩
  | 102 => ⟨S800000, .i32⟩
  | 103 => ⟨S1x800000, .i32⟩
  | 104 => ⟨S800000, .i32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x259, .f32⟩
  | 124 => ⟨S800000x128, .f32⟩
  | 125 => ⟨S1x128, .f32⟩
  | 126 => ⟨S800000x128, .f32⟩
  | 127 => ⟨S800000x128, .f32⟩
  | _ => ⟨S50000x5, .f32⟩

abbrev hbmTy0_1 (i : Nat) : BufTy := match i % 128 with
  | 0 => ⟨S_, .f32⟩
  | 1 => ⟨S800000x128, .f32⟩
  | 2 => ⟨S800000x128, .f32⟩
  | 3 => ⟨S800000x128, .f32⟩
  | 4 => ⟨S1x128, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x256, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x259x128, .f32⟩
  | 24 => ⟨S259x128, .f32⟩
  | 25 => ⟨S1x128, .f32⟩
  | 26 => ⟨S128, .f32⟩
  | 27 => ⟨S1x128x128, .f32⟩
  | 28 => ⟨S128x128, .f32⟩
  | 29 => ⟨S1x128, .f32⟩
  | 30 => ⟨S128, .f32⟩
  | 31 => ⟨S1x256x128, .f32⟩
  | 32 => ⟨S256x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x800000, .i32⟩
  | 40 => ⟨S800000, .i32⟩
  | 41 => ⟨S1x800000, .i32⟩
  | 42 => ⟨S800000, .i32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x259, .f32⟩
  | 62 => ⟨S800000x128, .f32⟩
  | 63 => ⟨S1x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S800000x128, .f32⟩
  | 70 => ⟨S1x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x256, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x259x128, .f32⟩
  | 90 => ⟨S259x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S1x256x128, .f32⟩
  | 98 => ⟨S256x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S1x800000, .i32⟩
  | 106 => ⟨S800000, .i32⟩
  | 107 => ⟨S1x800000, .i32⟩
  | 108 => ⟨S800000, .i32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x259, .f32⟩
  | _ => ⟨S50000x5, .f32⟩

abbrev hbmTy0_2 (i : Nat) : BufTy := match i % 128 with
  | 0 => ⟨S800000x128, .f32⟩
  | 1 => ⟨S1x128, .f32⟩
  | 2 => ⟨S800000x128, .f32⟩
  | 3 => ⟨S800000x128, .f32⟩
  | 4 => ⟨S_, .f32⟩
  | 5 => ⟨S800000x128, .f32⟩
  | 6 => ⟨S800000x128, .f32⟩
  | 7 => ⟨S800000x128, .f32⟩
  | 8 => ⟨S1x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x256, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S50000x5, .f32⟩
  | 29 => ⟨S1x5, .f32⟩
  | 30 => ⟨S50000x5, .f32⟩
  | 31 => ⟨S50000x5, .f32⟩
  | _ => ⟨S50000x5, .f32⟩

abbrev hbmTy (i : Nat) : BufTy := match i / 128 with
  | 0 => hbmTy0_0 i
  | 1 => hbmTy0_1 i
  | 2 => hbmTy0_2 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_3 : Ref sig .tc := ⟨.hbm, 105, rfl⟩
abbrev main_v81 : Ref sig .tc := ⟨.hbm, 106, rfl⟩
abbrev main_v82 : Ref sig .tc := ⟨.hbm, 107, rfl⟩
abbrev main_c_4 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_5 : Ref sig .tc := ⟨.hbm, 114, rfl⟩
abbrev main_v88 : Ref sig .tc := ⟨.hbm, 115, rfl⟩
abbrev main_v89 : Ref sig .tc := ⟨.hbm, 116, rfl⟩
abbrev main_c_6 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call2_cst : Ref sig .tc := ⟨.hbm, 128, rfl⟩
abbrev main_call2_v0 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_7 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_call3_cst : Ref sig .tc := ⟨.hbm, 144, rfl⟩
abbrev main_call3_v0 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_c_8 : Ref sig .tc := ⟨.hbm, 171, rfl⟩
abbrev main_v138 : Ref sig .tc := ⟨.hbm, 172, rfl⟩
abbrev main_v139 : Ref sig .tc := ⟨.hbm, 173, rfl⟩
abbrev main_c_9 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_c_10 : Ref sig .tc := ⟨.hbm, 180, rfl⟩
abbrev main_v145 : Ref sig .tc := ⟨.hbm, 181, rfl⟩
abbrev main_v146 : Ref sig .tc := ⟨.hbm, 182, rfl⟩
abbrev main_c_11 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_call4_cst : Ref sig .tc := ⟨.hbm, 194, rfl⟩
abbrev main_call4_v0 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_12 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_call5_cst : Ref sig .tc := ⟨.hbm, 210, rfl⟩
abbrev main_call5_v0 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_c_13 : Ref sig .tc := ⟨.hbm, 237, rfl⟩
abbrev main_v195 : Ref sig .tc := ⟨.hbm, 238, rfl⟩
abbrev main_v196 : Ref sig .tc := ⟨.hbm, 239, rfl⟩
abbrev main_c_14 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_c_15 : Ref sig .tc := ⟨.hbm, 246, rfl⟩
abbrev main_v202 : Ref sig .tc := ⟨.hbm, 247, rfl⟩
abbrev main_v203 : Ref sig .tc := ⟨.hbm, 248, rfl⟩
abbrev main_c_16 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_call6_cst : Ref sig .tc := ⟨.hbm, 260, rfl⟩
abbrev main_call6_v0 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_cst_17 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_call7_cst : Ref sig .tc := ⟨.hbm, 276, rfl⟩
abbrev main_call7_v0 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x259x128_S1x259x128_0_0_0 : S4x259x128.Slices ![0, 0, 0] S1x259x128
  shapeCasts_S1x259x128_S259x128 : S1x259x128.ShapeCasts S259x128
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  shapeCasts_S1x128x128_S128x128 : S1x128x128.ShapeCasts S128x128
  slices_S4x256x128_S1x256x128_0_0_0 : S4x256x128.Slices ![0, 0, 0] S1x256x128
  shapeCasts_S1x256x128_S256x128 : S1x256x128.ShapeCasts S256x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x3_S800000x259_d1 : Shape.Concatenates [S800000x128, S800000x128, S800000x3] S800000x259 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  slices_S4x259x128_S1x259x128_1_0_0 : S4x259x128.Slices ![1, 0, 0] S1x259x128
  slices_S4x128_S1x128_1_0 : S4x128.Slices ![1, 0] S1x128
  slices_S4x128x128_S1x128x128_1_0_0 : S4x128x128.Slices ![1, 0, 0] S1x128x128
  slices_S4x256x128_S1x256x128_1_0_0 : S4x256x128.Slices ![1, 0, 0] S1x256x128
  slices_S4x259x128_S1x259x128_2_0_0 : S4x259x128.Slices ![2, 0, 0] S1x259x128
  slices_S4x128_S1x128_2_0 : S4x128.Slices ![2, 0] S1x128
  slices_S4x128x128_S1x128x128_2_0_0 : S4x128x128.Slices ![2, 0, 0] S1x128x128
  slices_S4x256x128_S1x256x128_2_0_0 : S4x256x128.Slices ![2, 0, 0] S1x256x128
  slices_S4x259x128_S1x259x128_3_0_0 : S4x259x128.Slices ![3, 0, 0] S1x259x128
  slices_S4x128_S1x128_3_0 : S4x128.Slices ![3, 0] S1x128
  slices_S4x128x128_S1x128x128_3_0_0 : S4x128x128.Slices ![3, 0, 0] S1x128x128
  slices_S4x256x128_S1x256x128_3_0_0 : S4x256x128.Slices ![3, 0, 0] S1x256x128
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  dot_S50000x5_S5x128_S50000x128_1_0_0_1_n_n_wf : DotDims.WF S50000x5 S5x128 S50000x128 [1] [0] [0] [1] [] []
  gather_S50000x128_S800000x1_S800000x128_1_0_n_n_0_1_1128_wf : GatherDims.WF S50000x128 S800000x1 S800000x128 [1] [0] [] [0] [] 1 ![1, 128]
  dot_S800000x259_S259x128_S800000x128_1_0_0_1_n_n_wf : DotDims.WF S800000x259 S259x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x5_S50000x5_1_0_0_1_n_n_wf : DotDims.WF S50000x128 S128x5 S50000x5 [1] [0] [0] [1] [] []

variable [Facts₀]

def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x259_S259x128_S800000x128_1_0_0_1_n_n : DotDims S800000x259 S259x128 S800000x128 where
  lhsContracting := [1]
  rhsContracting := [0]
  lhsNonContracting := [0]
  rhsNonContracting := [1]
  lhsBatch := []
  rhsBatch := []
  wf := dot_S800000x259_S259x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x5_S50000x5_1_0_0_1_n_n : DotDims S50000x128 S128x5 S50000x5 where
  lhsContracting := [1]
  rhsContracting := [0]
  lhsNonContracting := [0]
  rhsNonContracting := [1]
  lhsBatch := []
  rhsBatch := []
  wf := dot_S50000x128_S128x5_S50000x5_1_0_0_1_n_n_wf

class Facts : Prop extends Facts₀ where

variable [Facts]
-- ==== Proof.Spec.lean ====
/-
  The specification both programs are proved equal to, over the extended reals.

  A message-passing layer on a graph of 50000 nodes and 800000 edges, hidden width 128.
    h      = x · enc_w + enc_b                                      (50000 × 128)
    x_i, x_j = rows of h at the edges' target and source nodes       (800000 × 128 each)
    msg    = relu(x_i · W1[0:128] + x_j · W1[128:256] + e · W1[256:259] + b1) · W2 + b2
    aggr   = the sum of msg over the edges that share a target node  (50000 × 128)
    out    = (h + (relu(h · U1[0:128] + aggr · U1[128:256] + c1) · U2 + c2)) · dec_w + dec_b
  Every product of matrices is the plain sum of products over the contracted coordinate; the three (resp. two)
  partial products against the row blocks of W1 (resp. U1) are what a product against the columns of
  x_i, x_j and e laid side by side is, regrouped: only commutativity and associativity of + are used, which
  hold on the extended reals with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-! ## Regrouping a sum over 259 = 128 + 128 + 3 and over 256 = 128 + 128 coordinates -/

/-- Coordinate `k` of the first block of 128 among 259. -/
def lo259 (k : Fin 128) : Fin 259 := ⟨k.val, by omega⟩
/-- Coordinate `k` of the second block of 128 among 259. -/
def mid259 (k : Fin 128) : Fin 259 := ⟨128 + k.val, by omega⟩
/-- Coordinate `k` of the last block of 3 among 259. -/
def hi259 (k : Fin 3) : Fin 259 := ⟨256 + k.val, by omega⟩
/-- Coordinate `k` of the first block of 128 among 256. -/
def lo256 (k : Fin 128) : Fin 256 := ⟨k.val, by omega⟩
/-- Coordinate `k` of the second block of 128 among 256. -/
def hi256 (k : Fin 128) : Fin 256 := ⟨128 + k.val, by omega⟩

/-- A sum over 259 coordinates is the sum over its blocks of 128, 128 and 3, in any additive commutative monoid. -/
theorem sum259 {M : Type} [AddCommMonoid M] (f : Fin 259 → M) :
    ∑ k : Fin 259, f k = ((∑ k : Fin 128, f (lo259 k)) + ∑ k : Fin 128, f (mid259 k)) + ∑ k : Fin 3, f (hi259 k) := by
  have e : (259 : Nat) = (128 + 128) + 3 := rfl
  have h1 : ∑ k : Fin 259, f k = ∑ k : Fin ((128 + 128) + 3), f (Fin.cast e.symm k) :=
    (Fintype.sum_equiv (finCongr e) _ _ (fun k => by congr 1)).trans rfl
  rw [h1, Fin.sum_univ_add, Fin.sum_univ_add]
  rfl

/-- A sum over 256 coordinates is the sum over its two blocks of 128. -/
theorem sum256 {M : Type} [AddCommMonoid M] (f : Fin 256 → M) :
    ∑ k : Fin 256, f k = (∑ k : Fin 128, f (lo256 k)) + ∑ k : Fin 128, f (hi256 k) := by
  have e : (256 : Nat) = 128 + 128 := rfl
  have h1 : ∑ k : Fin 256, f k = ∑ k : Fin (128 + 128), f (Fin.cast e.symm k) :=
    (Fintype.sum_equiv (finCongr e) _ _ (fun k => by congr 1)).trans rfl
  rw [h1, Fin.sum_univ_add]
  rfl

/-! ## The three dense stages, one entry at a time -/

/-- Entry `(n, c)` of `x · w + b`: five products and the bias. -/
def encAt (x : Fin 50000 → Fin 5 → EReal) (w : Fin 5 → Fin 128 → EReal) (b : Fin 128 → EReal)
    (n : Fin 50000) (c : Fin 128) : EReal :=
  (∑ t : Fin 5, x n t * w t c) + b c

/-- One edge's hidden activation at coordinate `c`, from the two gathered rows `xi`, `xj` and the edge's features `ea`:
    the three partial products against the row blocks of the first weight, the bias, then the positive part. -/
def msgHidden (xi xj : Fin 128 → EReal) (ea : Fin 3 → EReal) (w1i w1j : Fin 128 → Fin 128 → EReal)
    (w1e : Fin 3 → Fin 128 → EReal) (b1 : Fin 128 → EReal) (c : Fin 128) : EReal :=
  max ((((∑ k : Fin 128, xi k * w1i k c) + ∑ k : Fin 128, xj k * w1j k c) + ∑ k : Fin 3, ea k * w1e k c) + b1 c) 0

/-- One edge's message at coordinate `c`. -/
def msgAt (xi xj : Fin 128 → EReal) (ea : Fin 3 → EReal) (w1i w1j : Fin 128 → Fin 128 → EReal)
    (w1e : Fin 3 → Fin 128 → EReal) (b1 : Fin 128 → EReal) (w2 : Fin 128 → Fin 128 → EReal) (b2 : Fin 128 → EReal)
    (c : Fin 128) : EReal :=
  (∑ k : Fin 128, msgHidden xi xj ea w1i w1j w1e b1 k * w2 k c) + b2 c

/-- One node's hidden activation of the update at coordinate `c`, from its encoded row `h` and its aggregated row `a`. -/
def updHidden (h a : Fin 128 → EReal) (u1h u1a : Fin 128 → Fin 128 → EReal) (c1 : Fin 128 → EReal) (c : Fin 128) : EReal :=
  max (((∑ k : Fin 128, h k * u1h k c) + ∑ k : Fin 128, a k * u1a k c) + c1 c) 0

/-- One node's row after the update and the residual sum, at coordinate `c`. -/
def updRow (h a : Fin 128 → EReal) (u1h u1a : Fin 128 → Fin 128 → EReal) (c1 : Fin 128 → EReal)
    (u2 : Fin 128 → Fin 128 → EReal) (c2 : Fin 128 → EReal) (c : Fin 128) : EReal :=
  h c + ((∑ k : Fin 128, updHidden h a u1h u1a c1 k * u2 k c) + c2 c)

/-- One node's decoded output at coordinate `q`. -/
def outAt (h a : Fin 128 → EReal) (u1h u1a : Fin 128 → Fin 128 → EReal) (c1 : Fin 128 → EReal)
    (u2 : Fin 128 → Fin 128 → EReal) (c2 : Fin 128 → EReal) (dw : Fin 128 → Fin 5 → EReal) (db : Fin 5 → EReal)
    (q : Fin 5) : EReal :=
  (∑ k : Fin 128, updRow h a u1h u1a c1 u2 c2 k * dw k q) + db q

/-! ## The same two hidden activations against the UNSPLIT first weights -/

/-- The three row blocks of a 259-row weight give the product against the 259 columns laid side by side. -/
theorem msgHidden_unsplit (xi xj : Fin 128 → EReal) (ea : Fin 3 → EReal) (W1 : Fin 259 → Fin 128 → EReal)
    (cat : Fin 259 → EReal) (hlo : ∀ k, cat (lo259 k) = xi k) (hmid : ∀ k, cat (mid259 k) = xj k)
    (hhi : ∀ k, cat (hi259 k) = ea k) (b1 : Fin 128 → EReal) (c : Fin 128) :
    max ((∑ k : Fin 259, cat k * W1 k c) + b1 c) 0
      = msgHidden xi xj ea (fun k => W1 (lo259 k)) (fun k => W1 (mid259 k)) (fun k => W1 (hi259 k)) b1 c := by
  unfold msgHidden
  rw [sum259]
  simp only [hlo, hmid, hhi]

/-- The two row blocks of a 256-row weight give the product against the 256 columns laid side by side. -/
theorem updHidden_unsplit (h a : Fin 128 → EReal) (U1 : Fin 256 → Fin 128 → EReal)
    (cat : Fin 256 → EReal) (hlo : ∀ k, cat (lo256 k) = h k) (hhi : ∀ k, cat (hi256 k) = a k)
    (c1 : Fin 128 → EReal) (c : Fin 128) :
    max ((∑ k : Fin 256, cat k * U1 k c) + c1 c) 0
      = updHidden h a (fun k => U1 (lo256 k)) (fun k => U1 (hi256 k)) c1 c := by
  unfold updHidden
  rw [sum256]
  simp only [hlo, hhi]

end Cert.Spec

end
-- ==== Proof.EncValue.lean ====
/-
  REGION 0, the encoder, as a value: after its 25 grid points the output array holds x · enc_w + enc_b,
  entry by entry, of the arrays the region was entered with. Point t computes rows 2000·t … 2000·t + 1999
  from the same rows of x and the whole weight and bias; the 25 row blocks tile the 50000 rows.
-/
import proofs.«416000_j42125039239963_1_alg».proof.Proof.Gen.KernelIdeal.Frame
import proofs.«416000_j42125039239963_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EncValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- What the output array ends holding: entry (n, q) is the five products of row n of x with column q of the
    weight, plus the bias at q (the bias arrives as a 1 × 128 array). -/
def G (c : Dev nD) : S50000x128.Idx → EReal := fun j =>
  Cert.Spec.encAt (fun n t => (V c main_arg0 : S50000x5.Idx → EReal) (ix2 n t))
    (fun t q => (V c main_arg3 : S5x128.Idx → EReal) (ix2 t q))
    (fun q => (V c main_v0 : S1x128.Idx → EReal) (ix2 0 q)) (j 0) (j 1)

/-! ## The product's operand indices, axis by axis -/

/-- Axis 0 of the left operand is the output's row. -/
theorem lhs_row (j : S2000x128.Idx) (k : dot_S2000x5_S5x128_S2000x128_1_0_0_1_n_n.contr.Idx) :
    (dot_S2000x5_S5x128_S2000x128_1_0_0_1_n_n.lhsIdx j k (0 : Fin 2)).val = (j 0).val := by
  unfold DotDims.lhsIdx
  rw [dif_neg (show ¬ (0 : Fin S2000x5.rank) ∈ dot_S2000x5_S5x128_S2000x128_1_0_0_1_n_n.lhsBatch by decide),
    dif_pos (show (0 : Fin S2000x5.rank) ∈ dot_S2000x5_S5x128_S2000x128_1_0_0_1_n_n.lhsNonContracting by decide)]
  rfl

/-- Axis 1 of the left operand is the contracted coordinate. -/
theorem lhs_contr (j : S2000x128.Idx) (k : dot_S2000x5_S5x128_S2000x128_1_0_0_1_n_n.contr.Idx) :
    (dot_S2000x5_S5x128_S2000x128_1_0_0_1_n_n.lhsIdx j k (1 : Fin 2)).val = (k ⟨0, by decide⟩).val :=
  dot_S2000x5_S5x128_S2000x128_1_0_0_1_n_n.lhsIdx_val_of_single rfl j k

/-- Axis 0 of the right operand is the contracted coordinate. -/
theorem rhs_contr (j : S2000x128.Idx) (k : dot_S2000x5_S5x128_S2000x128_1_0_0_1_n_n.contr.Idx) :
    (dot_S2000x5_S5x128_S2000x128_1_0_0_1_n_n.rhsIdx j k (0 : Fin 2)).val = (k ⟨0, by decide⟩).val :=
  dot_S2000x5_S5x128_S2000x128_1_0_0_1_n_n.rhsIdx_val_of_single rfl j k

/-- Axis 1 of the right operand is the output's column. -/
theorem rhs_col (j : S2000x128.Idx) (k : dot_S2000x5_S5x128_S2000x128_1_0_0_1_n_n.contr.Idx) :
    (dot_S2000x5_S5x128_S2000x128_1_0_0_1_n_n.rhsIdx j k (1 : Fin 2)).val = (j 1).val := by
  unfold DotDims.rhsIdx
  rw [dif_neg (show ¬ (1 : Fin S5x128.rank) ∈ dot_S2000x5_S5x128_S2000x128_1_0_0_1_n_n.rhsBatch by decide),
    dif_pos (show (1 : Fin S5x128.rank) ∈ dot_S2000x5_S5x128_S2000x128_1_0_0_1_n_n.rhsNonContracting by decide)]
  rfl

/-- The product into the zero accumulator, at row p and column q: the five products of row p with column q. -/
theorem matmul_at (a : FVec Ideal S2000x5 .bf16) (b : FVec Ideal S5x128 .bf16) (p : Fin 2000) (q : Fin 128) :
    matmul dot_S2000x5_S5x128_S2000x128_1_0_0_1_n_n none a b (constant (F := Ideal) S2000x128 .f32 0x00000000#32) (ix2 p q)
      = ∑ t : Fin 5, a (ix2 p t) * b (ix2 t q) := by
  simp only [matmul]
  rw [Ideal.matmul_constant_zero_apply,
    ← Equiv.sum_comp (contrEquiv1 dot_S2000x5_S5x128_S2000x128_1_0_0_1_n_n 5 rfl rfl).symm]
  refine Finset.sum_congr rfl fun t _ => ?_
  have hk := contrEquiv1_symm_val dot_S2000x5_S5x128_S2000x128_1_0_0_1_n_n 5 rfl rfl t
  have hl : dot_S2000x5_S5x128_S2000x128_1_0_0_1_n_n.lhsIdx (ix2 p q)
      ((contrEquiv1 dot_S2000x5_S5x128_S2000x128_1_0_0_1_n_n 5 rfl rfl).symm t) = ix2 p t := by
    funext ax; apply Fin.ext
    match ax with
    | ⟨0, _⟩ => exact lhs_row _ _
    | ⟨1, _⟩ => exact (lhs_contr _ _).trans hk
  have hr : dot_S2000x5_S5x128_S2000x128_1_0_0_1_n_n.rhsIdx (ix2 p q)
      ((contrEquiv1 dot_S2000x5_S5x128_S2000x128_1_0_0_1_n_n 5 rfl rfl).symm t) = ix2 t q := by
    funext ax; apply Fin.ext
    match ax with
    | ⟨0, _⟩ => exact (rhs_contr _ _).trans hk
    | ⟨1, _⟩ => exact rhs_col _ _
  rw [hl, hr]

/-- The body's result at row p and column q of a block: the five products of the block's row p of x with
    column q of the weight, plus the bias at q. -/
theorem pay_at (x : Vec Ideal S2000x5 .f32) (w : Vec Ideal S5x128 .f32) (b : Vec Ideal S1x128 .f32)
    (p : Fin 2000) (q : Fin 128) :
    k0_pay1 x w b (ix2 p q) = (∑ t : Fin 5, x (ix2 p t) * w (ix2 t q)) + b (ix2 (0 : Fin 1) q) := by
  unfold k0_pay1
  rw [addf_apply, matmul_at, shapeCast_self, broadcastTo_1b_ab_apply]
  rfl

/-- The same entry against whole arrays: if row p of the block of x is row n of X, and the block's weight and bias are
    W's and B's at column m, the body's result at (p, q) is the specification's entry (n, m). -/
theorem block_entry (X : S50000x5.Idx → EReal) (W : S5x128.Idx → EReal) (B : S1x128.Idx → EReal)
    (x : Vec Ideal S2000x5 .f32) (w : Vec Ideal S5x128 .f32) (b : Vec Ideal S1x128 .f32)
    (p : Fin 2000) (q : Fin 128) (i : S50000x128.Idx)
    (hx : ∀ k : Fin 5, x (ix2 p k) = X (ix2 (i 0) k)) (hw : ∀ k : Fin 5, w (ix2 k q) = W (ix2 k (i 1)))
    (hb : b (ix2 (0 : Fin 1) q) = B (ix2 (0 : Fin 1) (i 1))) :
    k0_pay1 x w b (ix2 p q)
      = Cert.Spec.encAt (fun n t => X (ix2 n t)) (fun t m => W (ix2 t m)) (fun m => B (ix2 0 m)) (i 0) (i 1) := by
  rw [pay_at]
  unfold Cert.Spec.encAt
  simp only [hx, hw, hb]

/-! ## From blocks to the array -/

/-- The zero offsets of the body's whole-buffer accesses. -/
theorem zero_offsets : (![0, 0] : Fin 2 → Nat) = fun _ => 0 :=
  funext fun a => by match a with | ⟨0, _⟩ => rfl | ⟨1, _⟩ => rfl

/-- The printed index maps over the 25 points: x and the output are at row block t, column block 0; the weight and
    the bias are whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is rows 2000·t … 2000·t + 1999 of G. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero zero_offsets]
  simp only [View.ld_unit_zero (S := S2000x5) zero_offsets, View.ld_unit_zero (S := S5x128) zero_offsets,
    View.ld_unit_zero (S := S1x128) zero_offsets]
  obtain ⟨e00, e01, e10, e11, e20, e21, e30, e31⟩ := block_indices t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q) = G V c (((cfg0.win 3).blk t).view.emb (ix2 p q))
  -- each input block read where the output's row and column say
  have hx : ∀ k : Fin 5, ((cfg0.win 0).blk t).view.emb (ix2 p k)
      = ix2 ((((cfg0.win 3).blk t).view.emb (ix2 p q)) 0) k := by
    intro k; funext a; apply Fin.ext
    match a with
    | ⟨0, _⟩ =>
      show win0_0.index t (0 : Fin 2) * 2000 + 1 * p.val = win0_3.index t (0 : Fin 2) * 2000 + 1 * p.val
      omega
    | ⟨1, _⟩ =>
      show win0_0.index t (1 : Fin 2) * 5 + 1 * k.val = k.val
      omega
  have hw : ∀ k : Fin 5, ((cfg0.win 1).blk t).view.emb (ix2 k q)
      = ix2 k ((((cfg0.win 3).blk t).view.emb (ix2 p q)) 1) := by
    intro k; funext a; apply Fin.ext
    match a with
    | ⟨0, _⟩ =>
      show win0_1.index t (0 : Fin 2) * 5 + 1 * k.val = k.val
      omega
    | ⟨1, _⟩ =>
      show win0_1.index t (1 : Fin 2) * 128 + 1 * q.val = win0_3.index t (1 : Fin 2) * 128 + 1 * q.val
      omega
  have hb : ((cfg0.win 2).blk t).view.emb (ix2 (0 : Fin 1) q)
      = ix2 (0 : Fin 1) ((((cfg0.win 3).blk t).view.emb (ix2 p q)) 1) := by
    funext a; apply Fin.ext
    match a with
    | ⟨0, _⟩ =>
      show win0_2.index t (0 : Fin 2) * 1 + 1 * 0 = 0
      omega
    | ⟨1, _⟩ =>
      show win0_2.index t (1 : Fin 2) * 128 + 1 * q.val = win0_3.index t (1 : Fin 2) * 128 + 1 * q.val
      omega
  refine block_entry (V c main_arg0) (V c main_arg3) (V c main_v0) _ _ _ p q
    (((cfg0.win 3).blk t).view.emb (ix2 p q)) ?_ ?_ ?_
  · intro k; exact congrArg (V c main_arg0) (hx k)
  · intro k; exact congrArg (V c main_arg3) (hw k)
  · exact congrArg (V c main_v0) hb

/-- An entry of the output array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- The 25 row blocks tile the 50000 rows: row r is in the block of point r / 2000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 := ⟨⟨(i 0).val / 2000, by show _ < grid0.N; omega⟩, rfl⟩
  obtain ⟨-, -, -, -, -, -, e30, e31⟩ := block_indices t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE ARRAY after the region: `G` of the entry arrays. -/
theorem final (c : Dev nD) : (dat0 (F := Ideal) V c).arrAt 3 cfg0.N = G V c :=
  (dat0 (F := Ideal) V c).arrAt_eq_of_cover 3 (G V c) (fun t _ => flushed_eq V c t) covered

end Cert.KernelIdeal.EncValue

end
-- ==== Proof.MsgValue.lean ====
/-
  REGION 1, the per-edge message network, as a value: after its 200 grid points the output array holds, for
  every edge, relu(x_i · W1a + x_j · W1b + e · W1c + b1) · W2 + b2 of the arrays the region was entered with.
  Point t computes rows 4000·t … 4000·t + 3999 from the same rows of x_i, x_j and e and the whole weights and
  biases; the 200 row blocks tile the 800000 rows.
-/
import proofs.«416000_j42125039239963_1_alg».proof.Proof.Gen.KernelIdeal.Frame
import proofs.«416000_j42125039239963_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- What the output array ends holding: entry (e, q) is the message of edge e at coordinate q. Window order:
    0 the target rows x_i, 1 the source rows x_j, 2 the edge features, 3–5 the three row blocks of the first
    weight, 6 its bias (1 × 128), 7 the second weight, 8 its bias (1 × 128). -/
def G (c : Dev nD) : S800000x128.Idx → EReal := fun j =>
  Cert.Spec.msgAt (fun k => (V c main_v7 : S800000x128.Idx → EReal) (ix2 (j 0) k))
    (fun k => (V c main_v6 : S800000x128.Idx → EReal) (ix2 (j 0) k))
    (fun k => (V c main_arg2 : S800000x3.Idx → EReal) (ix2 (j 0) k))
    (fun k q => (V c main_v10 : S128x128.Idx → EReal) (ix2 k q))
    (fun k q => (V c main_v11 : S128x128.Idx → EReal) (ix2 k q))
    (fun k q => (V c main_v12 : S3x128.Idx → EReal) (ix2 k q))
    (fun q => (V c main_v19 : S1x128.Idx → EReal) (ix2 0 q))
    (fun k q => (V c main_v16 : S128x128.Idx → EReal) (ix2 k q))
    (fun q => (V c main_v20 : S1x128.Idx → EReal) (ix2 0 q)) (j 1)

/-! ## A block product read at an entry

A product into the zero accumulator is, at the extended reals, the sum over the contracted coordinate of the
operands' products. The operand indices of the two dimension-number records (rows × contraction times
contraction × columns), axis by axis. -/

theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem lhs3_0 (i : S4000x128.Idx) (q : dot_S4000x3_S3x128_S4000x128_1_0_0_1_n_n.contr.Idx) :
    (dot_S4000x3_S3x128_S4000x128_1_0_0_1_n_n.lhsIdx i q 0).val = (i 0).val := by
  unfold DotDims.lhsIdx
  rw [dif_neg (show ¬(0 : Fin S4000x3.rank) ∈ dot_S4000x3_S3x128_S4000x128_1_0_0_1_n_n.lhsBatch by decide),
    dif_pos (show (0 : Fin S4000x3.rank) ∈ dot_S4000x3_S3x128_S4000x128_1_0_0_1_n_n.lhsNonContracting by decide)]
  rfl

theorem lhs3_1 (i : S4000x128.Idx) (q : dot_S4000x3_S3x128_S4000x128_1_0_0_1_n_n.contr.Idx) :
    (dot_S4000x3_S3x128_S4000x128_1_0_0_1_n_n.lhsIdx i q 1).val = (q ⟨0, by decide⟩).val :=
  dot_S4000x3_S3x128_S4000x128_1_0_0_1_n_n.lhsIdx_val_of_single rfl i q

theorem rhs3_0 (i : S4000x128.Idx) (q : dot_S4000x3_S3x128_S4000x128_1_0_0_1_n_n.contr.Idx) :
    (dot_S4000x3_S3x128_S4000x128_1_0_0_1_n_n.rhsIdx i q 0).val = (q ⟨0, by decide⟩).val :=
  dot_S4000x3_S3x128_S4000x128_1_0_0_1_n_n.rhsIdx_val_of_single rfl i q

theorem rhs3_1 (i : S4000x128.Idx) (q : dot_S4000x3_S3x128_S4000x128_1_0_0_1_n_n.contr.Idx) :
    (dot_S4000x3_S3x128_S4000x128_1_0_0_1_n_n.rhsIdx i q 1).val = (i 1).val := by
  unfold DotDims.rhsIdx
  rw [dif_neg (show ¬(1 : Fin S3x128.rank) ∈ dot_S4000x3_S3x128_S4000x128_1_0_0_1_n_n.rhsBatch by decide),
    dif_pos (show (1 : Fin S3x128.rank) ∈ dot_S4000x3_S3x128_S4000x128_1_0_0_1_n_n.rhsNonContracting by decide)]
  rfl

/-- Entry (p, q) of a 4000 × 128 by 128 × 128 product into zero: the sum of the 128 products along row p and column q. -/
theorem matmul128_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q)
      ((contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- Entry (p, q) of a 4000 × 3 by 3 × 128 product into zero: the sum of the 3 products along row p and column q. -/
theorem matmul3_apply {φ₁ φ₂ : FTy} (l : FVec Ideal S4000x3 φ₁) (r : FVec Ideal S3x128 φ₂) (p : Fin 4000) (q : Fin 128) :
    matmul dot_S4000x3_S3x128_S4000x128_1_0_0_1_n_n none l r (constant (F := Ideal) S4000x128 .f32 0x00000000#32) (ix2 p q)
      = ∑ k : Fin 3, l (ix2 p k) * r (ix2 k q) := by
  simp only [matmul]
  rw [Ideal.matmul_constant_zero_apply,
    ← Equiv.sum_comp (contrEquiv1 dot_S4000x3_S3x128_S4000x128_1_0_0_1_n_n 3 rfl rfl).symm]
  refine Finset.sum_congr rfl fun k _ => ?_
  have hk := contrEquiv1_symm_val dot_S4000x3_S3x128_S4000x128_1_0_0_1_n_n 3 rfl rfl k
  have el : dot_S4000x3_S3x128_S4000x128_1_0_0_1_n_n.lhsIdx (ix2 p q)
      ((contrEquiv1 dot_S4000x3_S3x128_S4000x128_1_0_0_1_n_n 3 rfl rfl).symm k) = ix2 p k := funext fun a => Fin.ext (by
    match a with
    | ⟨0, _⟩ => exact lhs3_0 _ _
    | ⟨1, _⟩ => exact (lhs3_1 _ _).trans hk)
  have er : dot_S4000x3_S3x128_S4000x128_1_0_0_1_n_n.rhsIdx (ix2 p q)
      ((contrEquiv1 dot_S4000x3_S3x128_S4000x128_1_0_0_1_n_n 3 rfl rfl).symm k) = ix2 k q := funext fun a => Fin.ext (by
    match a with
    | ⟨0, _⟩ => exact (rhs3_0 _ _).trans hk
    | ⟨1, _⟩ => exact rhs3_1 _ _)
  rw [el, er]

/-! ## The body's arithmetic at an entry -/

/-- The hidden activation at row p and coordinate c of a point's block: the three partial products of row p of the
    three row-tiled blocks against the three weights, the bias row, then the positive part. -/
theorem hidden_apply (v0 v3 : Vec Ideal S4000x128 .f32) (v6 : Vec Ideal S4000x3 .f32) (v8 v11 : Vec Ideal S128x128 .f32)
    (v14 : Vec Ideal S3x128 .f32) (v22 : Vec Ideal S1x128 .f32)
    (h1 : S4000x128.ShapeCasts S4000x128) (h2 : S128x128.ShapeCasts S128x128) (h3 : S3x128.ShapeCasts S3x128)
    (h4 : S1x128.ShapeCasts S1x128) (hb : S1x128.Broadcasts S4000x128) (hlt : FTy.bits .bf16 < FTy.bits .f32)
    (p : Fin 4000) (c : Fin 128) :
    maximumf
        (addf
          (addf
            (addf
              (matmul dot_S4000x128_S128x128_S4000x128_1_0_0_1_n_n none
                (truncf .bf16 (shapeCast S4000x128 v0 h1 : FVec Ideal S4000x128 .f32) hlt)
                (truncf .bf16 (shapeCast S128x128 v8 h2 : FVec Ideal S128x128 .f32) hlt)
                (constant (F := Ideal) S4000x128 .f32 0x00000000#32))
              (matmul dot_S4000x128_S128x128_S4000x128_1_0_0_1_n_n none
                (truncf .bf16 (shapeCast S4000x128 v3 h1 : FVec Ideal S4000x128 .f32) hlt)
                (truncf .bf16 (shapeCast S128x128 v11 h2 : FVec Ideal S128x128 .f32) hlt)
                (constant (F := Ideal) S4000x128 .f32 0x00000000#32)))
            (matmul dot_S4000x3_S3x128_S4000x128_1_0_0_1_n_n none
              (truncf .bf16 (v6 : FVec Ideal S4000x3 .f32) hlt)
              (truncf .bf16 (shapeCast S3x128 v14 h3 : FVec Ideal S3x128 .f32) hlt)
              (constant (F := Ideal) S4000x128 .f32 0x00000000#32)))
          (broadcastTo S4000x128 (shapeCast S1x128 v22 h4 : FVec Ideal S1x128 .f32) hb))
        (broadcast S4000x128 (Scalar.ofBits (F := Ideal) .f32 0x00000000#32)) (ix2 p c)
      = Cert.Spec.msgHidden (fun k => v0 (ix2 p k)) (fun k => v3 (ix2 p k)) (fun k => v6 (ix2 p k))
          (fun k q => v8 (ix2 k q)) (fun k q => v11 (ix2 k q)) (fun k q => v14 (ix2 k q)) (fun q => v22 (ix2 0 q)) c := by
  rw [maximumf_apply, addf_apply, addf_apply, addf_apply, matmul128_apply, matmul128_apply, matmul3_apply,
    broadcastTo_1b_ab_apply, broadcast_apply]
  simp only [truncf_apply, shapeCast_self]
  unfold Cert.Spec.msgHidden
  rw [show (Scalar.ofBits (F := Ideal) .f32 0x00000000#32 : EReal) = 0 from Ideal.ofBits_zero_f32]

/-- The product of the hidden block with the second weight, at row p and coordinate q. -/
theorem pay2_apply (v0 v3 : Vec Ideal S4000x128 .f32) (v6 : Vec Ideal S4000x3 .f32) (v8 v11 : Vec Ideal S128x128 .f32)
    (v14 : Vec Ideal S3x128 .f32) (v22 : Vec Ideal S1x128 .f32) (v29 : Vec Ideal S128x128 .f32) (p : Fin 4000) (q : Fin 128) :
    k1_pay2 (F := Ideal) v0 v3 v6 v8 v11 v14 v22 v29 (ix2 p q)
      = ∑ k : Fin 128, Cert.Spec.msgHidden (fun k => v0 (ix2 p k)) (fun k => v3 (ix2 p k)) (fun k => v6 (ix2 p k))
          (fun k q => v8 (ix2 k q)) (fun k q => v11 (ix2 k q)) (fun k q => v14 (ix2 k q)) (fun q => v22 (ix2 0 q)) k
          * v29 (ix2 k q) := by
  unfold k1_pay2
  rw [matmul128_apply]
  refine Finset.sum_congr rfl fun k _ => ?_
  rw [truncf_apply, truncf_apply, hidden_apply, shapeCast_self]

/-- The second bias row spread over the block's rows, at row p and coordinate q. -/
theorem pay3_apply (v33 : Vec Ideal S1x128 .f32) (p : Fin 4000) (q : Fin 128) :
    k1_pay3 (F := Ideal) v33 (ix2 p q) = v33 (ix2 0 q) := by
  unfold k1_pay3
  rw [broadcastTo_1b_ab_apply, shapeCast_self]

/-- What a point stores, at row p and coordinate q: the message of that row. -/
theorem body_apply (v0 v3 : Vec Ideal S4000x128 .f32) (v6 : Vec Ideal S4000x3 .f32) (v8 v11 : Vec Ideal S128x128 .f32)
    (v14 : Vec Ideal S3x128 .f32) (v22 : Vec Ideal S1x128 .f32) (v29 : Vec Ideal S128x128 .f32) (v33 : Vec Ideal S1x128 .f32)
    (p : Fin 4000) (q : Fin 128) :
    k1_pay1 (F := Ideal) (k1_pay2 v0 v3 v6 v8 v11 v14 v22 v29) (k1_pay3 v33) (ix2 p q)
      = Cert.Spec.msgAt (fun k => v0 (ix2 p k)) (fun k => v3 (ix2 p k)) (fun k => v6 (ix2 p k))
          (fun k q => v8 (ix2 k q)) (fun k q => v11 (ix2 k q)) (fun k q => v14 (ix2 k q)) (fun q => v22 (ix2 0 q))
          (fun k q => v29 (ix2 k q)) (fun q => v33 (ix2 0 q)) q := by
  unfold k1_pay1
  rw [addf_apply, pay2_apply, pay3_apply]
  rfl

/-- The same with the rows and the small arrays named: whatever the nine loaded blocks are read as. -/
theorem body_eq (v0 v3 : Vec Ideal S4000x128 .f32) (v6 : Vec Ideal S4000x3 .f32) (v8 v11 : Vec Ideal S128x128 .f32)
    (v14 : Vec Ideal S3x128 .f32) (v22 : Vec Ideal S1x128 .f32) (v29 : Vec Ideal S128x128 .f32) (v33 : Vec Ideal S1x128 .f32)
    (p : Fin 4000) (q : Fin 128) {xi xj : Fin 128 → EReal} {ea : Fin 3 → EReal} {w1i w1j : Fin 128 → Fin 128 → EReal}
    {w1e : Fin 3 → Fin 128 → EReal} {b1 : Fin 128 → EReal} {w2 : Fin 128 → Fin 128 → EReal} {b2 : Fin 128 → EReal}
    (h0 : ∀ k, v0 (ix2 p k) = xi k) (h1 : ∀ k, v3 (ix2 p k) = xj k) (h2 : ∀ k, v6 (ix2 p k) = ea k)
    (h3 : ∀ k n, v8 (ix2 k n) = w1i k n) (h4 : ∀ k n, v11 (ix2 k n) = w1j k n) (h5 : ∀ k n, v14 (ix2 k n) = w1e k n)
    (h6 : ∀ n, v22 (ix2 0 n) = b1 n) (h7 : ∀ k n, v29 (ix2 k n) = w2 k n) (h8 : ∀ n, v33 (ix2 0 n) = b2 n) :
    k1_pay1 (F := Ideal) (k1_pay2 v0 v3 v6 v8 v11 v14 v22 v29) (k1_pay3 v33) (ix2 p q)
      = Cert.Spec.msgAt xi xj ea w1i w1j w1e b1 w2 b2 q := by
  rw [body_apply]
  simp only [h0, h1, h2, h3, h4, h5, h6, h7, h8]

/-! ## From the points' blocks to the array -/

theorem zero_offsets : (![0, 0] : Fin 2 → Nat) = fun _ => 0 :=
  funext fun a => by match a with | ⟨0, _⟩ => rfl | ⟨1, _⟩ => rfl

/-- The printed index maps of the row-tiled windows, decided over the grid: at point t the three row-tiled inputs
    and the output are at row block t, column block 0. -/
theorem index_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- The printed index maps of the weights and biases, decided over the grid: block (0, 0) at every point. -/
theorem index_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row p of the target-rows block at point t is row 4000·t + p of the array. -/
theorem blk_xi (c : Dev nD) (t : Fin cfg1.N) (p : Fin 4000) (k : Fin 128) (r : Fin 800000) (hr : r.val = t.val * 4000 + p.val) :
    (iblk1 (F := Ideal) V c 0 t : Vec Ideal S4000x128 .f32) (ix2 p k) = (V c main_v7 : S800000x128.Idx → EReal) (ix2 r k) := by
  obtain ⟨e0, e1, -, -, -, -, -, -⟩ := index_rows t
  unfold iblk1
  rw [View.read_apply]
  show V c main_v7 (((cfg1.win 0).blk t).view.emb (ix2 p k)) = V c main_v7 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of the source-rows block at point t is row 4000·t + p of the array. -/
theorem blk_xj (c : Dev nD) (t : Fin cfg1.N) (p : Fin 4000) (k : Fin 128) (r : Fin 800000) (hr : r.val = t.val * 4000 + p.val) :
    (iblk1 (F := Ideal) V c 1 t : Vec Ideal S4000x128 .f32) (ix2 p k) = (V c main_v6 : S800000x128.Idx → EReal) (ix2 r k) := by
  obtain ⟨-, -, e0, e1, -, -, -, -⟩ := index_rows t
  unfold iblk1
  rw [View.read_apply]
  show V c main_v6 (((cfg1.win 1).blk t).view.emb (ix2 p k)) = V c main_v6 (ix2 r k)
  refine congrArg _ (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Row p of the edge-features block at point t is row 4000·t + p of the array. -/
theorem blk_ea (c : Dev nD) (t : Fin cfg1.N) (p : Fin 4000) (k : Fin 3) (r : Fin 800000) (hr : r.val = t.val * 4000 + p.val) :
    (iblk1 (F := Ideal) V c 2 t : Vec Ideal S4000x3 .f32) (ix2 p k) = (V c main_arg2 : S800000x3.Idx → EReal) (ix2 r k) := by
  obtain ⟨-, -, -, -, e0, e1, -, -⟩ := index_rows t
  unfold iblk1
  rw [View.read_apply]
  show V c main_arg2 (((cfg1.win 2).blk t).view.emb (ix2 p k)) = V c main_arg2 (ix2 r k)
  refine congrArg _ (funext fun a => Fin.ext ?_)
  match a with
  | ⟨0, _⟩ => show win1_2.index t (0 : Fin 2) * 4000 + 1 * p.val = r.val; omega
  | ⟨1, _⟩ => show win1_2.index t (1 : Fin 2) * 3 + 1 * k.val = k.val; omega

/-- The block of the first weight's first row block is the whole array, at every point. -/
theorem blk_w1i (c : Dev nD) (t : Fin cfg1.N) (k n : Fin 128) :
    (iblk1 (F := Ideal) V c 3 t : Vec Ideal S128x128 .f32) (ix2 k n) = (V c main_v10 : S128x128.Idx → EReal) (ix2 k n) := by
  obtain ⟨e0, e1, -, -, -, -, -, -, -, -, -, -⟩ := index_whole t
  unfold iblk1
  rw [View.read_apply]
  show V c main_v10 (((cfg1.win 3).blk t).view.emb (ix2 k n)) = V c main_v10 (ix2 k n)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * n.val = n.val; omega

/-- The block of the first weight's second row block is the whole array, at every point. -/
theorem blk_w1j (c : Dev nD) (t : Fin cfg1.N) (k n : Fin 128) :
    (iblk1 (F := Ideal) V c 4 t : Vec Ideal S128x128 .f32) (ix2 k n) = (V c main_v11 : S128x128.Idx → EReal) (ix2 k n) := by
  obtain ⟨-, -, e0, e1, -, -, -, -, -, -, -, -⟩ := index_whole t
  unfold iblk1
  rw [View.read_apply]
  show V c main_v11 (((cfg1.win 4).blk t).view.emb (ix2 k n)) = V c main_v11 (ix2 k n)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * n.val = n.val; omega

/-- The block of the first weight's last three rows is the whole array, at every point. -/
theorem blk_w1e (c : Dev nD) (t : Fin cfg1.N) (k : Fin 3) (n : Fin 128) :
    (iblk1 (F := Ideal) V c 5 t : Vec Ideal S3x128 .f32) (ix2 k n) = (V c main_v12 : S3x128.Idx → EReal) (ix2 k n) := by
  obtain ⟨-, -, -, -, e0, e1, -, -, -, -, -, -⟩ := index_whole t
  unfold iblk1
  rw [View.read_apply]
  show V c main_v12 (((cfg1.win 5).blk t).view.emb (ix2 k n)) = V c main_v12 (ix2 k n)
  refine congrArg _ (funext fun a => Fin.ext ?_)
  match a with
  | ⟨0, _⟩ => show win1_5.index t (0 : Fin 2) * 3 + 1 * k.val = k.val; omega
  | ⟨1, _⟩ => show win1_5.index t (1 : Fin 2) * 128 + 1 * n.val = n.val; omega

/-- The block of the first bias is the whole row, at every point. -/
theorem blk_b1 (c : Dev nD) (t : Fin cfg1.N) (n : Fin 128) :
    (iblk1 (F := Ideal) V c 6 t : Vec Ideal S1x128 .f32) (ix2 0 n) = (V c main_v19 : S1x128.Idx → EReal) (ix2 0 n) := by
  obtain ⟨-, -, -, -, -, -, e0, e1, -, -, -, -⟩ := index_whole t
  unfold iblk1
  rw [View.read_apply]
  show V c main_v19 (((cfg1.win 6).blk t).view.emb (ix2 0 n)) = V c main_v19 (ix2 0 n)
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * n.val = n.val; omega

/-- The block of the second weight is the whole array, at every point. -/
theorem blk_w2 (c : Dev nD) (t : Fin cfg1.N) (k n : Fin 128) :
    (iblk1 (F := Ideal) V c 7 t : Vec Ideal S128x128 .f32) (ix2 k n) = (V c main_v16 : S128x128.Idx → EReal) (ix2 k n) := by
  obtain ⟨-, -, -, -, -, -, -, -, e0, e1, -, -⟩ := index_whole t
  unfold iblk1
  rw [View.read_apply]
  show V c main_v16 (((cfg1.win 7).blk t).view.emb (ix2 k n)) = V c main_v16 (ix2 k n)
  refine congrArg _ (funext fun a => Fin.ext ?_)
  match a with
  | ⟨0, _⟩ => show win1_7.index t (0 : Fin 2) * 128 + 1 * k.val = k.val; omega
  | ⟨1, _⟩ => show win1_7.index t (1 : Fin 2) * 128 + 1 * n.val = n.val; omega

/-- The block of the second bias is the whole row, at every point. -/
theorem blk_b2 (c : Dev nD) (t : Fin cfg1.N) (n : Fin 128) :
    (iblk1 (F := Ideal) V c 8 t : Vec Ideal S1x128 .f32) (ix2 0 n) = (V c main_v20 : S1x128.Idx → EReal) (ix2 0 n) := by
  obtain ⟨-, -, -, -, -, -, -, -, -, -, e0, e1⟩ := index_whole t
  unfold iblk1
  rw [View.read_apply]
  show V c main_v20 (((cfg1.win 8).blk t).view.emb (ix2 0 n)) = V c main_v20 (ix2 0 n)
  refine congrArg _ (funext fun a => Fin.ext ?_)
  match a with
  | ⟨0, _⟩ => show win1_8.index t (0 : Fin 2) * 1 + 1 * 0 = 0; omega
  | ⟨1, _⟩ => show win1_8.index t (1 : Fin 2) * 128 + 1 * n.val = n.val; omega

/-- WHAT POINT t WRITES BACK is block t of `G`: rows 4000·t … 4000·t + 3999 of the messages. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 V c).after 9 t) = _
  rw [after1_9]
  unfold out1_9
  rw [View.canon_unit_zero zero_offsets]
  simp only [View.ld_unit_zero (S := S4000x128) zero_offsets, View.ld_unit_zero (S := S4000x3) zero_offsets,
    View.ld_unit_zero (S := S128x128) zero_offsets, View.ld_unit_zero (S := S3x128) zero_offsets,
    View.ld_unit_zero (S := S1x128) zero_offsets]
  obtain ⟨-, -, -, -, -, -, e0, e1⟩ := index_rows t
  funext j
  have hj0 : (j 0).val < 4000 := (j 0).isLt
  have hj1 : (j 1).val < 128 := (j 1).isLt
  have ht : t.val < 200 := Nat.lt_of_lt_of_eq t.isLt N_1
  obtain ⟨p, hp⟩ : ∃ p : Fin 4000, p.val = (j 0).val := ⟨⟨_, hj0⟩, rfl⟩
  obtain ⟨q, hq⟩ : ∃ q : Fin 128, q.val = (j 1).val := ⟨⟨_, hj1⟩, rfl⟩
  obtain ⟨r, hr⟩ : ∃ r : Fin 800000, r.val = t.val * 4000 + p.val := ⟨⟨t.val * 4000 + p.val, by omega⟩, rfl⟩
  have hL : (cfg1.win 9).xinj (grid1.coords t) j = ix2 p q := funext fun a => Fin.ext (by
    match a with
    | ⟨0, _⟩ => exact hp.symm
    | ⟨1, _⟩ => exact hq.symm)
  have hR : ((cfg1.win 9).blk t).view.emb j = ix2 r q := funext fun a => Fin.ext (by
    match a with
    | ⟨0, _⟩ => show win1_9.index t (0 : Fin 2) * 4000 + 1 * (j 0).val = r.val; omega
    | ⟨1, _⟩ => show win1_9.index t (1 : Fin 2) * 128 + 1 * (j 1).val = q.val; omega)
  show k1_pay1 (k1_pay2 (iblk1 V c 0 t) (iblk1 V c 1 t) (iblk1 V c 2 t) (iblk1 V c 3 t) (iblk1 V c 4 t) (iblk1 V c 5 t)
      (iblk1 V c 6 t) (iblk1 V c 7 t)) (k1_pay3 (iblk1 V c 8 t)) ((cfg1.win 9).xinj (grid1.coords t) j)
    = G V c (((cfg1.win 9).blk t).view.emb j)
  rw [hL, hR]
  exact body_eq (iblk1 V c 0 t) (iblk1 V c 1 t) (iblk1 V c 2 t) (iblk1 V c 3 t) (iblk1 V c 4 t) (iblk1 V c 5 t)
    (iblk1 V c 6 t) (iblk1 V c 7 t) (iblk1 V c 8 t) p q
    (fun k => blk_xi V c t p k r hr) (fun k => blk_xj V c t p k r hr) (fun k => blk_ea V c t p k r hr)
    (fun k n => blk_w1i V c t k n) (fun k n => blk_w1j V c t k n) (fun k n => blk_w1e V c t k n)
    (fun n => blk_b1 V c t n) (fun k n => blk_w2 V c t k n) (fun n => blk_b2 V c t n)

/-- An index of the array is in point t's block iff each coordinate is in the block's range on its axis. -/
theorem mem_blk (t : Fin cfg1.N) (i : S800000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v21).slice (win1_9.rect t)).set ↔ _
  rw [View.set_slice_whole, Rect.mem_set_unit]
  exact Iff.rfl

/-- THE COVER: row r of the array is in the block of point r / 4000, which writes back. -/
theorem covered (i : S800000x128.Idx) :
    ∃ t : Fin cfg1.N, (cfg1.win 9).flush t = true ∧ i ∈ ((cfg1.win 9).blk t).view.set := by
  have hi0 : (i 0).val < 800000 := (i 0).isLt
  have hi1 : (i 1).val < 128 := (i 1).isLt
  obtain ⟨t, ht⟩ : ∃ t : Fin cfg1.N, t.val = (i 0).val / 4000 :=
    ⟨⟨(i 0).val / 4000, by rw [show cfg1.N = 200 from N_1]; omega⟩, rfl⟩
  obtain ⟨-, -, -, -, -, -, e0, e1⟩ := index_rows t
  refine ⟨t, flush1_9 t, ?_⟩
  rw [mem_blk]
  intro a
  match a with
  | ⟨0, _⟩ =>
    show win1_9.index t (0 : Fin 2) * 4000 ≤ (i 0).val ∧ (i 0).val < win1_9.index t (0 : Fin 2) * 4000 + 4000
    omega
  | ⟨1, _⟩ =>
    show win1_9.index t (1 : Fin 2) * 128 ≤ (i 1).val ∧ (i 1).val < win1_9.index t (1 : Fin 2) * 128 + 128
    omega

/-- THE ARRAY after the region: `G` of the entry arrays. -/
theorem final (c : Dev nD) : (dat1 (F := Ideal) V c).arrAt 9 cfg1.N = G V c :=
  (dat1 (F := Ideal) V c).arrAt_eq_of_cover 9 (G V c) (fun t _ => flushed_eq V c t) covered

end Cert.KernelIdeal.MsgValue

end
-- ==== Proof.UpdValue.lean ====
/-
  REGION 2, the node update, residual sum and decoder, as a value: after its 25 grid points the output array
  holds, for every node, (h + (relu(h · U1a + a · U1b + c1) · U2 + c2)) · dec_w + dec_b of the arrays the region
  was entered with. Point t computes rows 2000·t … 2000·t + 1999 from the same rows of h and a and the whole
  weights and biases; the 25 row blocks tile the 50000 rows.
-/
import proofs.«416000_j42125039239963_1_alg».proof.Proof.Gen.KernelIdeal.Frame
import proofs.«416000_j42125039239963_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.UpdValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- What the output array ends holding: entry (n, q) is node n's decoded output at coordinate q. Window order:
    0 the encoded rows h, 1 the aggregated rows a, 2–3 the two row blocks of the first weight, 4 its bias
    (1 × 128), 5 the second weight, 6 its bias (1 × 128), 7 the decoder's weight, 8 its bias (1 × 5). -/
def G (c : Dev nD) : S50000x5.Idx → EReal := fun j =>
  Cert.Spec.outAt (fun k => (V c main_v1 : S50000x128.Idx → EReal) (ix2 (j 0) k))
    (fun k => (V c main_v24 : S50000x128.Idx → EReal) (ix2 (j 0) k))
    (fun k q => (V c main_v27 : S128x128.Idx → EReal) (ix2 k q))
    (fun k q => (V c main_v28 : S128x128.Idx → EReal) (ix2 k q))
    (fun q => (V c main_v35 : S1x128.Idx → EReal) (ix2 0 q))
    (fun k q => (V c main_v32 : S128x128.Idx → EReal) (ix2 k q))
    (fun q => (V c main_v36 : S1x128.Idx → EReal) (ix2 0 q))
    (fun k q => (V c main_arg5 : S128x5.Idx → EReal) (ix2 k q))
    (fun q => (V c main_v37 : S1x5.Idx → EReal) (ix2 0 q)) (j 1)

/-! ## The two products of the body, read at an index

Both contract the left operand's second axis against the right operand's first: entry (p, q) of the product is the sum
over k of the left operand at (p, k) times the right operand at (k, q). -/

/-- The left operand of the 128-column product is read at the output's row … -/
theorem lhs_sq_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and at the contracted coordinate; -/
theorem lhs_sq_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted coordinate … -/
theorem rhs_sq_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's column. -/
theorem rhs_sq_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A product into 128 columns with a zero accumulator, at (p, q): the sum over the 128 contracted coordinates. -/
theorem prod_sq_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_sq_0 _ _
      | ⟨1, _⟩ => exact (lhs_sq_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_sq_0 _ _).trans hk
      | ⟨1, _⟩ => exact rhs_sq_1 _ _)
  rw [el, er]

/-- The left operand of the 5-column product is read at the output's row … -/
theorem lhs_dec_0 (i : S2000x5.Idx) (q : dot_S2000x128_S128x5_S2000x5_1_0_0_1_n_n.contr.Idx) :
    (dot_S2000x128_S128x5_S2000x5_1_0_0_1_n_n.lhsIdx i q 0).val = (i 0).val := by
  unfold DotDims.lhsIdx
  rw [dif_neg (show ¬(0 : Fin S2000x128.rank) ∈ dot_S2000x128_S128x5_S2000x5_1_0_0_1_n_n.lhsBatch by decide),
    dif_pos (show (0 : Fin S2000x128.rank) ∈ dot_S2000x128_S128x5_S2000x5_1_0_0_1_n_n.lhsNonContracting by decide)]
  rfl
/-- … and at the contracted coordinate; -/
theorem lhs_dec_1 (i : S2000x5.Idx) (q : dot_S2000x128_S128x5_S2000x5_1_0_0_1_n_n.contr.Idx) :
    (dot_S2000x128_S128x5_S2000x5_1_0_0_1_n_n.lhsIdx i q 1).val = (q ⟨0, by decide⟩).val :=
  dot_S2000x128_S128x5_S2000x5_1_0_0_1_n_n.lhsIdx_val_of_single rfl i q
/-- the right operand at the contracted coordinate … -/
theorem rhs_dec_0 (i : S2000x5.Idx) (q : dot_S2000x128_S128x5_S2000x5_1_0_0_1_n_n.contr.Idx) :
    (dot_S2000x128_S128x5_S2000x5_1_0_0_1_n_n.rhsIdx i q 0).val = (q ⟨0, by decide⟩).val :=
  dot_S2000x128_S128x5_S2000x5_1_0_0_1_n_n.rhsIdx_val_of_single rfl i q
/-- … and at the output's column. -/
theorem rhs_dec_1 (i : S2000x5.Idx) (q : dot_S2000x128_S128x5_S2000x5_1_0_0_1_n_n.contr.Idx) :
    (dot_S2000x128_S128x5_S2000x5_1_0_0_1_n_n.rhsIdx i q 1).val = (i 1).val := by
  unfold DotDims.rhsIdx
  rw [dif_neg (show ¬(1 : Fin S128x5.rank) ∈ dot_S2000x128_S128x5_S2000x5_1_0_0_1_n_n.rhsBatch by decide),
    dif_pos (show (1 : Fin S128x5.rank) ∈ dot_S2000x128_S128x5_S2000x5_1_0_0_1_n_n.rhsNonContracting by decide)]
  rfl

/-- A product into 5 columns with a zero accumulator, at (p, q): the sum over the 128 contracted coordinates. -/
theorem prod_dec_apply (l : FVec Ideal S2000x128 .bf16) (r : FVec Ideal S128x5 .bf16) (p : Fin 2000) (q : Fin 5) :
    matmul dot_S2000x128_S128x5_S2000x5_1_0_0_1_n_n none l r (constant (F := Ideal) S2000x5 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x5_S2000x5_1_0_0_1_n_n 128 rfl rfl).symm]
  refine Finset.sum_congr rfl fun k _ => ?_
  have hk := contrEquiv1_symm_val dot_S2000x128_S128x5_S2000x5_1_0_0_1_n_n 128 rfl rfl k
  have el : dot_S2000x128_S128x5_S2000x5_1_0_0_1_n_n.lhsIdx (ix2 p q)
      ((contrEquiv1 dot_S2000x128_S128x5_S2000x5_1_0_0_1_n_n 128 rfl rfl).symm k) = ix2 p k :=
    funext fun a => Fin.ext (by
      match a with
      | ⟨0, _⟩ => exact lhs_dec_0 _ _
      | ⟨1, _⟩ => exact (lhs_dec_1 _ _).trans hk)
  have er : dot_S2000x128_S128x5_S2000x5_1_0_0_1_n_n.rhsIdx (ix2 p q)
      ((contrEquiv1 dot_S2000x128_S128x5_S2000x5_1_0_0_1_n_n 128 rfl rfl).symm k) = ix2 k q :=
    funext fun a => Fin.ext (by
      match a with
      | ⟨0, _⟩ => exact (rhs_dec_0 _ _).trans hk
      | ⟨1, _⟩ => exact rhs_dec_1 _ _)
  rw [el, er]

/-! ## A bias row laid over the 2000 rows of a block -/

/-- A 1 × 128 bias, cast to its own shape and broadcast over the rows, reads its one row at the column. -/
theorem bias_sq_apply (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- A 1 × 5 bias likewise. -/
theorem bias_dec_apply (b : Vec Ideal S1x5 .f32) (p : Fin 2000) (q : Fin 5) :
    broadcastTo S2000x5 (shapeCast S1x5 b shapeCasts_S1x5_S1x5) broadcasts_S1x5_S2000x5 (ix2 p q)
      = b (ix2 (0 : Fin 1) q) := by
  rw [shapeCast_self]
  exact broadcastTo_1b_ab_apply b broadcasts_S1x5_S2000x5 p q

/-! ## The body's arithmetic at an index

The body computes, over the 2000 rows of a block: the hidden activations relu(h · U1h + a · U1a + c1), the updated rows
h + (hidden · U2 + c2), and the decoded output rows · Wd + bd. Each is read here at one entry as the specification's
function of the block's row and of the whole weights and biases. -/

/-- The block's hidden activations, as the body builds them from its loaded blocks. -/
def hidV (h a : Vec Ideal S2000x128 .f32) (u1h u1a : Vec Ideal S128x128 .f32) (c1 : Vec Ideal S1x128 .f32) :
    FVec Ideal S2000x128 .f32 :=
  maximumf
    (addf
      (addf
        (matmul dot_S2000x128_S128x128_S2000x128_1_0_0_1_n_n none
          (truncf .bf16 (shapeCast S2000x128 h shapeCasts_S2000x128_S2000x128 : FVec Ideal S2000x128 .f32) bitsLt_bf16_f32)
          (truncf .bf16 (shapeCast S128x128 u1h shapeCasts_S128x128_S128x128 : FVec Ideal S128x128 .f32) bitsLt_bf16_f32)
          (constant S2000x128 .f32 0x00000000#32))
        (matmul dot_S2000x128_S128x128_S2000x128_1_0_0_1_n_n none
          (truncf .bf16 (shapeCast S2000x128 a shapeCasts_S2000x128_S2000x128 : FVec Ideal S2000x128 .f32) bitsLt_bf16_f32)
          (truncf .bf16 (shapeCast S128x128 u1a shapeCasts_S128x128_S128x128 : FVec Ideal S128x128 .f32) bitsLt_bf16_f32)
          (constant S2000x128 .f32 0x00000000#32)))
      (broadcastTo S2000x128 (shapeCast S1x128 c1 shapeCasts_S1x128_S1x128 : FVec Ideal S1x128 .f32) broadcasts_S1x128_S2000x128))
    (broadcast S2000x128 (Scalar.ofBits .f32 0x00000000#32))

/-- Entry (p, c) of the hidden activations is the specification's, of row p of the two row blocks. -/
theorem hidV_apply (h a : Vec Ideal S2000x128 .f32) (u1h u1a : Vec Ideal S128x128 .f32) (c1 : Vec Ideal S1x128 .f32)
    (p : Fin 2000) (c : Fin 128) :
    hidV h a u1h u1a c1 (ix2 p c)
      = Cert.Spec.updHidden (fun k => h (ix2 p k)) (fun k => a (ix2 p k)) (fun k q => u1h (ix2 k q))
          (fun k q => u1a (ix2 k q)) (fun q => c1 (ix2 (0 : Fin 1) q)) c := by
  unfold hidV Cert.Spec.updHidden
  rw [maximumf_apply, addf_apply, addf_apply, bias_sq_apply, prod_sq_apply, prod_sq_apply, broadcast_apply]
  simp only [truncf_apply, shapeCast_self]
  rw [show (Scalar.ofBits (F := Ideal) .f32 0x00000000#32) = (0 : EReal) from Ideal.ofBits_zero_f32]

/-- The block's rows after the update and the residual sum, as the body builds them. -/
def rowV (h a : Vec Ideal S2000x128 .f32) (u1h u1a : Vec Ideal S128x128 .f32) (c1 : Vec Ideal S1x128 .f32)
    (u2 : Vec Ideal S128x128 .f32) (c2 : Vec Ideal S1x128 .f32) : FVec Ideal S2000x128 .f32 :=
  addf (shapeCast S2000x128 h shapeCasts_S2000x128_S2000x128 : FVec Ideal S2000x128 .f32)
    (addf
      (matmul dot_S2000x128_S128x128_S2000x128_1_0_0_1_n_n none
        (truncf .bf16 (hidV h a u1h u1a c1) bitsLt_bf16_f32)
        (truncf .bf16 (shapeCast S128x128 u2 shapeCasts_S128x128_S128x128 : FVec Ideal S128x128 .f32) bitsLt_bf16_f32)
        (constant S2000x128 .f32 0x00000000#32))
      (broadcastTo S2000x128 (shapeCast S1x128 c2 shapeCasts_S1x128_S1x128 : FVec Ideal S1x128 .f32) broadcasts_S1x128_S2000x128))

/-- Entry (p, c) of the updated rows is the specification's. -/
theorem rowV_apply (h a : Vec Ideal S2000x128 .f32) (u1h u1a : Vec Ideal S128x128 .f32) (c1 : Vec Ideal S1x128 .f32)
    (u2 : Vec Ideal S128x128 .f32) (c2 : Vec Ideal S1x128 .f32) (p : Fin 2000) (c : Fin 128) :
    rowV h a u1h u1a c1 u2 c2 (ix2 p c)
      = Cert.Spec.updRow (fun k => h (ix2 p k)) (fun k => a (ix2 p k)) (fun k q => u1h (ix2 k q))
          (fun k q => u1a (ix2 k q)) (fun q => c1 (ix2 (0 : Fin 1) q)) (fun k q => u2 (ix2 k q))
          (fun q => c2 (ix2 (0 : Fin 1) q)) c := by
  unfold rowV Cert.Spec.updRow
  rw [addf_apply, addf_apply, bias_sq_apply, prod_sq_apply]
  simp only [truncf_apply, shapeCast_self, hidV_apply]

/-- The body's stored value is the decoder's product of the updated rows plus its bias row. -/
theorem pay_eq (v0 v2 : Vec Ideal S2000x128 .f32) (v6 v9 : Vec Ideal S128x128 .f32) (v15 : Vec Ideal S1x128 .f32)
    (v22 : Vec Ideal S128x128 .f32) (v26 : Vec Ideal S1x128 .f32) (v32 : Vec Ideal S128x5 .f32) (v35 : Vec Ideal S1x5 .f32) :
    k2_pay1 (k2_pay2 v0 v2 v6 v9 v15 v22 v26 v32) v35
      = addf
          (matmul dot_S2000x128_S128x5_S2000x5_1_0_0_1_n_n none
            (truncf .bf16 (rowV v0 v2 v6 v9 v15 v22 v26) bitsLt_bf16_f32)
            (truncf .bf16 (v32 : FVec Ideal S128x5 .f32) bitsLt_bf16_f32)
            (constant S2000x5 .f32 0x00000000#32))
          (broadcastTo S2000x5 (shapeCast S1x5 v35 shapeCasts_S1x5_S1x5 : FVec Ideal S1x5 .f32) broadcasts_S1x5_S2000x5) := rfl

/-- THE BODY'S STORED VALUE at (p, q): the specification's decoded output of row p of the two row blocks. -/
theorem pay_apply (v0 v2 : Vec Ideal S2000x128 .f32) (v6 v9 : Vec Ideal S128x128 .f32) (v15 : Vec Ideal S1x128 .f32)
    (v22 : Vec Ideal S128x128 .f32) (v26 : Vec Ideal S1x128 .f32) (v32 : Vec Ideal S128x5 .f32) (v35 : Vec Ideal S1x5 .f32)
    (p : Fin 2000) (q : Fin 5) :
    k2_pay1 (k2_pay2 v0 v2 v6 v9 v15 v22 v26 v32) v35 (ix2 p q)
      = Cert.Spec.outAt (fun k => v0 (ix2 p k)) (fun k => v2 (ix2 p k)) (fun k q => v6 (ix2 k q))
          (fun k q => v9 (ix2 k q)) (fun q => v15 (ix2 (0 : Fin 1) q)) (fun k q => v22 (ix2 k q))
          (fun q => v26 (ix2 (0 : Fin 1) q)) (fun k q => v32 (ix2 k q)) (fun q => v35 (ix2 (0 : Fin 1) q)) q := by
  rw [pay_eq]
  unfold Cert.Spec.outAt
  rw [addf_apply, bias_dec_apply, prod_dec_apply]
  simp only [truncf_apply, rowV_apply]

/-! ## From the blocks to the array

Point t works on rows 2000·t … 2000·t + 1999: the two row-tiled inputs and the output are cut there, every other input is
whole. So what point t writes back is block t of `G`, and the 25 blocks cover the 50000 rows. -/

theorem zero_offsets : (![0, 0] : Fin 2 → Nat) = fun _ => 0 :=
  funext fun a => match a with | ⟨0, _⟩ => rfl | ⟨1, _⟩ => rfl

/-- The printed index maps over the grid: the output and the two row-tiled inputs sit at row block t, column block 0;
    the weights and biases at block (0, 0). -/
theorem block_indices : ∀ t : Fin cfg2.N,
    win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row p of point t's block of the encoded rows is row 2000·t + p of the array. -/
theorem blk_h_apply (c : Dev nD) (t : Fin cfg2.N) (p : Fin 2000) (k : Fin 128) (n : Fin 50000)
    (hn : n.val = t.val * 2000 + p.val) :
    (iblk2 V c 0 t : Vec Ideal S2000x128 .f32) (ix2 p k) = (V c main_v1 : S50000x128.Idx → EReal) (ix2 n k) := by
  obtain ⟨-, -, e0, e1, -⟩ := block_indices t
  show (V c main_v1 : S50000x128.Idx → EReal) (((cfg2.win 0).blk t).view.emb (ix2 p k)) = _
  refine congrArg _ (funext fun a => Fin.ext ?_)
  match a with
  | ⟨0, _⟩ => show win2_0.index t (0 : Fin 2) * 2000 + 1 * p.val = n.val; omega
  | ⟨1, _⟩ => show win2_0.index t (1 : Fin 2) * 128 + 1 * k.val = k.val; omega

/-- Row p of point t's block of the aggregated rows is row 2000·t + p of the array. -/
theorem blk_a_apply (c : Dev nD) (t : Fin cfg2.N) (p : Fin 2000) (k : Fin 128) (n : Fin 50000)
    (hn : n.val = t.val * 2000 + p.val) :
    (iblk2 V c 1 t : Vec Ideal S2000x128 .f32) (ix2 p k) = (V c main_v24 : S50000x128.Idx → EReal) (ix2 n k) := by
  obtain ⟨-, -, -, -, e0, e1, -⟩ := block_indices t
  show (V c main_v24 : S50000x128.Idx → EReal) (((cfg2.win 1).blk t).view.emb (ix2 p k)) = _
  refine congrArg _ (funext fun a => Fin.ext ?_)
  match a with
  | ⟨0, _⟩ => show win2_1.index t (0 : Fin 2) * 2000 + 1 * p.val = n.val; omega
  | ⟨1, _⟩ => show win2_1.index t (1 : Fin 2) * 128 + 1 * k.val = k.val; omega

/-- The first weight's upper row block is whole at every point. -/
theorem blk_u1h_apply (c : Dev nD) (t : Fin cfg2.N) (k q : Fin 128) :
    (iblk2 V c 2 t : Vec Ideal S128x128 .f32) (ix2 k q) = (V c main_v27 : S128x128.Idx → EReal) (ix2 k q) := by
  obtain ⟨-, -, -, -, -, -, e0, e1, -⟩ := block_indices t
  show (V c main_v27 : S128x128.Idx → EReal) (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The first weight's lower row block is whole at every point. -/
theorem blk_u1a_apply (c : Dev nD) (t : Fin cfg2.N) (k q : Fin 128) :
    (iblk2 V c 3 t : Vec Ideal S128x128 .f32) (ix2 k q) = (V c main_v28 : S128x128.Idx → EReal) (ix2 k q) := by
  obtain ⟨-, -, -, -, -, -, -, -, e0, e1, -⟩ := block_indices t
  show (V c main_v28 : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The first bias is whole at every point. -/
theorem blk_c1_apply (c : Dev nD) (t : Fin cfg2.N) (q : Fin 128) :
    (iblk2 V c 4 t : Vec Ideal S1x128 .f32) (ix2 (0 : Fin 1) q) = (V c main_v35 : S1x128.Idx → EReal) (ix2 (0 : Fin 1) q) := by
  obtain ⟨-, -, -, -, -, -, -, -, -, -, e0, e1, -⟩ := block_indices t
  show (V c main_v35 : S1x128.Idx → EReal) (((cfg2.win 4).blk t).view.emb (ix2 (0 : Fin 1) q)) = _
  refine congrArg _ (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 128 + 1 * q.val = q.val; omega

/-- The second weight is whole at every point. -/
theorem blk_u2_apply (c : Dev nD) (t : Fin cfg2.N) (k q : Fin 128) :
    (iblk2 V c 5 t : Vec Ideal S128x128 .f32) (ix2 k q) = (V c main_v32 : S128x128.Idx → EReal) (ix2 k q) := by
  obtain ⟨-, -, -, -, -, -, -, -, -, -, -, -, e0, e1, -⟩ := block_indices t
  show (V c main_v32 : S128x128.Idx → EReal) (((cfg2.win 5).blk t).view.emb (ix2 k q)) = _
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

/-- The second bias is whole at every point. -/
theorem blk_c2_apply (c : Dev nD) (t : Fin cfg2.N) (q : Fin 128) :
    (iblk2 V c 6 t : Vec Ideal S1x128 .f32) (ix2 (0 : Fin 1) q) = (V c main_v36 : S1x128.Idx → EReal) (ix2 (0 : Fin 1) q) := by
  obtain ⟨-, -, -, -, -, -, -, -, -, -, -, -, -, -, e0, e1, -⟩ := block_indices t
  show (V c main_v36 : S1x128.Idx → EReal) (((cfg2.win 6).blk t).view.emb (ix2 (0 : Fin 1) q)) = _
  refine congrArg _ (funext fun a => Fin.ext ?_)
  match a with
  | ⟨0, _⟩ => show win2_6.index t (0 : Fin 2) * 1 + 1 * (0 : Fin 1).val = (0 : Fin 1).val; omega
  | ⟨1, _⟩ => show win2_6.index t (1 : Fin 2) * 128 + 1 * q.val = q.val; omega

/-- The decoder's weight is whole at every point. -/
theorem blk_dw_apply (c : Dev nD) (t : Fin cfg2.N) (k : Fin 128) (q : Fin 5) :
    (iblk2 V c 7 t : Vec Ideal S128x5 .f32) (ix2 k q) = (V c main_arg5 : S128x5.Idx → EReal) (ix2 k q) := by
  obtain ⟨-, -, -, -, -, -, -, -, -, -, -, -, -, -, -, -, e0, e1, -⟩ := block_indices t
  show (V c main_arg5 : S128x5.Idx → EReal) (((cfg2.win 7).blk t).view.emb (ix2 k q)) = _
  refine congrArg _ (funext fun a => Fin.ext ?_)
  match a with
  | ⟨0, _⟩ => show win2_7.index t (0 : Fin 2) * 128 + 1 * k.val = k.val; omega
  | ⟨1, _⟩ => show win2_7.index t (1 : Fin 2) * 5 + 1 * q.val = q.val; omega

/-- The decoder's bias is whole at every point. -/
theorem blk_db_apply (c : Dev nD) (t : Fin cfg2.N) (q : Fin 5) :
    (iblk2 V c 8 t : Vec Ideal S1x5 .f32) (ix2 (0 : Fin 1) q) = (V c main_v37 : S1x5.Idx → EReal) (ix2 (0 : Fin 1) q) := by
  obtain ⟨-, -, -, -, -, -, -, -, -, -, -, -, -, -, -, -, -, -, e0, e1⟩ := block_indices t
  show (V c main_v37 : S1x5.Idx → EReal) (((cfg2.win 8).blk t).view.emb (ix2 (0 : Fin 1) q)) = _
  refine congrArg _ (funext fun a => Fin.ext ?_)
  match a with
  | ⟨0, _⟩ => show win2_8.index t (0 : Fin 2) * 1 + 1 * (0 : Fin 1).val = (0 : Fin 1).val; omega
  | ⟨1, _⟩ => show win2_8.index t (1 : Fin 2) * 5 + 1 * q.val = q.val; omega

/-- WHAT POINT t WRITES BACK is block t of `G` of the arrays the region was entered with. -/
theorem flushed_eq (c : Dev nD) (t : Fin cfg2.N) :
    (dat2 (F := Ideal) V c).flushed 9 t = ((cfg2.win 9).blk t).view.read (Elt Ideal) (G V c) := by
  show (cfg2.win 9).cut (grid2.coords t) ((dat2 (F := Ideal) V c).after 9 t) = _
  rw [after2_9]
  unfold out2_9
  rw [View.canon_unit_zero zero_offsets]
  simp only [View.ld_unit_zero (S := S2000x128) zero_offsets, View.ld_unit_zero (S := S128x128) zero_offsets,
    View.ld_unit_zero (S := S1x128) zero_offsets, View.ld_unit_zero (S := S128x5) zero_offsets,
    View.ld_unit_zero (S := S1x5) zero_offsets]
  refine funext fun (j : S2000x5.Idx) => ?_
  obtain ⟨p, q, rfl⟩ : ∃ (p : Fin 2000) (q : Fin 5), j = ix2 p q := ⟨j 0, j 1, eq_ix2 j⟩
  obtain ⟨e0, e1, -⟩ := block_indices t
  show k2_pay1 (k2_pay2 (iblk2 V c 0 t) (iblk2 V c 1 t) (iblk2 V c 2 t) (iblk2 V c 3 t) (iblk2 V c 4 t) (iblk2 V c 5 t)
      (iblk2 V c 6 t) (iblk2 V c 7 t)) (iblk2 V c 8 t) (ix2 p q)
    = G V c (((cfg2.win 9).blk t).view.emb (ix2 p q))
  have h0 : ((((cfg2.win 9).blk t).view.emb (ix2 p q) : S50000x5.Idx) 0).val = t.val * 2000 + p.val := by
    show win2_9.index t (0 : Fin 2) * 2000 + 1 * p.val = _; omega
  have h1 : (((cfg2.win 9).blk t).view.emb (ix2 p q) : S50000x5.Idx) 1 = q := Fin.ext (by
    show win2_9.index t (1 : Fin 2) * 5 + 1 * q.val = _; omega)
  rw [pay_apply]
  unfold G
  rw [h1]
  simp only [blk_h_apply V c t p _ _ h0, blk_a_apply V c t p _ _ h0, blk_u1h_apply, blk_u1a_apply, blk_c1_apply,
    blk_u2_apply, blk_c2_apply, blk_dw_apply, blk_db_apply]

/-- A row and column of the output array are in point t's block iff each is in the block's range on its axis. -/
theorem mem_blk (t : Fin cfg2.N) (i : S50000x5.Idx) :
    i ∈ ((cfg2.win 9).blk t).view.set
      ↔ ∀ a : Fin 2, win2_9.index t a * S2000x5.size a ≤ (i a).val
          ∧ (i a).val < win2_9.index t a * S2000x5.size a + S2000x5.size a := by
  show i ∈ ((View.whole main_v38).slice (win2_9.rect t)).set ↔ _
  rw [View.set_slice_whole, Rect.mem_set_unit]
  exact Iff.rfl

/-- Every entry of the output array is in some point's block: row r is in the block of point r / 2000. -/
theorem covered (i : S50000x5.Idx) :
    ∃ t : Fin cfg2.N, (cfg2.win 9).flush t = true ∧ i ∈ ((cfg2.win 9).blk t).view.set := by
  have hi0 : (i 0).val < 50000 := (i 0).isLt
  have hi1 : (i 1).val < 5 := (i 1).isLt
  have hN : cfg2.N = 25 := N_2
  have ht : (i 0).val / 2000 < cfg2.N := by rw [hN]; omega
  obtain ⟨e0, e1, -⟩ := block_indices ⟨(i 0).val / 2000, ht⟩
  have e0' : win2_9.index ⟨(i 0).val / 2000, ht⟩ (0 : Fin 2) = (i 0).val / 2000 := e0
  refine ⟨⟨(i 0).val / 2000, ht⟩, flush2_9 _, ?_⟩
  rw [mem_blk]
  intro a
  match a with
  | ⟨0, _⟩ =>
    show win2_9.index ⟨(i 0).val / 2000, ht⟩ (0 : Fin 2) * 2000 ≤ (i 0).val
      ∧ (i 0).val < win2_9.index ⟨(i 0).val / 2000, ht⟩ (0 : Fin 2) * 2000 + 2000
    omega
  | ⟨1, _⟩ =>
    show win2_9.index ⟨(i 0).val / 2000, ht⟩ (1 : Fin 2) * 5 ≤ (i 1).val
      ∧ (i 1).val < win2_9.index ⟨(i 0).val / 2000, ht⟩ (1 : Fin 2) * 5 + 5
    omega

/-- THE ARRAY after the region: `G` of the entry arrays. -/
theorem final (c : Dev nD) : (dat2 (F := Ideal) V c).arrAt 9 cfg2.N = G V c :=
  (dat2 (F := Ideal) V c).arrAt_eq_of_cover 9 (G V c) (fun t _ => flushed_eq V c t) covered

end Cert.KernelIdeal.UpdValue

end
-- ==== Proof.SpecTotal.lean ====
/-
  The whole computation as ONE function of the fifteen argument arrays, entry by entry: the specification's
  three dense stages around the two row gathers and the segment sum.

  The gather (rows of the encoded features at the edges' end nodes) and the scatter-add (the sum of the
  messages over the edges sharing a target node) enter as parameters: both programs apply the same two
  operations to the same operands, so neither is ever opened. Only layer 3 of the stacked weights is read:
  the one layer whose update the computation keeps.
-/
import proofs.«416000_j42125039239963_1_alg».proof.Proof.Spec

noncomputable section

namespace Cert.Spec

open Idealize.ShloMosaic Idealize.ShloMosaic.ValueIdx

/-- Arrays of extended reals over a literal shape. -/
abbrev A2 (a b : Nat) : Type := (⟨2, ![a, b]⟩ : Shape).Idx → EReal
abbrev A1 (a : Nat) : Type := (⟨1, ![a]⟩ : Shape).Idx → EReal
abbrev A3 (a b c : Nat) : Type := (⟨3, ![a, b, c]⟩ : Shape).Idx → EReal
/-- The 800000 × 1 array of 32-bit start indices a row gather or a row scatter takes. -/
abbrev Ix : Type := (⟨2, ![800000, 1]⟩ : Shape).Idx → BitVec 32

/-- The layer whose update is kept: the last of the four. -/
def layer : Fin 4 := 3

/-- The encoded node features `x · enc_w + enc_b`. -/
def encoded (x : A2 50000 5) (enc_w : A2 5 128) (enc_b : A1 128) : A2 50000 128 := fun j =>
  encAt (fun n t => x (ix2 n t)) (fun t q => enc_w (ix2 t q)) (fun q => enc_b (ix1 q)) (j 0) (j 1)

/-- Row `r` of the edge list as a column of start indices. -/
def endpoints (edge_index : (⟨2, ![2, 800000]⟩ : Shape).Idx → BitVec 32) (r : Fin 2) : Ix := fun j =>
  edge_index (ix2 r (j 0))

/-- The messages, one row per edge, from the gathered target rows `xi` and source rows `xj`. -/
def messages (xi xj : A2 800000 128) (ea : A2 800000 3) (msg_w1 : A3 4 259 128) (msg_b1 : A2 4 128)
    (msg_w2 : A3 4 128 128) (msg_b2 : A2 4 128) : A2 800000 128 := fun j =>
  msgAt (fun k => xi (ix2 (j 0) k)) (fun k => xj (ix2 (j 0) k)) (fun k => ea (ix2 (j 0) k))
    (fun k q => msg_w1 (ix3 layer (lo259 k) q)) (fun k q => msg_w1 (ix3 layer (mid259 k) q))
    (fun k q => msg_w1 (ix3 layer (hi259 k) q)) (fun q => msg_b1 (ix2 layer q))
    (fun k q => msg_w2 (ix3 layer k q)) (fun q => msg_b2 (ix2 layer q)) (j 1)

/-- The decoded output, one row per node, from the encoded rows `h` and the aggregated rows `aggr`. -/
def decoded (h aggr : A2 50000 128) (upd_w1 : A3 4 256 128) (upd_b1 : A2 4 128) (upd_w2 : A3 4 128 128)
    (upd_b2 : A2 4 128) (dec_w : A2 128 5) (dec_b : A1 5) : A2 50000 5 := fun j =>
  outAt (fun k => h (ix2 (j 0) k)) (fun k => aggr (ix2 (j 0) k))
    (fun k q => upd_w1 (ix3 layer (lo256 k) q)) (fun k q => upd_w1 (ix3 layer (hi256 k) q))
    (fun q => upd_b1 (ix2 layer q)) (fun k q => upd_w2 (ix3 layer k q)) (fun q => upd_b2 (ix2 layer q))
    (fun k q => dec_w (ix2 k q)) (fun q => dec_b (ix1 q)) (j 1)

/-- THE RESULT: encode; gather the rows at the edges' sources (row 0 of the edge list) and targets (row 1);
    the per-edge messages; their sum per target node into an array of zeros; update, residual sum, decode. -/
def total (gath : A2 50000 128 → Ix → A2 800000 128) (scat : A2 50000 128 → Ix → A2 800000 128 → A2 50000 128)
    (x : A2 50000 5) (edge_index : (⟨2, ![2, 800000]⟩ : Shape).Idx → BitVec 32) (edge_attr : A2 800000 3)
    (enc_w : A2 5 128) (enc_b : A1 128) (dec_w : A2 128 5) (dec_b : A1 5)
    (msg_w1 : A3 4 259 128) (msg_b1 : A2 4 128) (msg_w2 : A3 4 128 128) (msg_b2 : A2 4 128)
    (upd_w1 : A3 4 256 128) (upd_b1 : A2 4 128) (upd_w2 : A3 4 128 128) (upd_b2 : A2 4 128) : A2 50000 5 :=
  let h := encoded x enc_w enc_b
  let xj := gath h (endpoints edge_index 0)
  let xi := gath h (endpoints edge_index 1)
  let msg := messages xi xj edge_attr msg_w1 msg_b1 msg_w2 msg_b2
  let aggr := scat (fun _ => 0) (endpoints edge_index 1) msg
  decoded h aggr upd_w1 upd_b1 upd_w2 upd_b2 dec_w dec_b

end Cert.Spec

end
-- ==== Proof.IdxFacts.lean ====
/-
  Word-level facts about a node index in range. Both programs prepare a column of edge end points for the
  row gather by wrapping negative entries (index + 50000 where the index is negative as a signed word); one
  of them then masks the gathered rows by "0 ≤ index ≤ 49999". For a 32-bit word whose unsigned value is
  below 50000 the wrap changes nothing and both bounds hold.
-/
import Idealize.ShloMosaic.Lib.ValueIdx
import Idealize.ShloMosaic.Lib.StableHlo.Predicate

namespace Cert.IdxFacts

open Idealize.ShloMosaic Idealize.ShloMosaic.ValueIdx Idealize.ShloMosaic.StableHlo.Predicate

/-- An index below 50000 is not negative as a signed word. -/
theorem slt_zero {a : BitVec 32} (h : a.toNat < 50000) : IntOp.cmpi .slt a 0#32 = 0#1 :=
  eq_zero_of_ne_one fun e => by
    have h0 : (0#32 : BitVec 32).toNat < 2 ^ 31 := by decide
    have := (slt_iff_toNat (a := a) (b := 0#32) (by omega) h0).mp e
    have z : (0#32 : BitVec 32).toNat = 0 := rfl
    omega

/-- The wrap of negative indices leaves an index below 50000 alone. -/
theorem wrap_self {a : BitVec 32} (h : a.toNat < 50000) :
    Scalar.select (IntOp.cmpi .slt a 0#32) (IntOp.addi a 50000#32) a = a := by
  rw [slt_zero h, select_zero]

/-- An index below 50000 is at least zero as a signed word. -/
theorem sge_zero {a : BitVec 32} (h : a.toNat < 50000) : IntOp.cmpi .sge a 0#32 = 1#1 := by
  have h0 : (0#32 : BitVec 32).toNat < 2 ^ 31 := by decide
  refine (sge_iff_toNat (a := a) (b := 0#32) (by omega) h0).mpr ?_
  have z : (0#32 : BitVec 32).toNat = 0 := rfl
  omega

/-- An index below 50000 is at most 49999 as a signed word. -/
theorem sle_last {a : BitVec 32} (h : a.toNat < 50000) : IntOp.cmpi .sle a 49999#32 = 1#1 := by
  have h0 : (49999#32 : BitVec 32).toNat < 2 ^ 31 := by decide
  refine (sle_iff_toNat (a := a) (b := 49999#32) (by omega) h0).mpr ?_
  have z : (49999#32 : BitVec 32).toNat = 49999 := rfl
  omega

end Cert.IdxFacts
-- ==== Proof.KernelTake.lean ====
/-
  The row gather with its range mask. The program gathers rows of the encoded features at a vector of node
  indices in four steps: negative entries are wrapped (entry + 50000), the vector is laid as a column, the rows
  are gathered, and each gathered row is kept where "0 ≤ entry ≤ 49999" holds and replaced by a fill elsewhere.
  Where every entry is a node index (below 50000 as an unsigned word) the wrap changes nothing and the mask is
  all ones: the result is the plain gather at the column of the entries themselves. The gather itself is
  never opened: it is applied to equal operands on both sides.
-/
import proofs.«416000_j42125039239963_1_alg».proof.KernelIdeal
import proofs.«416000_j42125039239963_1_alg».proof.Proof.IdxFacts
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

noncomputable section

namespace Cert.KernelIdeal.Take

open Cert.KernelIdeal Idealize.ShloMosaic Idealize.ShloMosaic.ValueIdx

variable [Cert.KernelIdeal.Facts]
open Cert.KernelIdeal.Facts₀ Cert.KernelIdeal.Facts

/-- The vector of entries with the negative ones wrapped, as a column of start indices. -/
def wrappedCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One bit per entry: the wrapped entry is between 0 and 49999. -/
def inRange (v : IVec S800000 32) : IVec S800000 1 :=
  (fun x w => Host.reduce IntOp.andi x w reducesTo_S800000x1_S800000_d1 h_S_)
    (andi (cmpi .sge (wrappedCol v) (broadcastInDim S800000x1 ![] bcast_S_S800000x1 (constantI S_ 32 0#32)))
      (cmpi .sle (wrappedCol v) (broadcastInDim S800000x1 ![0, 1] bcast_S1x1_S800000x1_0_1
        (broadcastInDim S1x1 ![1] bcast_S1_S1x1_1 (constantI S1 32 49999#32)))))
    (constantI S_ 1 1#1)

/-- The masked row gather, operation for operation as the program applies it. -/
def maskedTake (h : FVec Ideal S50000x128 .f32) (v : IVec S800000 32) : FVec Ideal S800000x128 .f32 :=
  select (broadcastInDim S800000x128 ![0] bcast_S800000_S800000x128_0 (inRange v))
    (Host.gather gather_S50000x128_S800000x1_S800000x128_1_0_n_n_0_1_1128 h (wrappedCol v))
    (broadcastInDim S800000x128 ![] bcast_S_S800000x128 (constant (F := Ideal) S_ .f32 0x7FC00000#32))

/-! ## An and-reduction of ones -/

/-- A left fold by `and` from 1 over entries that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), IntOp.andi_eq_one.2 ⟨rfl, rfl⟩]
    exact foldl_andi_one f l fun n hn => h n (List.mem_cons.2 (Or.inr hn))

/-- A reduction by `and`, from the initial value 1, of an array whose entries are all 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-! ## The wrap and the mask where every entry is a node index -/

/-- The wrap of negative entries changes nothing. -/
theorem wrap_eq (v : IVec S800000 32) (hv : ∀ i : S800000.Idx, (v i).toNat < 50000) :
    select (cmpi .slt v (broadcastInDim S800000 ![] bcast_S_S800000 (constantI S_ 32 0#32)))
      (addi v (broadcastInDim S800000 ![] bcast_S_S800000 (constantI S_ 32 50000#32))) v = v := by
  funext i
  show Scalar.select (IntOp.cmpi .slt (v i) 0#32) (IntOp.addi (v i) 50000#32) (v i) = v i
  exact Cert.IdxFacts.wrap_self (hv i)

/-- So the column of start indices is the column of the entries themselves. -/
theorem wrappedCol_eq (v : IVec S800000 32) (hv : ∀ i : S800000.Idx, (v i).toNat < 50000) :
    wrappedCol v = broadcastInDim S800000x1 ![0] bcast_S800000_S800000x1_0 v := by
  unfold wrappedCol
  rw [wrap_eq v hv]

/-- Every mask bit is 1: both bounds hold at every entry of the column, so the and-reduction from the initial 1
    meets only ones. -/
theorem inRange_one (v : IVec S800000 32) (hv : ∀ i : S800000.Idx, (v i).toNat < 50000) (i : S800000.Idx) :
    inRange v i = 1#1 := by
  unfold inRange
  refine reduce_andi_one _ _ reducesTo_S800000x1_S800000_d1 h_S_ (fun y => ?_) rfl i
  have hy : (wrappedCol v y).toNat < 50000 := by
    rw [wrappedCol_eq v hv]
    unfold broadcastInDim
    exact hv _
  show IntOp.andi (IntOp.cmpi .sge (wrappedCol v y) 0#32) (IntOp.cmpi .sle (wrappedCol v y) 49999#32) = 1#1
  rw [Cert.IdxFacts.sge_zero hy, Cert.IdxFacts.sle_last hy]
  exact IntOp.andi_eq_one.2 ⟨rfl, rfl⟩

/-- Where every entry is a node index, the masked gather is the plain gather at the column of the entries. -/
theorem maskedTake_eq (h : FVec Ideal S50000x128 .f32) (v : IVec S800000 32) (hv : ∀ i : S800000.Idx, (v i).toNat < 50000) :
    maskedTake h v
      = Host.gather gather_S50000x128_S800000x1_S800000x128_1_0_n_n_0_1_1128 h
          (broadcastInDim S800000x1 ![0] bcast_S800000_S800000x1_0 v) := by
  unfold maskedTake
  rw [wrappedCol_eq v hv]
  funext j
  show Scalar.select _ _ _ = _
  have hm : broadcastInDim S800000x128 ![0] bcast_S800000_S800000x128_0 (inRange v) j = 1#1 := by
    unfold broadcastInDim
    exact inRange_one v hv _
  rw [hm, select_one]

end Cert.KernelIdeal.Take

end
-- ==== Proof.KernelTakeRun.lean ====
/-
  The two host stretches that gather the encoded features' rows at the edges' source and target nodes, read
  from ANY buffer contents and for any float values: each leaves its result buffer at the masked row gather
  of the encoded-features buffer at its vector of end points.
-/
import proofs.«416000_j42125039239963_1_alg».proof.Proof.Gen.KernelIdeal.Launch
import proofs.«416000_j42125039239963_1_alg».proof.Proof.KernelTake
import Idealize.ShloMosaic.Lib.StableHlo.Run
import Idealize.ShloMosaic.Lib.Pipeline.Frame

noncomputable section

namespace Cert.KernelIdeal.TakeRun

open Cert.KernelIdeal Cert.KernelIdeal.Gen Idealize.ShloMosaic Idealize.ShloMosaic.TcCoe Idealize.SL.Sem Idealize.ShloMosaic.StableHlo

variable {F : FTy → Type} [FloatOps F]

/-- The masked row gather for any float values (at the extended reals it is `Take.maskedTake`). -/
def maskedTakeF (h : FVec F S50000x128 .f32) (v : IVec S800000 32) : FVec F S800000x128 .f32 :=
  select (broadcastInDim S800000x128 ![0] bcast_S800000_S800000x128_0 (Cert.KernelIdeal.Take.inRange v))
    (Host.gather gather_S50000x128_S800000x1_S800000x128_1_0_n_n_0_1_1128 h (Cert.KernelIdeal.Take.wrappedCol v))
    (broadcastInDim S800000x128 ![] bcast_S_S800000x128 (constant S_ .f32 0x7FC00000#32))

theorem maskedTakeF_ideal (h : FVec Ideal S50000x128 .f32) (v : IVec S800000 32) :
    maskedTakeF (F := Ideal) h v = Cert.KernelIdeal.Take.maskedTake h v := rfl

/-- Contents moved to a typed reference's buffer type and back are unchanged. -/
theorem ofBuf_toBuf {T : BufTy} {Val : EltTy → Type} (x : StableHlo.TRef sig T) (v : T.Contents Val) :
    x.ofBuf (x.toBuf v) = v := by
  obtain ⟨r, ty_eq, h1, h2⟩ := x
  subst ty_eq
  rfl

/-- And the other way round. -/
theorem toBuf_ofBuf {T : BufTy} {Val : EltTy → Type} (x : StableHlo.TRef sig T) (u : x.ref.ty.Contents Val) :
    x.toBuf (x.ofBuf u) = u := by
  obtain ⟨r, ty_eq, h1, h2⟩ := x
  subst ty_eq
  rfl

set_option maxRecDepth 8192 in
set_option maxHeartbeats 2000000 in
/-- The stretch that gathers at the source nodes. -/
theorem take_src_of (VA : Valuation τ sig (Elt F)) :
    after (hostOps1_1 (F := F)) VA (no_index (Proc.devRef .tc main_v6))
      = maskedTakeF (VA (Proc.devRef .tc main_v1)) (VA (Proc.devRef .tc main_v3)) := by
  simp only [hostOps1_1]
  after_results_simp
  simp only [ofBuf_toBuf]
  -- the three typed references at the ends are literal ones: moving contents along them is the identity
  have e1 : (StableHlo.TRef.of main_v1 : StableHlo.TRef sig ⟨S50000x128, .f32⟩).ofBuf (VA (Proc.devRef .tc main_v1))
      = VA (Proc.devRef .tc main_v1) := rfl
  have e3 : (StableHlo.TRef.of main_v3 : StableHlo.TRef sig ⟨S800000, .i32⟩).ofBuf (VA (Proc.devRef .tc main_v3))
      = VA (Proc.devRef .tc main_v3) := rfl
  have e6 : ∀ M : FVec F S800000x128 .f32,
      (StableHlo.TRef.of main_v6 : StableHlo.TRef sig ⟨S800000x128, .f32⟩).ofBuf (Val := Elt F) M = M := fun _ => rfl
  rw [e1, e3]
  refine (congrArg (StableHlo.TRef.toBuf _) ?_).trans (toBuf_ofBuf _ _)
  rw [e6]
  unfold maskedTakeF Cert.KernelIdeal.Take.inRange Cert.KernelIdeal.Take.wrappedCol
  rfl

set_option maxRecDepth 8192 in
set_option maxHeartbeats 2000000 in
/-- The stretch that gathers at the target nodes. -/
theorem take_dst_of (VA : Valuation τ sig (Elt F)) :
    after (hostOps1_2 (F := F)) VA (no_index (Proc.devRef .tc main_v7))
      = maskedTakeF (VA (Proc.devRef .tc main_v1)) (VA (Proc.devRef .tc main_v5)) := by
  simp only [hostOps1_2]
  after_results_simp
  simp only [ofBuf_toBuf]
  -- the three typed references at the ends are literal ones: moving contents along them is the identity
  have e1 : (StableHlo.TRef.of main_v1 : StableHlo.TRef sig ⟨S50000x128, .f32⟩).ofBuf (VA (Proc.devRef .tc main_v1))
      = VA (Proc.devRef .tc main_v1) := rfl
  have e3 : (StableHlo.TRef.of main_v5 : StableHlo.TRef sig ⟨S800000, .i32⟩).ofBuf (VA (Proc.devRef .tc main_v5))
      = VA (Proc.devRef .tc main_v5) := rfl
  have e6 : ∀ M : FVec F S800000x128 .f32,
      (StableHlo.TRef.of main_v7 : StableHlo.TRef sig ⟨S800000x128, .f32⟩).ofBuf (Val := Elt F) M = M := fun _ => rfl
  rw [e1, e3]
  refine (congrArg (StableHlo.TRef.toBuf _) ?_).trans (toBuf_ofBuf _ _)
  rw [e6]
  unfold maskedTakeF Cert.KernelIdeal.Take.inRange Cert.KernelIdeal.Take.wrappedCol
  rfl

end Cert.KernelIdeal.TakeRun

end
-- ==== Proof.KernelFold.lean ====
/-
  The program's result as ONE function of its arguments: the three regions' values threaded through the host
  operations between them. Before region 0 the bias is reshaped to a row; between regions 0 and 1 the two rows
  of the edge list are cut out, the encoded features' rows are gathered at them (negative entries wrapped, the
  gathered rows masked by "entry in range": all ones where every entry is a node index), and layer 3 of the
  message weights is cut into its three row blocks; between regions 1 and 2 the messages are summed per target
  node into zeros and layer 3 of the update weights is cut into its two row blocks.
-/
import proofs.«416000_j42125039239963_1_alg».proof.Proof.Gen.KernelIdeal.Frame
import proofs.«416000_j42125039239963_1_alg».proof.Proof.SpecTotal
import proofs.«416000_j42125039239963_1_alg».proof.Proof.IdxFacts
import proofs.«416000_j42125039239963_1_alg».proof.Proof.Spec
import proofs.«416000_j42125039239963_1_alg».proof.Proof.KernelTake
import proofs.«416000_j42125039239963_1_alg».proof.Proof.KernelTakeRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem

/-- A region's entry contents: every TensorCore buffer's contents when the region is entered. -/
abbrev Entry : Type := (c : Dev nD) → (b : Ref sig .tc) → Buf (Elt Ideal) ((c : Thread nD τ).loc b)

/-- Region 0's whole-array function of its entry arrays (the encoder). -/
def encG (V : Entry) (c : Dev nD) : S50000x128.Idx → EReal := fun j =>
  Cert.Spec.encAt (fun n t => (V c main_arg0 : S50000x5.Idx → EReal) (ix2 n t))
    (fun t q => (V c main_arg3 : S5x128.Idx → EReal) (ix2 t q))
    (fun q => (V c main_v0 : S1x128.Idx → EReal) (ix2 0 q)) (j 0) (j 1)

/-- Region 1's whole-array function of its entry arrays (the per-edge messages). -/
def msgG (V : Entry) (c : Dev nD) : S800000x128.Idx → EReal := fun j =>
  Cert.Spec.msgAt (fun k => (V c main_v7 : S800000x128.Idx → EReal) (ix2 (j 0) k))
    (fun k => (V c main_v6 : S800000x128.Idx → EReal) (ix2 (j 0) k))
    (fun k => (V c main_arg2 : S800000x3.Idx → EReal) (ix2 (j 0) k))
    (fun k q => (V c main_v10 : S128x128.Idx → EReal) (ix2 k q))
    (fun k q => (V c main_v11 : S128x128.Idx → EReal) (ix2 k q))
    (fun k q => (V c main_v12 : S3x128.Idx → EReal) (ix2 k q))
    (fun q => (V c main_v19 : S1x128.Idx → EReal) (ix2 0 q))
    (fun k q => (V c main_v16 : S128x128.Idx → EReal) (ix2 k q))
    (fun q => (V c main_v20 : S1x128.Idx → EReal) (ix2 0 q)) (j 1)

/-- Region 2's whole-array function of its entry arrays (update, residual sum, decoder). -/
def updG (V : Entry) (c : Dev nD) : S50000x5.Idx → EReal := fun j =>
  Cert.Spec.outAt (fun k => (V c main_v1 : S50000x128.Idx → EReal) (ix2 (j 0) k))
    (fun k => (V c main_v24 : S50000x128.Idx → EReal) (ix2 (j 0) k))
    (fun k q => (V c main_v27 : S128x128.Idx → EReal) (ix2 k q))
    (fun k q => (V c main_v28 : S128x128.Idx → EReal) (ix2 k q))
    (fun q => (V c main_v35 : S1x128.Idx → EReal) (ix2 0 q))
    (fun k q => (V c main_v32 : S128x128.Idx → EReal) (ix2 k q))
    (fun q => (V c main_v36 : S1x128.Idx → EReal) (ix2 0 q))
    (fun k q => (V c main_arg5 : S128x5.Idx → EReal) (ix2 k q))
    (fun q => (V c main_v37 : S1x5.Idx → EReal) (ix2 0 q)) (j 1)

variable (m : (ℓ : Loc nD τ sig) → Buf (Elt Ideal) ℓ) (ρ : Dev nD → PrngReg)

/-! ## What each stretch of host operations writes, and the buffers it leaves alone -/

/-- A one-element set of buffers lies inside a list's set once its reference is in the list. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the stretch before region 0 writes. -/
noncomputable def wr0 : List (Ref sig .tc) := [main_v0]

theorem writes0 : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub_of_mem (by decide)

/-- The references the two row cuts of the edge list write. -/
noncomputable def wr1 : List (Ref sig .tc) := [main_v2, main_v3, main_v4, main_v5]

theorem writes1 : (hostOps1 (F := Ideal)).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub_of_mem (by decide)

/-- The references the first row gather (at the sources) writes. -/
noncomputable def wr1_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]

theorem writes1_1 : (hostOps1_1 (F := Ideal)).Forall fun op => op.writes ⊆ (wr1_1.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact single_sub_of_mem (by decide)

/-- The references the second row gather (at the targets) writes. -/
noncomputable def wr1_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]

theorem writes1_2 : (hostOps1_2 (F := Ideal)).Forall fun op => op.writes ⊆ (wr1_2.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact single_sub_of_mem (by decide)

/-- The references the cuts of the message weights write. -/
noncomputable def wr1_3 : List (Ref sig .tc) := [main_v8, main_v9, main_v10, main_v11, main_v12, main_v13, main_v14, main_v15, main_v16, main_v17, main_v18, main_v19, main_v20]

theorem writes1_3 : (hostOps1_3 (F := Ideal)).Forall fun op => op.writes ⊆ (wr1_3.map (Proc.devRef (τ := τ) .tc)).toFinset := by
  simp only [hostOps1_3, List.Forall, StableHlo.nullary_writes, StableHlo.unary_writes, StableHlo.binary_writes, StableHlo.ternary_writes, StableHlo.reshape_writes]
  repeat' apply And.intro
  all_goals exact single_sub_of_mem (by decide)

/-- The references the stretch between regions 1 and 2 writes. -/
noncomputable def wr2 : List (Ref sig .tc) := [main_cst, main_v22, main_v23, main_v24, main_v25, main_v26, main_v27, main_v28, main_v29, main_v30, main_v31, main_v32, main_v33, main_v34, main_v35, main_v36, main_v37]

theorem writes2 : (hostOps2 (F := Ideal)).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact single_sub_of_mem (by decide)

theorem W1_keep (c : Dev nD) (b : Ref sig .tc) (h : b ∉ wr0) :
    W1 (F := Ideal) m ρ c (Proc.devRef .tc b) = m ((c : Thread nD τ).loc b) :=
  StableHlo.after_of_writes_sub hostOps0 _ writes0 h
theorem W3_keep (c : Dev nD) (b : Ref sig .tc) (h : b ∉ wr1) :
    W3 (F := Ideal) m ρ c (Proc.devRef .tc b) = W2 m ρ c (Proc.devRef .tc b) :=
  StableHlo.after_of_writes_sub hostOps1 _ writes1 h
theorem W4_keep (c : Dev nD) (b : Ref sig .tc) (h : b ∉ wr1_1) :
    W4 (F := Ideal) m ρ c (Proc.devRef .tc b) = W3 m ρ c (Proc.devRef .tc b) :=
  StableHlo.after_of_writes_sub hostOps1_1 _ writes1_1 h
theorem W5_keep (c : Dev nD) (b : Ref sig .tc) (h : b ∉ wr1_2) :
    W5 (F := Ideal) m ρ c (Proc.devRef .tc b) = W4 m ρ c (Proc.devRef .tc b) :=
  StableHlo.after_of_writes_sub hostOps1_2 _ writes1_2 h
theorem W6_keep (c : Dev nD) (b : Ref sig .tc) (h : b ∉ wr1_3) :
    W6 (F := Ideal) m ρ c (Proc.devRef .tc b) = W5 m ρ c (Proc.devRef .tc b) :=
  StableHlo.after_of_writes_sub hostOps1_3 _ writes1_3 h
theorem W8_keep (c : Dev nD) (b : Ref sig .tc) (h : b ∉ wr2) :
    W8 (F := Ideal) m ρ c (Proc.devRef .tc b) = W7 m ρ c (Proc.devRef .tc b) :=
  StableHlo.after_of_writes_sub hostOps2 _ writes2 h

/-- An array no stretch up to the second row gather writes, and no window of region 0 holds, is as launched
    when the cuts of the message weights begin. -/
theorem W5_launch (c : Dev nD) (b : Ref sig .tc) (h0 : b ∉ wr0) (h1 : b ∉ wr1) (h11 : b ∉ wr1_1) (h12 : b ∉ wr1_2)
    (hr0 : ∀ w, Pipeline.arrRef spec0 w ≠ b) :
    W5 (F := Ideal) m ρ c (Proc.devRef .tc b) = m ((c : Thread nD τ).loc b) :=
  (W5_keep m ρ c b h12).trans <| (W4_keep m ρ c b h11).trans <| (W3_keep m ρ c b h1).trans <|
    (W2_of_ne m ρ c b hr0).trans (W1_keep m ρ c b h0)

/-- The same up to region 1's exit, for an array no window of region 1 holds either. -/
theorem W7_launch (c : Dev nD) (b : Ref sig .tc) (h0 : b ∉ wr0) (h1 : b ∉ wr1) (h11 : b ∉ wr1_1) (h12 : b ∉ wr1_2)
    (h13 : b ∉ wr1_3) (hr0 : ∀ w, Pipeline.arrRef spec0 w ≠ b) (hr1 : ∀ w, Pipeline.arrRef spec1 w ≠ b) :
    W7 (F := Ideal) m ρ c (Proc.devRef .tc b) = m ((c : Thread nD τ).loc b) :=
  (W7_of_ne m ρ c b hr1).trans <| (W6_keep m ρ c b h13).trans (W5_launch m ρ c b h0 h1 h11 h12 hr0)

/-! ## Cuts of the stacked weights and of the edge list, read at an index

Each is stated over a variable array and variable side conditions, so it applies to the printed operations by
unification. -/

section Cuts
variable {α : Type}

/-- Row `r` of a two-row array, cut out and flattened, reads the array at `(r, n)`. -/
theorem row_apply {N : Nat} (o : Nat) (X : (⟨2, ![2, N]⟩ : Shape).Idx → α)
    (h1 : (⟨2, ![2, N]⟩ : Shape).Slices ![o, 0] ⟨2, ![1, N]⟩) (h2 : (⟨2, ![1, N]⟩ : Shape).ShapeCasts ⟨1, ![N]⟩)
    (r : Fin 2) (hr : r.val = o) (n : Fin N) :
    shapeCast ⟨1, ![N]⟩ (extractStridedSlice ⟨2, ![1, N]⟩ ![o, 0] X h1) h2 (ix1 n) = X (ix2 r n) :=
  (shapeCast_1a_a_apply _ h2 n).trans (slice2_axis0_apply o X h1 0 n r (by rw [hr]; rfl))

/-- Layer 3 of a stack of four matrices, cut out and its unit axis dropped, reads the stack at `(3, i, j)`. -/
theorem layer_apply {R C : Nat} (X : (⟨3, ![4, R, C]⟩ : Shape).Idx → α)
    (h1 : (⟨3, ![4, R, C]⟩ : Shape).Slices ![3, 0, 0] ⟨3, ![1, R, C]⟩)
    (h2 : (⟨3, ![1, R, C]⟩ : Shape).ShapeCasts ⟨2, ![R, C]⟩) (i : Fin R) (j : Fin C) :
    shapeCast ⟨2, ![R, C]⟩ (extractStridedSlice ⟨3, ![1, R, C]⟩ ![3, 0, 0] X h1) h2 (ix2 i j) = X (ix3 (3 : Fin 4) i j) :=
  (shapeCast_1ab_ab_apply _ h2 i j).trans (extractStridedSlice_apply _ X h1 _ _ fun ax => by
    match ax with
    | ⟨0, _⟩ => rfl
    | ⟨1, _⟩ => exact (Nat.zero_add _).symm
    | ⟨2, _⟩ => exact (Nat.zero_add _).symm)

/-- A block of rows of layer 3, from row `o`: the stack at `(3, o + k, q)`. -/
theorem layer_rows_apply {R C M : Nat} (o : Nat) (X : (⟨3, ![4, R, C]⟩ : Shape).Idx → α)
    (h1 : (⟨3, ![4, R, C]⟩ : Shape).Slices ![3, 0, 0] ⟨3, ![1, R, C]⟩)
    (h2 : (⟨3, ![1, R, C]⟩ : Shape).ShapeCasts ⟨2, ![R, C]⟩)
    (h3 : (⟨2, ![R, C]⟩ : Shape).Slices ![o, 0] ⟨2, ![M, C]⟩) (k : Fin M) (q : Fin C) (k' : Fin R) (hk : k'.val = o + k.val) :
    extractStridedSlice ⟨2, ![M, C]⟩ ![o, 0]
        (shapeCast ⟨2, ![R, C]⟩ (extractStridedSlice ⟨3, ![1, R, C]⟩ ![3, 0, 0] X h1) h2) h3 (ix2 k q)
      = X (ix3 (3 : Fin 4) k' q) :=
  (slice2_axis0_apply o _ h3 k q k' hk).trans (layer_apply X h1 h2 k' q)

/-- Row 3 of a stack of four vectors, cut out, flattened and given a unit axis again: the stack at `(3, q)`. -/
theorem layer_bias_apply {C : Nat} (X : (⟨2, ![4, C]⟩ : Shape).Idx → α)
    (h1 : (⟨2, ![4, C]⟩ : Shape).Slices ![3, 0] ⟨2, ![1, C]⟩) (h2 : (⟨2, ![1, C]⟩ : Shape).ShapeCasts ⟨1, ![C]⟩)
    (h3 : (⟨1, ![C]⟩ : Shape).ShapeCasts ⟨2, ![1, C]⟩) (u : Fin 1) (q : Fin C) :
    shapeCast ⟨2, ![1, C]⟩ (shapeCast ⟨1, ![C]⟩ (extractStridedSlice ⟨2, ![1, C]⟩ ![3, 0] X h1) h2) h3 (ix2 u q)
      = X (ix2 (3 : Fin 4) q) :=
  (shapeCast_a_1a_apply _ h3 u q).trans <| (shapeCast_1a_a_apply _ h2 q).trans
    (slice2_axis0_apply 3 X h1 0 q 3 rfl)

/-- A flat vector spread along a new trailing unit axis reads the vector at the row. -/
theorem column_apply {N : Nat} (X : (⟨1, ![N]⟩ : Shape).Idx → α)
    (h : (⟨1, ![N]⟩ : Shape).BroadcastsInDim ⟨2, ![N, 1]⟩ (![0] : Fin 1 → Fin 2)) (j : (⟨2, ![N, 1]⟩ : Shape).Idx) :
    broadcastInDim ⟨2, ![N, 1]⟩ ![0] h X j = X (ix1 (j 0)) := by
  refine broadcastInDim_apply _ h X j _ fun a => ?_
  match a with
  | ⟨0, _⟩ =>
    show (j 0).val = if N = 1 then 0 else (j 0).val
    split
    · have := idx2_lt0 j; omega
    · rfl

/-- A flat vector spread along a new trailing axis reads the vector at the row. -/
theorem rows_apply {N C : Nat} (X : (⟨1, ![N]⟩ : Shape).Idx → α)
    (h : (⟨1, ![N]⟩ : Shape).BroadcastsInDim ⟨2, ![N, C]⟩ (![0] : Fin 1 → Fin 2)) (j : (⟨2, ![N, C]⟩ : Shape).Idx) :
    broadcastInDim ⟨2, ![N, C]⟩ ![0] h X j = X (ix1 (j 0)) := by
  refine broadcastInDim_apply _ h X j _ fun a => ?_
  match a with
  | ⟨0, _⟩ =>
    show (j 0).val = if N = 1 then 0 else (j 0).val
    split
    · have := idx2_lt0 j; omega
    · rfl

/-- A scalar spread over any shape reads the scalar. -/
theorem splat_apply {t : Shape} (X : (⟨0, ![]⟩ : Shape).Idx → α)
    (h : (⟨0, ![]⟩ : Shape).BroadcastsInDim t (![] : Fin 0 → Fin t.rank)) (j : t.Idx) :
    broadcastInDim t ![] h X j = X ix0 :=
  broadcastInDim_apply _ h X j _ fun a => a.elim0

end Cuts

/-! ## Region 0: its entry arrays and its result -/

section Regions
variable (c : Dev nD)

theorem V1_arg0 : (V1 (F := Ideal) m ρ c main_arg0 : S50000x5.Idx → EReal) = (m ((c : Thread nD τ).loc main_arg0)) :=
  W1_keep m ρ c main_arg0 (by decide)
theorem V1_arg3 : (V1 (F := Ideal) m ρ c main_arg3 : S5x128.Idx → EReal) = (m ((c : Thread nD τ).loc main_arg3)) :=
  W1_keep m ρ c main_arg3 (by decide)
/-- The encoder's bias enters region 0 as a row. -/
theorem V1_v0 : (V1 (F := Ideal) m ρ c main_v0 : S1x128.Idx → EReal)
    = shapeCast S1x128 ((m ((c : Thread nD τ).loc main_arg4)) : S128.Idx → EReal) shapeCasts_S128_S1x128 := by
  show StableHlo.after hostOps0 (W0 m ρ c) (Proc.devRef .tc main_v0) = _
  dsimp only [hostOps0]; after_results; rfl

/-- The encoded features of the launch arrays. -/
def encL : Cert.Spec.A2 50000 128 := Cert.Spec.encoded (m ((c : Thread nD τ).loc main_arg0)) (m ((c : Thread nD τ).loc main_arg3)) (m ((c : Thread nD τ).loc main_arg4))

/-- Region 0's function of its entry arrays is the specification's encoder of the launch arrays. -/
theorem encG_V1 : encG (V1 m ρ) c = encL m c := by
  funext j
  unfold encG encL Cert.Spec.encoded
  rw [V1_arg0, V1_arg3, V1_v0]
  simp only [shapeCast_a_1a_apply]

/-- After region 0 the encoded features' array holds the specification's encoder. -/
theorem W2_v1 (hEnc : ∀ (V : Entry) (c : Dev nD), (dat0 (F := Ideal) V c).arrAt 3 cfg0.N = encG V c) :
    (W2 (F := Ideal) m ρ c (Proc.devRef .tc main_v1) : S50000x128.Idx → EReal) = encL m c :=
  ((W2_arr m ρ c 3).trans (hEnc (V1 m ρ) c)).trans (encG_V1 m ρ c)

end Regions

/-! ## The edge list's two rows, and the two row gathers -/

section Gathers
variable (c : Dev nD)

theorem W2_arg1 : (W2 (F := Ideal) m ρ c (Proc.devRef .tc main_arg1) : S2x800000.Idx → BitVec 32) = (m ((c : Thread nD τ).loc main_arg1)) :=
  (W2_of_ne m ρ c main_arg1 (by decide)).trans (W1_keep m ρ c main_arg1 (by decide))

/-- Row 0 of the launch edge list (the edges' sources), as a flat vector. -/
def srcV : IVec S800000 32 :=
  shapeCast S800000 (extractStridedSlice S1x800000 ![0, 0] ((m ((c : Thread nD τ).loc main_arg1)) : S2x800000.Idx → BitVec 32)
    slices_S2x800000_S1x800000_0_0) shapeCasts_S1x800000_S800000
/-- Row 1 of the launch edge list (the edges' targets), as a flat vector. -/
def dstV : IVec S800000 32 :=
  shapeCast S800000 (extractStridedSlice S1x800000 ![1, 0] ((m ((c : Thread nD τ).loc main_arg1)) : S2x800000.Idx → BitVec 32)
    slices_S2x800000_S1x800000_1_0) shapeCasts_S1x800000_S800000

theorem W3_v3 : (W3 (F := Ideal) m ρ c (Proc.devRef .tc main_v3) : S800000.Idx → BitVec 32) = srcV m c := by
  have e : (W3 (F := Ideal) m ρ c (Proc.devRef .tc main_v3) : S800000.Idx → BitVec 32)
      = shapeCast S800000 (extractStridedSlice S1x800000 ![0, 0]
          (W2 (F := Ideal) m ρ c (Proc.devRef .tc main_arg1) : S2x800000.Idx → BitVec 32)
          slices_S2x800000_S1x800000_0_0) shapeCasts_S1x800000_S800000 := by
    show StableHlo.after hostOps1 (W2 m ρ c) (Proc.devRef .tc main_v3) = _
    dsimp only [hostOps1]; after_results; rfl
  rw [e, W2_arg1]; rfl

theorem W3_v5 : (W3 (F := Ideal) m ρ c (Proc.devRef .tc main_v5) : S800000.Idx → BitVec 32) = dstV m c := by
  have e : (W3 (F := Ideal) m ρ c (Proc.devRef .tc main_v5) : S800000.Idx → BitVec 32)
      = shapeCast S800000 (extractStridedSlice S1x800000 ![1, 0]
          (W2 (F := Ideal) m ρ c (Proc.devRef .tc main_arg1) : S2x800000.Idx → BitVec 32)
          slices_S2x800000_S1x800000_1_0) shapeCasts_S1x800000_S800000 := by
    show StableHlo.after hostOps1 (W2 m ρ c) (Proc.devRef .tc main_v5) = _
    dsimp only [hostOps1]; after_results; rfl
  rw [e, W2_arg1]; rfl

/-- The flat source row reads the edge list's row 0 … -/
theorem srcV_apply (n : Fin 800000) : srcV m c (ix1 n) = ((m ((c : Thread nD τ).loc main_arg1)) : S2x800000.Idx → BitVec 32) (ix2 (0 : Fin 2) n) :=
  row_apply 0 _ _ _ 0 rfl n
/-- … and the flat target row its row 1. -/
theorem dstV_apply (n : Fin 800000) : dstV m c (ix1 n) = ((m ((c : Thread nD τ).loc main_arg1)) : S2x800000.Idx → BitVec 32) (ix2 (1 : Fin 2) n) :=
  row_apply 1 _ _ _ 1 rfl n

/-- Laid as a column of start indices, the source row is the specification's column of row 0. -/
theorem srcV_col : broadcastInDim S800000x1 ![0] bcast_S800000_S800000x1_0 (srcV m c) = Cert.Spec.endpoints (m ((c : Thread nD τ).loc main_arg1)) 0 :=
  funext fun j => (column_apply _ _ j).trans (srcV_apply m c (j 0))
theorem dstV_col : broadcastInDim S800000x1 ![0] bcast_S800000_S800000x1_0 (dstV m c) = Cert.Spec.endpoints (m ((c : Thread nD τ).loc main_arg1)) 1 :=
  funext fun j => (column_apply _ _ j).trans (dstV_apply m c (j 0))

section InRange
variable (hidx : ∀ i : S2x800000.Idx, (((m ((c : Thread nD τ).loc main_arg1)) : S2x800000.Idx → BitVec 32) i).toNat < 50000)
include hidx

theorem srcV_lt (i : S800000.Idx) : (srcV m c i).toNat < 50000 := by
  obtain ⟨n, rfl⟩ : ∃ n : Fin 800000, i = ix1 n := ⟨i 0, eq_ix1 i⟩
  rw [srcV_apply]; exact hidx _
theorem dstV_lt (i : S800000.Idx) : (dstV m c i).toNat < 50000 := by
  obtain ⟨n, rfl⟩ : ∃ n : Fin 800000, i = ix1 n := ⟨i 0, eq_ix1 i⟩
  rw [dstV_apply]; exact hidx _

end InRange
end Gathers

/-! ## The two gathered arrays at region 1's entry -/

section Takes
variable (c : Dev nD) (hEnc : ∀ (V : Entry) (c : Dev nD), (dat0 (F := Ideal) V c).arrAt 3 cfg0.N = encG V c)
  (hidx : ∀ i : S2x800000.Idx, (((m ((c : Thread nD τ).loc main_arg1)) : S2x800000.Idx → BitVec 32) i).toNat < 50000)
include hEnc hidx

/-- The rows of the encoded features at the edges' sources. -/
def xjL : Cert.Spec.A2 800000 128 := Host.gather gather_S50000x128_S800000x1_S800000x128_1_0_n_n_0_1_1128 (encL m c) (Cert.Spec.endpoints (m ((c : Thread nD τ).loc main_arg1)) 0)
/-- The rows of the encoded features at the edges' targets. -/
def xiL : Cert.Spec.A2 800000 128 := Host.gather gather_S50000x128_S800000x1_S800000x128_1_0_n_n_0_1_1128 (encL m c) (Cert.Spec.endpoints (m ((c : Thread nD τ).loc main_arg1)) 1)

omit hidx in
theorem W3_v1 : (W3 (F := Ideal) m ρ c (Proc.devRef .tc main_v1) : S50000x128.Idx → EReal) = encL m c :=
  (W3_keep m ρ c main_v1 (by decide)).trans (W2_v1 m ρ c hEnc)

/-- The first masked gather leaves the rows at the sources. -/
theorem W4_v6 : (W4 (F := Ideal) m ρ c (Proc.devRef .tc main_v6) : S800000x128.Idx → EReal) = xjL m c := by
  have e : (W4 (F := Ideal) m ρ c (Proc.devRef .tc main_v6) : S800000x128.Idx → EReal)
      = Take.maskedTake (W3 (F := Ideal) m ρ c (Proc.devRef .tc main_v1) : S50000x128.Idx → EReal)
          (W3 (F := Ideal) m ρ c (Proc.devRef .tc main_v3) : S800000.Idx → BitVec 32) := by
    exact (TakeRun.take_src_of (F := Ideal) (W3 m ρ c)).trans (TakeRun.maskedTakeF_ideal _ _)
  rw [e, W3_v1 m ρ c hEnc, W3_v3, Take.maskedTake_eq _ _ (srcV_lt m c hidx), srcV_col]; rfl

omit hidx in
theorem W4_v1 : (W4 (F := Ideal) m ρ c (Proc.devRef .tc main_v1) : S50000x128.Idx → EReal) = encL m c :=
  (W4_keep m ρ c main_v1 (by decide)).trans (W3_v1 m ρ c hEnc)
omit hEnc hidx in
theorem W4_v5 : (W4 (F := Ideal) m ρ c (Proc.devRef .tc main_v5) : S800000.Idx → BitVec 32) = dstV m c :=
  (W4_keep m ρ c main_v5 (by decide)).trans (W3_v5 m ρ c)

/-- The second masked gather leaves the rows at the targets. -/
theorem W5_v7 : (W5 (F := Ideal) m ρ c (Proc.devRef .tc main_v7) : S800000x128.Idx → EReal) = xiL m c := by
  have e : (W5 (F := Ideal) m ρ c (Proc.devRef .tc main_v7) : S800000x128.Idx → EReal)
      = Take.maskedTake (W4 (F := Ideal) m ρ c (Proc.devRef .tc main_v1) : S50000x128.Idx → EReal)
          (W4 (F := Ideal) m ρ c (Proc.devRef .tc main_v5) : S800000.Idx → BitVec 32) := by
    exact (TakeRun.take_dst_of (F := Ideal) (W4 m ρ c)).trans (TakeRun.maskedTakeF_ideal _ _)
  rw [e, W4_v1 m ρ c hEnc, W4_v5, Take.maskedTake_eq _ _ (dstV_lt m c hidx), dstV_col]; rfl

theorem V6_v7 : (V6 (F := Ideal) m ρ c main_v7 : S800000x128.Idx → EReal) = xiL m c :=
  (W6_keep m ρ c main_v7 (by decide)).trans (W5_v7 m ρ c hEnc hidx)
theorem V6_v6 : (V6 (F := Ideal) m ρ c main_v6 : S800000x128.Idx → EReal) = xjL m c :=
  (W6_keep m ρ c main_v6 (by decide)).trans <| (W5_keep m ρ c main_v6 (by decide)).trans (W4_v6 m ρ c hEnc hidx)

end Takes

/-! ## The cuts of the stacked weights, read from any contents

Each stretch's result buffers as the operations' terms over what the stretch finds in the buffers it reads,
for any float values. -/

section AnyContents
variable {F : FTy → Type} [FloatOps F]

/-- Rows 0 to 127 of layer 3 of the first message weight. -/
theorem cut_v10_of (VA : Valuation τ sig (Elt F)) :
    StableHlo.after (hostOps1_3 (F := F)) VA (no_index (Proc.devRef .tc main_v10))
      = extractStridedSlice S128x128 ![0, 0] (shapeCast S259x128 (extractStridedSlice S1x259x128 ![3, 0, 0] (VA (Proc.devRef .tc main_arg7) : (⟨S4x259x128, .f32⟩ : BufTy).Contents (Elt F))
          slices_S4x259x128_S1x259x128_3_0_0) shapeCasts_S1x259x128_S259x128) slices_S259x128_S128x128_0_0 := by
  simp only [hostOps1_3]; after_results_simp; rfl

/-- Rows 128 to 255 of layer 3 of the first message weight. -/
theorem cut_v11_of (VA : Valuation τ sig (Elt F)) :
    StableHlo.after (hostOps1_3 (F := F)) VA (no_index (Proc.devRef .tc main_v11))
      = extractStridedSlice S128x128 ![128, 0] (shapeCast S259x128 (extractStridedSlice S1x259x128 ![3, 0, 0] (VA (Proc.devRef .tc main_arg7) : (⟨S4x259x128, .f32⟩ : BufTy).Contents (Elt F))
          slices_S4x259x128_S1x259x128_3_0_0) shapeCasts_S1x259x128_S259x128) slices_S259x128_S128x128_128_0 := by
  simp only [hostOps1_3]; after_results_simp; rfl

/-- Rows 256 to 258 of layer 3 of the first message weight. -/
theorem cut_v12_of (VA : Valuation τ sig (Elt F)) :
    StableHlo.after (hostOps1_3 (F := F)) VA (no_index (Proc.devRef .tc main_v12))
      = extractStridedSlice S3x128 ![256, 0] (shapeCast S259x128 (extractStridedSlice S1x259x128 ![3, 0, 0] (VA (Proc.devRef .tc main_arg7) : (⟨S4x259x128, .f32⟩ : BufTy).Contents (Elt F))
          slices_S4x259x128_S1x259x128_3_0_0) shapeCasts_S1x259x128_S259x128) slices_S259x128_S3x128_256_0 := by
  simp only [hostOps1_3]; after_results_simp; rfl

/-- Layer 3 of the first message bias, as a row. -/
theorem cut_v19_of (VA : Valuation τ sig (Elt F)) :
    StableHlo.after (hostOps1_3 (F := F)) VA (no_index (Proc.devRef .tc main_v19))
      = shapeCast S1x128 (shapeCast S128 (extractStridedSlice S1x128 ![3, 0] (VA (Proc.devRef .tc main_arg8) : (⟨S4x128, .f32⟩ : BufTy).Contents (Elt F))
          slices_S4x128_S1x128_3_0) shapeCasts_S1x128_S128) shapeCasts_S128_S1x128 := by
  simp only [hostOps1_3]; after_results_simp; rfl

/-- Layer 3 of the second message weight. -/
theorem cut_v16_of (VA : Valuation τ sig (Elt F)) :
    StableHlo.after (hostOps1_3 (F := F)) VA (no_index (Proc.devRef .tc main_v16))
      = shapeCast S128x128 (extractStridedSlice S1x128x128 ![3, 0, 0] (VA (Proc.devRef .tc main_arg9) : (⟨S4x128x128, .f32⟩ : BufTy).Contents (Elt F))
          slices_S4x128x128_S1x128x128_3_0_0) shapeCasts_S1x128x128_S128x128 := by
  simp only [hostOps1_3]; after_results_simp; rfl

/-- Layer 3 of the second message bias, as a row. -/
theorem cut_v20_of (VA : Valuation τ sig (Elt F)) :
    StableHlo.after (hostOps1_3 (F := F)) VA (no_index (Proc.devRef .tc main_v20))
      = shapeCast S1x128 (shapeCast S128 (extractStridedSlice S1x128 ![3, 0] (VA (Proc.devRef .tc main_arg10) : (⟨S4x128, .f32⟩ : BufTy).Contents (Elt F))
          slices_S4x128_S1x128_3_0) shapeCasts_S1x128_S128) shapeCasts_S128_S1x128 := by
  simp only [hostOps1_3]; after_results_simp; rfl

/-- The messages summed into zeros at the column of the target row. -/
theorem scat_v24_of (VA : Valuation τ sig (Elt F)) :
    StableHlo.after (hostOps2 (F := F)) VA (no_index (Proc.devRef .tc main_v24))
      = Host.scatterAdd (F := F) (φ := .f32) scatter_S50000x128_S800000x1_S800000x128_1_0_0_1
          (broadcastInDim S50000x128 ![] bcast_S_S50000x128 (constant (F := F) S_ .f32 0x00000000#32))
          (broadcastInDim S800000x1 ![0] bcast_S800000_S800000x1_0 (VA (Proc.devRef .tc main_v5) : (⟨S800000, .i32⟩ : BufTy).Contents (Elt F)))
          (VA (Proc.devRef .tc main_v21) : (⟨S800000x128, .f32⟩ : BufTy).Contents (Elt F)) := by
  simp only [hostOps2]; after_results_simp

/-- Rows 0 to 127 of layer 3 of the first update weight. -/
theorem cut_v27_of (VA : Valuation τ sig (Elt F)) :
    StableHlo.after (hostOps2 (F := F)) VA (no_index (Proc.devRef .tc main_v27))
      = extractStridedSlice S128x128 ![0, 0] (shapeCast S256x128 (extractStridedSlice S1x256x128 ![3, 0, 0] (VA (Proc.devRef .tc main_arg11) : (⟨S4x256x128, .f32⟩ : BufTy).Contents (Elt F))
          slices_S4x256x128_S1x256x128_3_0_0) shapeCasts_S1x256x128_S256x128) slices_S256x128_S128x128_0_0 := by
  simp only [hostOps2]; after_results_simp; rfl

/-- Rows 128 to 255 of layer 3 of the first update weight. -/
theorem cut_v28_of (VA : Valuation τ sig (Elt F)) :
    StableHlo.after (hostOps2 (F := F)) VA (no_index (Proc.devRef .tc main_v28))
      = extractStridedSlice S128x128 ![128, 0] (shapeCast S256x128 (extractStridedSlice S1x256x128 ![3, 0, 0] (VA (Proc.devRef .tc main_arg11) : (⟨S4x256x128, .f32⟩ : BufTy).Contents (Elt F))
          slices_S4x256x128_S1x256x128_3_0_0) shapeCasts_S1x256x128_S256x128) slices_S256x128_S128x128_128_0 := by
  simp only [hostOps2]; after_results_simp; rfl

/-- Layer 3 of the first update bias, as a row. -/
theorem cut_v35_of (VA : Valuation τ sig (Elt F)) :
    StableHlo.after (hostOps2 (F := F)) VA (no_index (Proc.devRef .tc main_v35))
      = shapeCast S1x128 (shapeCast S128 (extractStridedSlice S1x128 ![3, 0] (VA (Proc.devRef .tc main_arg12) : (⟨S4x128, .f32⟩ : BufTy).Contents (Elt F))
          slices_S4x128_S1x128_3_0) shapeCasts_S1x128_S128) shapeCasts_S128_S1x128 := by
  simp only [hostOps2]; after_results_simp; rfl

/-- Layer 3 of the second update weight. -/
theorem cut_v32_of (VA : Valuation τ sig (Elt F)) :
    StableHlo.after (hostOps2 (F := F)) VA (no_index (Proc.devRef .tc main_v32))
      = shapeCast S128x128 (extractStridedSlice S1x128x128 ![3, 0, 0] (VA (Proc.devRef .tc main_arg13) : (⟨S4x128x128, .f32⟩ : BufTy).Contents (Elt F))
          slices_S4x128x128_S1x128x128_3_0_0) shapeCasts_S1x128x128_S128x128 := by
  simp only [hostOps2]; after_results_simp; rfl

/-- Layer 3 of the second update bias, as a row. -/
theorem cut_v36_of (VA : Valuation τ sig (Elt F)) :
    StableHlo.after (hostOps2 (F := F)) VA (no_index (Proc.devRef .tc main_v36))
      = shapeCast S1x128 (shapeCast S128 (extractStridedSlice S1x128 ![3, 0] (VA (Proc.devRef .tc main_arg14) : (⟨S4x128, .f32⟩ : BufTy).Contents (Elt F))
          slices_S4x128_S1x128_3_0) shapeCasts_S1x128_S128) shapeCasts_S128_S1x128 := by
  simp only [hostOps2]; after_results_simp; rfl

/-- The decoder's bias, as a row. -/
theorem cut_v37_of (VA : Valuation τ sig (Elt F)) :
    StableHlo.after (hostOps2 (F := F)) VA (no_index (Proc.devRef .tc main_v37))
      = shapeCast S1x5 (VA (Proc.devRef .tc main_arg6) : (⟨S5, .f32⟩ : BufTy).Contents (Elt F)) shapeCasts_S5_S1x5 := by
  simp only [hostOps2]; after_results_simp; rfl

end AnyContents

/-! ## Region 1: its entry arrays and its result -/

/-- Region 1's function of entry arrays that hold the specification's operands is the specification's messages. -/
theorem msgG_eq (V : Entry) (c : Dev nD) (xi xj : Cert.Spec.A2 800000 128) (ea : Cert.Spec.A2 800000 3)
    (w1 : Cert.Spec.A3 4 259 128) (b1 : Cert.Spec.A2 4 128) (w2 : Cert.Spec.A3 4 128 128) (b2 : Cert.Spec.A2 4 128)
    (e7 : (V c main_v7 : S800000x128.Idx → EReal) = xi) (e6 : (V c main_v6 : S800000x128.Idx → EReal) = xj)
    (e2 : (V c main_arg2 : S800000x3.Idx → EReal) = ea)
    (e10 : ∀ k q : Fin 128, (V c main_v10 : S128x128.Idx → EReal) (ix2 k q) = w1 (ix3 Cert.Spec.layer (Cert.Spec.lo259 k) q))
    (e11 : ∀ k q : Fin 128, (V c main_v11 : S128x128.Idx → EReal) (ix2 k q) = w1 (ix3 Cert.Spec.layer (Cert.Spec.mid259 k) q))
    (e12 : ∀ (k : Fin 3) (q : Fin 128), (V c main_v12 : S3x128.Idx → EReal) (ix2 k q) = w1 (ix3 Cert.Spec.layer (Cert.Spec.hi259 k) q))
    (e19 : ∀ q : Fin 128, (V c main_v19 : S1x128.Idx → EReal) (ix2 0 q) = b1 (ix2 Cert.Spec.layer q))
    (e16 : ∀ k q : Fin 128, (V c main_v16 : S128x128.Idx → EReal) (ix2 k q) = w2 (ix3 Cert.Spec.layer k q))
    (e20 : ∀ q : Fin 128, (V c main_v20 : S1x128.Idx → EReal) (ix2 0 q) = b2 (ix2 Cert.Spec.layer q)) :
    msgG V c = Cert.Spec.messages xi xj ea w1 b1 w2 b2 := by
  funext j
  unfold msgG Cert.Spec.messages
  simp only [e7, e6, e2, e10, e11, e12, e19, e16, e20]

section Region1
variable (c : Dev nD)

theorem W5_arg7 : (W5 (F := Ideal) m ρ c (Proc.devRef .tc main_arg7) : S4x259x128.Idx → EReal) = (m ((c : Thread nD τ).loc main_arg7)) :=
  W5_launch m ρ c main_arg7 (by decide) (by decide) (by decide) (by decide) (by decide)
theorem W5_arg8 : (W5 (F := Ideal) m ρ c (Proc.devRef .tc main_arg8) : S4x128.Idx → EReal) = (m ((c : Thread nD τ).loc main_arg8)) :=
  W5_launch m ρ c main_arg8 (by decide) (by decide) (by decide) (by decide) (by decide)
theorem W5_arg9 : (W5 (F := Ideal) m ρ c (Proc.devRef .tc main_arg9) : S4x128x128.Idx → EReal) = (m ((c : Thread nD τ).loc main_arg9)) :=
  W5_launch m ρ c main_arg9 (by decide) (by decide) (by decide) (by decide) (by decide)
theorem W5_arg10 : (W5 (F := Ideal) m ρ c (Proc.devRef .tc main_arg10) : S4x128.Idx → EReal) = (m ((c : Thread nD τ).loc main_arg10)) :=
  W5_launch m ρ c main_arg10 (by decide) (by decide) (by decide) (by decide) (by decide)

theorem V6_arg2 : (V6 (F := Ideal) m ρ c main_arg2 : S800000x3.Idx → EReal) = (m ((c : Thread nD τ).loc main_arg2)) :=
  (W6_keep m ρ c main_arg2 (by decide)).trans
    (W5_launch m ρ c main_arg2 (by decide) (by decide) (by decide) (by decide) (by decide))

theorem V6_v10 (k q : Fin 128) : (V6 (F := Ideal) m ρ c main_v10 : S128x128.Idx → EReal) (ix2 k q)
    = ((m ((c : Thread nD τ).loc main_arg7)) : S4x259x128.Idx → EReal) (ix3 Cert.Spec.layer (Cert.Spec.lo259 k) q) := by
  refine (congrFun (cut_v10_of (F := Ideal) (W5 m ρ c)) (ix2 k q)).trans ?_
  rw [W5_arg7]
  exact layer_rows_apply 0 _ _ _ _ k q (Cert.Spec.lo259 k) (Nat.zero_add _).symm
theorem V6_v11 (k q : Fin 128) : (V6 (F := Ideal) m ρ c main_v11 : S128x128.Idx → EReal) (ix2 k q)
    = ((m ((c : Thread nD τ).loc main_arg7)) : S4x259x128.Idx → EReal) (ix3 Cert.Spec.layer (Cert.Spec.mid259 k) q) := by
  refine (congrFun (cut_v11_of (F := Ideal) (W5 m ρ c)) (ix2 k q)).trans ?_
  rw [W5_arg7]
  exact layer_rows_apply 128 _ _ _ _ k q (Cert.Spec.mid259 k) rfl
theorem V6_v12 (k : Fin 3) (q : Fin 128) : (V6 (F := Ideal) m ρ c main_v12 : S3x128.Idx → EReal) (ix2 k q)
    = ((m ((c : Thread nD τ).loc main_arg7)) : S4x259x128.Idx → EReal) (ix3 Cert.Spec.layer (Cert.Spec.hi259 k) q) := by
  refine (congrFun (cut_v12_of (F := Ideal) (W5 m ρ c)) (ix2 k q)).trans ?_
  rw [W5_arg7]
  exact layer_rows_apply 256 _ _ _ _ k q (Cert.Spec.hi259 k) rfl
theorem V6_v19 (q : Fin 128) : (V6 (F := Ideal) m ρ c main_v19 : S1x128.Idx → EReal) (ix2 0 q)
    = ((m ((c : Thread nD τ).loc main_arg8)) : S4x128.Idx → EReal) (ix2 Cert.Spec.layer q) := by
  refine (congrFun (cut_v19_of (F := Ideal) (W5 m ρ c)) (ix2 0 q)).trans ?_
  rw [W5_arg8]
  exact layer_bias_apply _ _ _ _ 0 q
theorem V6_v16 (k q : Fin 128) : (V6 (F := Ideal) m ρ c main_v16 : S128x128.Idx → EReal) (ix2 k q)
    = ((m ((c : Thread nD τ).loc main_arg9)) : S4x128x128.Idx → EReal) (ix3 Cert.Spec.layer k q) := by
  refine (congrFun (cut_v16_of (F := Ideal) (W5 m ρ c)) (ix2 k q)).trans ?_
  rw [W5_arg9]
  exact layer_apply _ _ _ k q
theorem V6_v20 (q : Fin 128) : (V6 (F := Ideal) m ρ c main_v20 : S1x128.Idx → EReal) (ix2 0 q)
    = ((m ((c : Thread nD τ).loc main_arg10)) : S4x128.Idx → EReal) (ix2 Cert.Spec.layer q) := by
  refine (congrFun (cut_v20_of (F := Ideal) (W5 m ρ c)) (ix2 0 q)).trans ?_
  rw [W5_arg10]
  exact layer_bias_apply _ _ _ _ 0 q

/-- The specification's messages of the launch arrays. -/
def msgL : Cert.Spec.A2 800000 128 :=
  Cert.Spec.messages (xiL m c) (xjL m c) (m ((c : Thread nD τ).loc main_arg2)) (m ((c : Thread nD τ).loc main_arg7)) (m ((c : Thread nD τ).loc main_arg8)) (m ((c : Thread nD τ).loc main_arg9)) (m ((c : Thread nD τ).loc main_arg10))

variable (hEnc : ∀ (V : Entry) (c : Dev nD), (dat0 (F := Ideal) V c).arrAt 3 cfg0.N = encG V c)
  (hidx : ∀ i : S2x800000.Idx, (((m ((c : Thread nD τ).loc main_arg1)) : S2x800000.Idx → BitVec 32) i).toNat < 50000)
include hEnc hidx

theorem msgG_V6 : msgG (V6 m ρ) c = msgL m c :=
  msgG_eq (V6 m ρ) c _ _ _ _ _ _ _ (V6_v7 m ρ c hEnc hidx) (V6_v6 m ρ c hEnc hidx) (V6_arg2 m ρ c)
    (V6_v10 m ρ c) (V6_v11 m ρ c) (V6_v12 m ρ c) (V6_v19 m ρ c) (V6_v16 m ρ c) (V6_v20 m ρ c)

/-- After region 1 the messages' array holds the specification's messages. -/
theorem W7_v21 (hMsg : ∀ (V : Entry) (c : Dev nD), (dat1 (F := Ideal) V c).arrAt 9 cfg1.N = msgG V c) :
    (W7 (F := Ideal) m ρ c (Proc.devRef .tc main_v21) : S800000x128.Idx → EReal) = msgL m c :=
  ((W7_arr m ρ c 9).trans (hMsg (V6 m ρ) c)).trans (msgG_V6 m ρ c hEnc hidx)

end Region1

/-! ## Region 2: its entry arrays, and the result -/

/-- Region 2's function of entry arrays that hold the specification's operands is the specification's decoded output. -/
theorem updG_eq (V : Entry) (c : Dev nD) (h aggr : Cert.Spec.A2 50000 128) (u1 : Cert.Spec.A3 4 256 128) (c1 : Cert.Spec.A2 4 128)
    (u2 : Cert.Spec.A3 4 128 128) (c2 : Cert.Spec.A2 4 128) (dw : Cert.Spec.A2 128 5) (db : Cert.Spec.A1 5)
    (e1 : (V c main_v1 : S50000x128.Idx → EReal) = h) (e24 : (V c main_v24 : S50000x128.Idx → EReal) = aggr)
    (e27 : ∀ k q : Fin 128, (V c main_v27 : S128x128.Idx → EReal) (ix2 k q) = u1 (ix3 Cert.Spec.layer (Cert.Spec.lo256 k) q))
    (e28 : ∀ k q : Fin 128, (V c main_v28 : S128x128.Idx → EReal) (ix2 k q) = u1 (ix3 Cert.Spec.layer (Cert.Spec.hi256 k) q))
    (e35 : ∀ q : Fin 128, (V c main_v35 : S1x128.Idx → EReal) (ix2 0 q) = c1 (ix2 Cert.Spec.layer q))
    (e32 : ∀ k q : Fin 128, (V c main_v32 : S128x128.Idx → EReal) (ix2 k q) = u2 (ix3 Cert.Spec.layer k q))
    (e36 : ∀ q : Fin 128, (V c main_v36 : S1x128.Idx → EReal) (ix2 0 q) = c2 (ix2 Cert.Spec.layer q))
    (e5 : (V c main_arg5 : S128x5.Idx → EReal) = dw)
    (e37 : ∀ q : Fin 5, (V c main_v37 : S1x5.Idx → EReal) (ix2 0 q) = db (ix1 q)) :
    updG V c = Cert.Spec.decoded h aggr u1 c1 u2 c2 dw db := by
  funext j
  unfold updG Cert.Spec.decoded
  simp only [e1, e24, e27, e28, e35, e32, e36, e5, e37]

/-- The extended real the all-zero word encodes is zero. -/
theorem ofBits_zero : Ideal.ofBits .f32 0x00000000#32 = 0 := by simp [Ideal.ofBits, Ideal.ieee]

/-- The zero constant spread over the aggregate's shape is the zero array. -/
theorem zeros_eq : broadcastInDim S50000x128 ![] bcast_S_S50000x128 (constant (F := Ideal) S_ .f32 0x00000000#32)
    = (fun _ => 0 : Cert.Spec.A2 50000 128) :=
  funext fun j => (splat_apply _ _ j).trans ((constant_apply _ _).trans ofBits_zero)

section Region2
variable (c : Dev nD)

theorem W7_arg5 : (W7 (F := Ideal) m ρ c (Proc.devRef .tc main_arg5) : S128x5.Idx → EReal) = (m ((c : Thread nD τ).loc main_arg5)) :=
  W7_launch m ρ c main_arg5 (by decide) (by decide) (by decide) (by decide) (by decide) (by decide) (by decide)
theorem W7_arg6 : (W7 (F := Ideal) m ρ c (Proc.devRef .tc main_arg6) : S5.Idx → EReal) = (m ((c : Thread nD τ).loc main_arg6)) :=
  W7_launch m ρ c main_arg6 (by decide) (by decide) (by decide) (by decide) (by decide) (by decide) (by decide)
theorem W7_arg11 : (W7 (F := Ideal) m ρ c (Proc.devRef .tc main_arg11) : S4x256x128.Idx → EReal) = (m ((c : Thread nD τ).loc main_arg11)) :=
  W7_launch m ρ c main_arg11 (by decide) (by decide) (by decide) (by decide) (by decide) (by decide) (by decide)
theorem W7_arg12 : (W7 (F := Ideal) m ρ c (Proc.devRef .tc main_arg12) : S4x128.Idx → EReal) = (m ((c : Thread nD τ).loc main_arg12)) :=
  W7_launch m ρ c main_arg12 (by decide) (by decide) (by decide) (by decide) (by decide) (by decide) (by decide)
theorem W7_arg13 : (W7 (F := Ideal) m ρ c (Proc.devRef .tc main_arg13) : S4x128x128.Idx → EReal) = (m ((c : Thread nD τ).loc main_arg13)) :=
  W7_launch m ρ c main_arg13 (by decide) (by decide) (by decide) (by decide) (by decide) (by decide) (by decide)
theorem W7_arg14 : (W7 (F := Ideal) m ρ c (Proc.devRef .tc main_arg14) : S4x128.Idx → EReal) = (m ((c : Thread nD τ).loc main_arg14)) :=
  W7_launch m ρ c main_arg14 (by decide) (by decide) (by decide) (by decide) (by decide) (by decide) (by decide)

theorem V8_arg5 : (V8 (F := Ideal) m ρ c main_arg5 : S128x5.Idx → EReal) = (m ((c : Thread nD τ).loc main_arg5)) :=
  (W8_keep m ρ c main_arg5 (by decide)).trans (W7_arg5 m ρ c)

theorem V8_v27 (k q : Fin 128) : (V8 (F := Ideal) m ρ c main_v27 : S128x128.Idx → EReal) (ix2 k q)
    = ((m ((c : Thread nD τ).loc main_arg11)) : S4x256x128.Idx → EReal) (ix3 Cert.Spec.layer (Cert.Spec.lo256 k) q) := by
  refine (congrFun (cut_v27_of (F := Ideal) (W7 m ρ c)) (ix2 k q)).trans ?_
  rw [W7_arg11]
  exact layer_rows_apply 0 _ _ _ _ k q (Cert.Spec.lo256 k) (Nat.zero_add _).symm
theorem V8_v28 (k q : Fin 128) : (V8 (F := Ideal) m ρ c main_v28 : S128x128.Idx → EReal) (ix2 k q)
    = ((m ((c : Thread nD τ).loc main_arg11)) : S4x256x128.Idx → EReal) (ix3 Cert.Spec.layer (Cert.Spec.hi256 k) q) := by
  refine (congrFun (cut_v28_of (F := Ideal) (W7 m ρ c)) (ix2 k q)).trans ?_
  rw [W7_arg11]
  exact layer_rows_apply 128 _ _ _ _ k q (Cert.Spec.hi256 k) rfl
theorem V8_v35 (q : Fin 128) : (V8 (F := Ideal) m ρ c main_v35 : S1x128.Idx → EReal) (ix2 0 q)
    = ((m ((c : Thread nD τ).loc main_arg12)) : S4x128.Idx → EReal) (ix2 Cert.Spec.layer q) := by
  refine (congrFun (cut_v35_of (F := Ideal) (W7 m ρ c)) (ix2 0 q)).trans ?_
  rw [W7_arg12]
  exact layer_bias_apply _ _ _ _ 0 q
theorem V8_v32 (k q : Fin 128) : (V8 (F := Ideal) m ρ c main_v32 : S128x128.Idx → EReal) (ix2 k q)
    = ((m ((c : Thread nD τ).loc main_arg13)) : S4x128x128.Idx → EReal) (ix3 Cert.Spec.layer k q) := by
  refine (congrFun (cut_v32_of (F := Ideal) (W7 m ρ c)) (ix2 k q)).trans ?_
  rw [W7_arg13]
  exact layer_apply _ _ _ k q
theorem V8_v36 (q : Fin 128) : (V8 (F := Ideal) m ρ c main_v36 : S1x128.Idx → EReal) (ix2 0 q)
    = ((m ((c : Thread nD τ).loc main_arg14)) : S4x128.Idx → EReal) (ix2 Cert.Spec.layer q) := by
  refine (congrFun (cut_v36_of (F := Ideal) (W7 m ρ c)) (ix2 0 q)).trans ?_
  rw [W7_arg14]
  exact layer_bias_apply _ _ _ _ 0 q
theorem V8_v37 (q : Fin 5) : (V8 (F := Ideal) m ρ c main_v37 : S1x5.Idx → EReal) (ix2 0 q)
    = ((m ((c : Thread nD τ).loc main_arg6)) : S5.Idx → EReal) (ix1 q) := by
  refine (congrFun (cut_v37_of (F := Ideal) (W7 m ρ c)) (ix2 0 q)).trans ?_
  rw [W7_arg6]
  exact shapeCast_a_1a_apply _ _ 0 q

variable (hEnc : ∀ (V : Entry) (c : Dev nD), (dat0 (F := Ideal) V c).arrAt 3 cfg0.N = encG V c)
  (hidx : ∀ i : S2x800000.Idx, (((m ((c : Thread nD τ).loc main_arg1)) : S2x800000.Idx → BitVec 32) i).toNat < 50000)
include hEnc

omit hidx in
theorem V8_v1 : (V8 (F := Ideal) m ρ c main_v1 : S50000x128.Idx → EReal) = encL m c :=
  (W8_keep m ρ c main_v1 (by decide)).trans <| (W7_of_ne m ρ c main_v1 (by decide)).trans <|
    (W6_keep m ρ c main_v1 (by decide)).trans <| (W5_keep m ρ c main_v1 (by decide)).trans (W4_v1 m ρ c hEnc)

omit hEnc hidx in
theorem W7_v5 : (W7 (F := Ideal) m ρ c (Proc.devRef .tc main_v5) : S800000.Idx → BitVec 32) = dstV m c :=
  (W7_of_ne m ρ c main_v5 (by decide)).trans <| (W6_keep m ρ c main_v5 (by decide)).trans <|
    (W5_keep m ρ c main_v5 (by decide)).trans (W4_v5 m ρ c)

/-- The specification's aggregate of the launch arrays: the messages summed per target node into zeros. -/
def aggrL : Cert.Spec.A2 50000 128 :=
  Host.scatterAdd (F := Ideal) (φ := .f32) scatter_S50000x128_S800000x1_S800000x128_1_0_0_1 (fun _ => 0) (Cert.Spec.endpoints (m ((c : Thread nD τ).loc main_arg1)) 1) (msgL m c)

include hidx
theorem V8_v24 (hMsg : ∀ (V : Entry) (c : Dev nD), (dat1 (F := Ideal) V c).arrAt 9 cfg1.N = msgG V c) :
    (V8 (F := Ideal) m ρ c main_v24 : S50000x128.Idx → EReal) = aggrL m c := by
  refine (scat_v24_of (F := Ideal) (W7 m ρ c)).trans ?_
  rw [W7_v5, W7_v21 m ρ c hEnc hidx hMsg, dstV_col, zeros_eq]; rfl

/-- Region 2's function of its entry arrays is the specification's decoded output of the launch arrays. -/
theorem updG_V8 (hMsg : ∀ (V : Entry) (c : Dev nD), (dat1 (F := Ideal) V c).arrAt 9 cfg1.N = msgG V c) :
    updG (V8 m ρ) c = Cert.Spec.decoded (encL m c) (aggrL m c) (m ((c : Thread nD τ).loc main_arg11)) (m ((c : Thread nD τ).loc main_arg12)) (m ((c : Thread nD τ).loc main_arg13))
      (m ((c : Thread nD τ).loc main_arg14)) (m ((c : Thread nD τ).loc main_arg5)) (m ((c : Thread nD τ).loc main_arg6)) :=
  updG_eq (V8 m ρ) c _ _ _ _ _ _ _ _ (V8_v1 m ρ c hEnc) (V8_v24 m ρ c hEnc hidx hMsg) (V8_v27 m ρ c) (V8_v28 m ρ c)
    (V8_v35 m ρ c) (V8_v32 m ρ c) (V8_v36 m ρ c) (V8_arg5 m ρ c) (V8_v37 m ρ c)

end Region2

/-- THE RESULT ARRAY at the last segment boundary is the specification's function of the launch memory's
    argument arrays, where every entry of the edge list is a node index — given that each region leaves its
    output array at its own whole-array function of its entry arrays (`hEnc`, `hMsg`, `hUpd`). -/
theorem result_eq (c : Dev nD)
    (hEnc : ∀ (V : Entry) (c : Dev nD), (dat0 (F := Ideal) V c).arrAt 3 cfg0.N = encG V c)
    (hMsg : ∀ (V : Entry) (c : Dev nD), (dat1 (F := Ideal) V c).arrAt 9 cfg1.N = msgG V c)
    (hUpd : ∀ (V : Entry) (c : Dev nD), (dat2 (F := Ideal) V c).arrAt 9 cfg2.N = updG V c)
    (hidx : ∀ i : S2x800000.Idx, ((m ((c : Thread nD τ).loc main_arg1) : S2x800000.Idx → BitVec 32) i).toNat < 50000) :
    (W9 (F := Ideal) m ρ c (Proc.devRef .tc main_v38) : S50000x5.Idx → EReal)
      = Cert.Spec.total (fun x i => Host.gather gather_S50000x128_S800000x1_S800000x128_1_0_n_n_0_1_1128 x i)
          (fun x i u => Host.scatterAdd (F := Ideal) (φ := .f32) scatter_S50000x128_S800000x1_S800000x128_1_0_0_1 x i u)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  refine ((W9_arr m ρ c 9).trans (hUpd (V8 m ρ) c)).trans ?_
  rw [updG_V8 m ρ c hEnc hidx hMsg]
  rfl

end Cert.KernelIdeal.Fold

end
-- ==== Proof.PreIdx.lean ====
/-
  The added precondition, decoded: where the printed predicate is all ones, every entry of the edge list is
  a node index, below 50000 as an unsigned 32-bit word (so also not negative as a signed one). The predicate
  is a chain of conjunctions whose last conjunct is the and-reduction, over the whole 2 × 800000 edge list, of
  "entry ≥ 0 and entry < 50000" as signed compares.
-/
import proofs.«416000_j42125039239963_1_alg».proof.Pre_finite_inputs
import Idealize.ShloMosaic.Lib.ReduceAll
import Idealize.ShloMosaic.Lib.StableHlo.Predicate
import Idealize.ShloMosaic.Lib.ValueIdx

noncomputable section

namespace Cert.PreIdx

open Idealize.ShloMosaic Cert.Pre_finite_inputs

/-- A 32-bit word that is ≥ 0 and < 50000 as a signed word is below 50000 as an unsigned one: being ≥ 0 signed
    puts it below 2^31, where the signed and unsigned readings agree. -/
theorem toNat_lt_of_signed {x : BitVec 32} (h0 : IntOp.cmpi .sge x 0#32 = 1#1) (h1 : IntOp.cmpi .slt x 50000#32 = 1#1) :
    x.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  rw [BitVec.toInt_eq_toNat_cond] at h0 h1
  have hx := x.isLt
  split at h0 <;> omega

/-- The result of a reduction over all axes has one index. -/
instance : Subsingleton S_.Idx := ⟨fun a b => funext fun d => d.elim0⟩

/-- The last part of the predicate, read back: where it is 1, its last conjunct is, so the and-reduction over the edge
    list is, so the conjunction of the two compares is 1 at every entry. -/
theorem part4_lt [Cert.Pre_finite_inputs.Facts] (a1 : IVec S2x800000 32) (u v : IVec S_ 1) (j : S_.Idx)
    (h : fn_part4 (F := Ideal) a1 u v j = 1#1) : ∀ i : S2x800000.Idx, (a1 i).toNat < 50000 := by
  intro i
  unfold fn_part4 at h
  have hr := (IntOp.andi_eq_one.1 h).2
  have hi := Host.reduce_andi_all _ _ _ _ j hr i
  obtain ⟨h0, h1⟩ := IntOp.andi_eq_one.1 hi
  exact toNat_lt_of_signed h0 h1

/-- Every entry of the edge list is below 50000 wherever the precondition holds. -/
theorem idx_lt [Cert.Pre_finite_inputs.Facts] (a0 : FVec Ideal S50000x5 .f32) (a1 : IVec S2x800000 32) (a2 : FVec Ideal S800000x3 .f32)
    (a3 : FVec Ideal S5x128 .f32) (a4 : FVec Ideal S128 .f32) (a5 : FVec Ideal S128x5 .f32) (a6 : FVec Ideal S5 .f32)
    (a7 : FVec Ideal S4x259x128 .f32) (a8 : FVec Ideal S4x128 .f32) (a9 : FVec Ideal S4x128x128 .f32) (a10 : FVec Ideal S4x128 .f32)
    (a11 : FVec Ideal S4x256x128 .f32) (a12 : FVec Ideal S4x128 .f32) (a13 : FVec Ideal S4x128x128 .f32) (a14 : FVec Ideal S4x128 .f32)
    (h : Cert.Pre_finite_inputs.fn (F := Ideal) a0 a1 a2 a3 a4 a5 a6 a7 a8 a9 a10 a11 a12 a13 a14 = fun _ => 1#1) :
    ∀ i : S2x800000.Idx, (a1 i).toNat < 50000 := by
  obtain ⟨u, v, e⟩ : ∃ u v : IVec S_ 1, Cert.Pre_finite_inputs.fn (F := Ideal) a0 a1 a2 a3 a4 a5 a6 a7 a8 a9 a10 a11 a12 a13 a14
      = fn_part4 (F := Ideal) a1 u v := ⟨_, _, rfl⟩
  rw [e] at h
  exact part4_lt a1 u v ValueIdx.ix0 (congrFun h ValueIdx.ix0)

end Cert.PreIdx

end
-- ==== Proof.RefStages.lean ====
/-
  The reference's live path as ONE composition of the library's whole-array operations, in the records and
  argument orders its printed program applies them: the encoder; the two rows of the edge list, each wrapped
  (entry + 50000 where negative) and laid as a column for the row gather; layer 3 of each stacked weight cut
  out and reshaped; the message network on the gathered rows laid side by side with the edge features; the
  segment sum into zeros at the raw target column; the update network on the encoded rows laid side by side
  with the aggregated ones, the residual sum and the decoder. The other three layers' operations run too, but
  nothing here reads them.
-/
import proofs.«416000_j42125039239963_1_alg».proof.ReferenceIdeal

noncomputable section

namespace Cert.ReferenceIdeal.RefStages

open Cert.ReferenceIdeal Idealize.ShloMosaic

variable [Cert.ReferenceIdeal.Facts] {F : FTy → Type} [FloatOps F]
open Cert.ReferenceIdeal.Facts₀ Cert.ReferenceIdeal.Facts

/-- The encoded node features. -/
def encStage (x : FVec F S50000x5 .f32) (w : FVec F S5x128 .f32) (b : FVec F S128 .f32) : FVec F S50000x128 .f32 :=
  addf (Host.dotGeneral dot_S50000x5_S5x128_S50000x128_1_0_0_1_n_n none x w)
    (broadcastInDim S50000x128 ![0, 1] bcast_S1x128_S50000x128_0_1 (broadcastInDim S1x128 ![1] bcast_S128_S1x128_1 b))

/-- Layer 3 of the stacked 259 × 128 weights. -/
def w1L (a : FVec F S4x259x128 .f32) : FVec F S259x128 .f32 :=
  shapeCast S259x128 (extractStridedSlice S1x259x128 ![3, 0, 0] a slices_S4x259x128_S1x259x128_3_0_0) shapeCasts_S1x259x128_S259x128
/-- Layer 3 of the stacked 256 × 128 weights. -/
def u1L (a : FVec F S4x256x128 .f32) : FVec F S256x128 .f32 :=
  shapeCast S256x128 (extractStridedSlice S1x256x128 ![3, 0, 0] a slices_S4x256x128_S1x256x128_3_0_0) shapeCasts_S1x256x128_S256x128
/-- Layer 3 of the stacked 128 × 128 weights. -/
def sqL (a : FVec F S4x128x128 .f32) : FVec F S128x128 .f32 :=
  shapeCast S128x128 (extractStridedSlice S1x128x128 ![3, 0, 0] a slices_S4x128x128_S1x128x128_3_0_0) shapeCasts_S1x128x128_S128x128
/-- Layer 3 of the stacked biases. -/
def biasL (a : FVec F S4x128 .f32) : FVec F S128 .f32 :=
  shapeCast S128 (extractStridedSlice S1x128 ![3, 0] a slices_S4x128_S1x128_3_0) shapeCasts_S1x128_S128

/-- Row 0 of the edge list (the source nodes) as a vector. -/
def srcRow (e : IVec S2x800000 32) : IVec S800000 32 :=
  shapeCast S800000 (extractStridedSlice S1x800000 ![0, 0] e slices_S2x800000_S1x800000_0_0) shapeCasts_S1x800000_S800000
/-- Row 1 of the edge list (the target nodes) as a vector. -/
def dstRow (e : IVec S2x800000 32) : IVec S800000 32 :=
  shapeCast S800000 (extractStridedSlice S1x800000 ![1, 0] e slices_S2x800000_S1x800000_1_0) shapeCasts_S1x800000_S800000
/-- A vector of end points, negative entries wrapped, as the column of start indices a row gather takes. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A vector of end points, as they are, as the column of start indices the row scatter takes. -/
def rawCol (v : IVec S800000 32) : IVec S800000x1 32 :=
  broadcastInDim S800000x1 ![0] bcast_S800000_S800000x1_0 v

/-- A bias of 128 as the rows of an 800000 × 128 array. -/
def bias800 (b : FVec F S128 .f32) : FVec F S800000x128 .f32 :=
  broadcastInDim S800000x128 ![0, 1] bcast_S1x128_S800000x128_0_1 (broadcastInDim S1x128 ![1] bcast_S128_S1x128_1 b)
/-- A bias of 128 as the rows of a 50000 × 128 array. -/
def bias50 (b : FVec F S128 .f32) : FVec F S50000x128 .f32 :=
  broadcastInDim S50000x128 ![0, 1] bcast_S1x128_S50000x128_0_1 (broadcastInDim S1x128 ![1] bcast_S128_S1x128_1 b)
/-- The positive part, on 800000 × 128. -/
def relu800 (x : FVec F S800000x128 .f32) : FVec F S800000x128 .f32 :=
  maximumf x (broadcastInDim S800000x128 ![] bcast_S_S800000x128 (constant S_ .f32 0x00000000#32))
/-- The positive part, on 50000 × 128. -/
def relu50 (x : FVec F S50000x128 .f32) : FVec F S50000x128 .f32 :=
  maximumf x (broadcastInDim S50000x128 ![] bcast_S_S50000x128 (constant S_ .f32 0x00000000#32))
/-- The 50000 × 128 array of zeros the segment sum starts from. -/
def zeros50 : FVec F S50000x128 .f32 :=
  broadcastInDim S50000x128 ![] bcast_S_S50000x128 (constant S_ .f32 0x00000000#32)

/-- The message network on the target rows `xi`, the source rows `xj` and the edge features `ea`. -/
def msgStage (xi xj : FVec F S800000x128 .f32) (ea : FVec F S800000x3 .f32) (a7 : FVec F S4x259x128 .f32)
    (a8 : FVec F S4x128 .f32) (a9 : FVec F S4x128x128 .f32) (a10 : FVec F S4x128 .f32) : FVec F S800000x128 .f32 :=
  addf (Host.dotGeneral dot_S800000x128_S128x128_S800000x128_1_0_0_1_n_n none
      (relu800 (addf (Host.dotGeneral dot_S800000x259_S259x128_S800000x128_1_0_0_1_n_n none
          (concatenate S800000x259 1 [⟨S800000x128, xi⟩, ⟨S800000x128, xj⟩, ⟨S800000x3, ea⟩] concatenates_S800000x128_S800000x128_S800000x3_S800000x259_d1)
          (w1L a7)) (bias800 (biasL a8))))
      (sqL a9)) (bias800 (biasL a10))

/-- The update network, the residual sum and the decoder on the encoded rows `h` and the aggregated rows `aggr`. -/
def decStage (h aggr : FVec F S50000x128 .f32) (a11 : FVec F S4x256x128 .f32) (a12 : FVec F S4x128 .f32)
    (a13 : FVec F S4x128x128 .f32) (a14 : FVec F S4x128 .f32) (a5 : FVec F S128x5 .f32) (a6 : FVec F S5 .f32) : FVec F S50000x5 .f32 :=
  addf (Host.dotGeneral dot_S50000x128_S128x5_S50000x5_1_0_0_1_n_n none
      (addf h (addf (Host.dotGeneral dot_S50000x128_S128x128_S50000x128_1_0_0_1_n_n none
          (relu50 (addf (Host.dotGeneral dot_S50000x256_S256x128_S50000x128_1_0_0_1_n_n none
              (concatenate S50000x256 1 [⟨S50000x128, h⟩, ⟨S50000x128, aggr⟩] concatenates_S50000x128_S50000x128_S50000x256_d1)
              (u1L a11)) (bias50 (biasL a12))))
          (sqL a13)) (bias50 (biasL a14))))
      a5)
    (broadcastInDim S50000x5 ![0, 1] bcast_S1x5_S50000x5_0_1 (broadcastInDim S1x5 ![1] bcast_S5_S1x5_1 a6))

/-- THE REFERENCE'S RESULT as one function of its fifteen arguments. -/
def refTotal (a0 : FVec F S50000x5 .f32) (a1 : IVec S2x800000 32) (a2 : FVec F S800000x3 .f32) (a3 : FVec F S5x128 .f32)
    (a4 : FVec F S128 .f32) (a5 : FVec F S128x5 .f32) (a6 : FVec F S5 .f32) (a7 : FVec F S4x259x128 .f32)
    (a8 : FVec F S4x128 .f32) (a9 : FVec F S4x128x128 .f32) (a10 : FVec F S4x128 .f32) (a11 : FVec F S4x256x128 .f32)
    (a12 : FVec F S4x128 .f32) (a13 : FVec F S4x128x128 .f32) (a14 : FVec F S4x128 .f32) : FVec F S50000x5 .f32 :=
  let h := encStage a0 a3 a4
  let xj := Host.gather gather_S50000x128_S800000x1_S800000x128_1_0_n_n_0_1_1128 h (wrapCol (srcRow a1))
  let xi := Host.gather gather_S50000x128_S800000x1_S800000x128_1_0_n_n_0_1_1128 h (wrapCol (dstRow a1))
  let msg := msgStage xi xj a2 a7 a8 a9 a10
  let aggr := Host.scatterAdd scatter_S50000x128_S800000x1_S800000x128_1_0_0_1 (zeros50 (F := F)) (rawCol (dstRow a1)) msg
  decStage h aggr a11 a12 a13 a14 a5 a6

end Cert.ReferenceIdeal.RefStages

end
-- ==== Proof.RefWrites.lean ====
import proofs.«416000_j42125039239963_1_alg».proof.ReferenceIdeal

namespace Cert.ReferenceIdeal.RefRun

open Cert.ReferenceIdeal Idealize.ShloMosaic

/-- The 62 buffers that window `main_part0`'s operations write. -/
abbrev ops_part0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_c, main_v24, main_v25, main_c_0, main_v26, main_v27, main_v28, main_v29, main_v30, main_c_1, main_v31, main_v32, main_c_2, main_v33, main_v34, main_v35, main_v36, main_v37, main_v38, main_v39, main_v40, main_v41, main_v42, main_call0_cst, main_call0_v0, main_v43, main_v44, main_v45, main_v46, main_v47, main_cst, main_v48, main_v49, main_v50, main_v51, main_v52, main_v53, main_v54]
/-- The 64 buffers that window `main_part1`'s operations write. -/
abbrev ops_part1_W : List (Ref sig .tc) := [main_v55, main_call1_cst, main_call1_v0, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_c_3, main_v81, main_v82, main_c_4, main_v83, main_v84, main_v85, main_v86, main_v87, main_c_5, main_v88, main_v89, main_c_6, main_v90, main_v91, main_v92, main_v93, main_v94, main_v95, main_v96, main_v97, main_v98, main_v99, main_call2_cst, main_call2_v0, main_v100, main_v101, main_v102, main_v103, main_v104, main_cst_7, main_v105, main_v106, main_v107, main_v108, main_v109]
/-- The 64 buffers that window `main_part2`'s operations write. -/
abbrev ops_part2_W : List (Ref sig .tc) := [main_v110, main_v111, main_v112, main_call3_cst, main_call3_v0, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_c_8, main_v138, main_v139, main_c_9, main_v140, main_v141, main_v142, main_v143, main_v144, main_c_10, main_v145, main_v146, main_c_11, main_v147, main_v148, main_v149, main_v150, main_v151, main_v152, main_v153, main_v154, main_v155, main_v156, main_call4_cst, main_call4_v0, main_v157, main_v158, main_v159, main_v160, main_v161, main_cst_12, main_v162, main_v163, main_v164]
/-- The 64 buffers that window `main_part3`'s operations write. -/
abbrev ops_part3_W : List (Ref sig .tc) := [main_v165, main_v166, main_v167, main_v168, main_v169, main_call5_cst, main_call5_v0, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_c_13, main_v195, main_v196, main_c_14, main_v197, main_v198, main_v199, main_v200, main_v201, main_c_15, main_v202, main_v203, main_c_16, main_v204, main_v205, main_v206, main_v207, main_v208, main_v209, main_v210, main_v211, main_v212, main_v213, main_call6_cst, main_call6_v0, main_v214, main_v215, main_v216, main_v217, main_v218, main_cst_17, main_v219]
/-- The 19 buffers that window `main_part4`'s operations write. -/
abbrev ops_part4_W : List (Ref sig .tc) := [main_v220, main_v221, main_v222, main_v223, main_v224, main_v225, main_v226, main_call7_cst, main_call7_v0, main_v227, main_v228, main_v229, main_v230, main_v231, main_v232, main_v233, main_v234, main_v235, main_v236]

end Cert.ReferenceIdeal.RefRun
-- ==== Proof.RefRun.lean ====
/-
  The reference program's run, read window by window. @main is five lists of host operations run one after the other
  (RefOps.lean). The encoder's result (window 0) is the only buffer of the first three windows that the program's result
  reads; windows 1 and 2 compute layers whose results nothing reads, and only have to leave that buffer and the fifteen
  arguments as they were: a buffer a window does not write keeps its contents through it. Window 3 cuts layer 3 out of the
  stacked weights, gathers the encoded rows at the edges' two end points and runs the message network on them; window 4
  sums the messages into the target nodes, runs the update network and the decoder. Each window's live results are stated
  as the stage functions of RefStages.lean, so the last buffer holds the reference's total function of the arguments.
  A window is cut before a concatenate, and what follows the cut is read from ANY contents of the buffers, so that the
  concatenate's operands are plain values there.
-/
import proofs.«416000_j42125039239963_1_alg».proof.Proof.RefOps
import proofs.«416000_j42125039239963_1_alg».proof.Proof.RefStages
import proofs.«416000_j42125039239963_1_alg».proof.Proof.RefWrites
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefStages

variable {F : FTy → Type} [FloatOps F]

/-! ## Window 0: the encoder -/

/-- The buffers' contents after the first window. -/
def afterW0 (V0 : Valuation τ sig (Elt F)) : Valuation τ sig (Elt F) := after ops_part0 V0

set_option maxRecDepth 8192 in
/-- Each operation of window 0 writes one of the listed buffers. -/
theorem ops_part0_writes : (ops_part0 : List (HloOp τ sig (Elt F))).Forall fun op => op.writes ⊆ (ops_part0_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer window 0 does not write keeps its contents through it. -/
theorem afterW0_keep (V0 : Valuation τ sig (Elt F)) (r : Ref sig .tc) (h : r ∉ ops_part0_W) :
    afterW0 V0 (Proc.devRef .tc r) = V0 (Proc.devRef .tc r) :=
  after_of_writes_sub ops_part0 _ ops_part0_writes h

set_option maxRecDepth 8192 in
set_option maxHeartbeats 2000000 in
/-- Window 0 leaves the encoded node features in `main_v3`. -/
theorem afterW0_enc (V0 : Valuation τ sig (Elt F)) :
    afterW0 V0 (no_index (Proc.devRef .tc main_v3))
      = encStage (V0 (Proc.devRef .tc main_arg0)) (V0 (Proc.devRef .tc main_arg3)) (V0 (Proc.devRef .tc main_arg4)) := by
  unfold afterW0
  simp only [ops_part0]
  after_results_simp
  rfl

/-! ## Windows 1 and 2: layers whose results nothing reads -/

/-- The buffers' contents after the second window. -/
def afterW1 (V0 : Valuation τ sig (Elt F)) : Valuation τ sig (Elt F) := after ops_part1 (afterW0 V0)

set_option maxRecDepth 8192 in
/-- Each operation of window 1 writes one of the listed buffers. -/
theorem ops_part1_writes : (ops_part1 : List (HloOp τ sig (Elt F))).Forall fun op => op.writes ⊆ (ops_part1_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer window 1 does not write keeps its contents through it. -/
theorem afterW1_keep (V0 : Valuation τ sig (Elt F)) (r : Ref sig .tc) (h : r ∉ ops_part1_W) :
    afterW1 V0 (Proc.devRef .tc r) = afterW0 V0 (Proc.devRef .tc r) :=
  after_of_writes_sub ops_part1 _ ops_part1_writes h

/-- The buffers' contents after the third window. -/
def afterW2 (V0 : Valuation τ sig (Elt F)) : Valuation τ sig (Elt F) := after ops_part2 (afterW1 V0)

set_option maxRecDepth 8192 in
/-- Each operation of window 2 writes one of the listed buffers. -/
theorem ops_part2_writes : (ops_part2 : List (HloOp τ sig (Elt F))).Forall fun op => op.writes ⊆ (ops_part2_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer window 2 does not write keeps its contents through it. -/
theorem afterW2_keep (V0 : Valuation τ sig (Elt F)) (r : Ref sig .tc) (h : r ∉ ops_part2_W) :
    afterW2 V0 (Proc.devRef .tc r) = afterW1 V0 (Proc.devRef .tc r) :=
  after_of_writes_sub ops_part2 _ ops_part2_writes h

/-- A buffer none of the first three windows writes still holds its launch contents after them. -/
theorem afterW2_launch (V0 : Valuation τ sig (Elt F)) (r : Ref sig .tc) (h0 : r ∉ ops_part0_W) (h1 : r ∉ ops_part1_W)
    (h2 : r ∉ ops_part2_W) : afterW2 V0 (Proc.devRef .tc r) = V0 (Proc.devRef .tc r) :=
  (afterW2_keep V0 r h2).trans ((afterW1_keep V0 r h1).trans (afterW0_keep V0 r h0))

/-- The encoded node features are still in `main_v3` after the third window. -/
theorem afterW2_enc (V0 : Valuation τ sig (Elt F)) :
    afterW2 V0 (no_index (Proc.devRef .tc main_v3))
      = encStage (V0 (Proc.devRef .tc main_arg0)) (V0 (Proc.devRef .tc main_arg3)) (V0 (Proc.devRef .tc main_arg4)) :=
  (afterW2_keep V0 main_v3 (by decide)).trans ((afterW1_keep V0 main_v3 (by decide)).trans (afterW0_enc V0))

/-! ## Window 3: layer 3's weights, the gathered rows and the messages -/

/-- The buffers' contents after the fourth window. -/
def afterW3 (V0 : Valuation τ sig (Elt F)) : Valuation τ sig (Elt F) := after ops_part3 (afterW2 V0)

set_option maxRecDepth 8192 in
/-- Each operation of window 3 writes one of the listed buffers. -/
theorem ops_part3_writes : (ops_part3 : List (HloOp τ sig (Elt F))).Forall fun op => op.writes ⊆ (ops_part3_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer window 3 does not write keeps its contents through it. -/
theorem afterW3_keep (V0 : Valuation τ sig (Elt F)) (r : Ref sig .tc) (h : r ∉ ops_part3_W) :
    afterW3 V0 (Proc.devRef .tc r) = afterW2 V0 (Proc.devRef .tc r) :=
  after_of_writes_sub ops_part3 _ ops_part3_writes h

set_option maxRecDepth 8192 in
set_option maxHeartbeats 2000000 in
/-- Layer 3 of the update's first weight. -/
theorem afterW3_u1 (V0 : Valuation τ sig (Elt F)) :
    afterW3 V0 (no_index (Proc.devRef .tc main_v184)) = u1L (V0 (Proc.devRef .tc main_arg11)) := by
  unfold afterW3
  simp only [ops_part3]
  after_results_simp
  simp only [afterW2_launch V0 main_arg11 (by decide) (by decide) (by decide)]
  rfl

set_option maxRecDepth 8192 in
set_option maxHeartbeats 2000000 in
/-- Layer 3 of the update's first bias. -/
theorem afterW3_c1 (V0 : Valuation τ sig (Elt F)) :
    afterW3 V0 (no_index (Proc.devRef .tc main_v186)) = biasL (V0 (Proc.devRef .tc main_arg12)) := by
  unfold afterW3
  simp only [ops_part3]
  after_results_simp
  simp only [afterW2_launch V0 main_arg12 (by decide) (by decide) (by decide)]
  rfl

set_option maxRecDepth 8192 in
set_option maxHeartbeats 2000000 in
/-- Layer 3 of the update's second weight. -/
theorem afterW3_u2 (V0 : Valuation τ sig (Elt F)) :
    afterW3 V0 (no_index (Proc.devRef .tc main_v188)) = sqL (V0 (Proc.devRef .tc main_arg13)) := by
  unfold afterW3
  simp only [ops_part3]
  after_results_simp
  simp only [afterW2_launch V0 main_arg13 (by decide) (by decide) (by decide)]
  rfl

set_option maxRecDepth 8192 in
set_option maxHeartbeats 2000000 in
/-- Layer 3 of the update's second bias. -/
theorem afterW3_c2 (V0 : Valuation τ sig (Elt F)) :
    afterW3 V0 (no_index (Proc.devRef .tc main_v190)) = biasL (V0 (Proc.devRef .tc main_arg14)) := by
  unfold afterW3
  simp only [ops_part3]
  after_results_simp
  simp only [afterW2_launch V0 main_arg14 (by decide) (by decide) (by decide)]
  rfl

set_option maxRecDepth 8192 in
set_option maxHeartbeats 2000000 in
/-- The target nodes of the edges, as a vector. -/
theorem afterW3_dst (V0 : Valuation τ sig (Elt F)) :
    afterW3 V0 (no_index (Proc.devRef .tc main_v194)) = dstRow (V0 (Proc.devRef .tc main_arg1)) := by
  unfold afterW3
  simp only [ops_part3]
  after_results_simp
  simp only [afterW2_launch V0 main_arg1 (by decide) (by decide) (by decide)]
  rfl

set_option maxRecDepth 8192 in
set_option maxHeartbeats 2000000 in
/-- The zeros the segment sum starts from. -/
theorem afterW3_zeros (V0 : Valuation τ sig (Elt F)) :
    afterW3 V0 (no_index (Proc.devRef .tc main_v219)) = (zeros50 : FVec F S50000x128 .f32) := by
  unfold afterW3
  simp only [ops_part3]
  after_results_simp
  rfl

/-- The encoded node features are still in `main_v3` after the fourth window. -/
theorem afterW3_enc (V0 : Valuation τ sig (Elt F)) :
    afterW3 V0 (no_index (Proc.devRef .tc main_v3))
      = encStage (V0 (Proc.devRef .tc main_arg0)) (V0 (Proc.devRef .tc main_arg3)) (V0 (Proc.devRef .tc main_arg4)) :=
  (afterW3_keep V0 main_v3 (by decide)).trans (afterW2_enc V0)

/-- The message network on layer-3 weights already cut out: `msgStage` with its four slabs as arguments. -/
def msgOn (xi xj : FVec F S800000x128 .f32) (ea : FVec F S800000x3 .f32) (w1 : FVec F S259x128 .f32)
    (b1 : FVec F S128 .f32) (w2 : FVec F S128x128 .f32) (b2 : FVec F S128 .f32) : FVec F S800000x128 .f32 :=
  addf (Host.dotGeneral dot_S800000x128_S128x128_S800000x128_1_0_0_1_n_n none
      (relu800 (addf (Host.dotGeneral dot_S800000x259_S259x128_S800000x128_1_0_0_1_n_n none
          (concatenate S800000x259 1 [⟨S800000x128, xi⟩, ⟨S800000x128, xj⟩, ⟨S800000x3, ea⟩] concatenates_S800000x128_S800000x128_S800000x3_S800000x259_d1)
          w1) (bias800 b1)))
      w2) (bias800 b2)

theorem msgStage_eq (xi xj : FVec F S800000x128 .f32) (ea : FVec F S800000x3 .f32) (a7 : FVec F S4x259x128 .f32)
    (a8 : FVec F S4x128 .f32) (a9 : FVec F S4x128x128 .f32) (a10 : FVec F S4x128 .f32) :
    msgStage xi xj ea a7 a8 a9 a10 = msgOn xi xj ea (w1L a7) (biasL a8) (sqL a9) (biasL a10) := rfl

/-- The buffers' contents after window 3's first 50 operations: up to the two gathers. -/
def afterW3a (V0 : Valuation τ sig (Elt F)) : Valuation τ sig (Elt F) := after (ops_part3.take 50) (afterW2 V0)

/-- Window 3 is its first 50 operations, then the rest. -/
theorem afterW3_split (V0 : Valuation τ sig (Elt F)) : afterW3 V0 = after (ops_part3.drop 50) (afterW3a V0) := by
  unfold afterW3 afterW3a
  rw [← StableHlo.after_append, List.take_append_drop]

set_option maxRecDepth 8192 in
set_option maxHeartbeats 2000000 in
/-- The rest of window 3, from any contents: the message network on what the buffers hold. -/
theorem msg_of (VA : Valuation τ sig (Elt F)) :
    after (ops_part3.drop 50) VA (no_index (Proc.devRef .tc main_v218))
      = msgOn (VA (Proc.devRef .tc main_v208)) (VA (Proc.devRef .tc main_v201)) (VA (Proc.devRef .tc main_arg2))
          (VA (Proc.devRef .tc main_v176)) (VA (Proc.devRef .tc main_v178)) (VA (Proc.devRef .tc main_v180))
          (VA (Proc.devRef .tc main_v182)) := by
  simp only [ops_part3, List.drop_succ_cons, List.drop_zero]
  after_results_simp
  try dsimp only [Matrix.cons_val]
  rfl

/-! Window 3's first 50 operations, from any contents. -/

set_option maxRecDepth 8192 in
set_option maxHeartbeats 2000000 in
/-- Layer 3 of the message network's first weight. -/
theorem first50_w1 (VA : Valuation τ sig (Elt F)) :
    after (ops_part3.take 50) VA (no_index (Proc.devRef .tc main_v176)) = w1L (VA (Proc.devRef .tc main_arg7)) := by
  simp only [ops_part3, List.take_succ_cons, List.take_zero]
  after_results_simp
  rfl

set_option maxRecDepth 8192 in
set_option maxHeartbeats 2000000 in
/-- Layer 3 of the message network's first bias. -/
theorem first50_b1 (VA : Valuation τ sig (Elt F)) :
    after (ops_part3.take 50) VA (no_index (Proc.devRef .tc main_v178)) = biasL (VA (Proc.devRef .tc main_arg8)) := by
  simp only [ops_part3, List.take_succ_cons, List.take_zero]
  after_results_simp
  rfl

set_option maxRecDepth 8192 in
set_option maxHeartbeats 2000000 in
/-- Layer 3 of the message network's second weight. -/
theorem first50_w2 (VA : Valuation τ sig (Elt F)) :
    after (ops_part3.take 50) VA (no_index (Proc.devRef .tc main_v180)) = sqL (VA (Proc.devRef .tc main_arg9)) := by
  simp only [ops_part3, List.take_succ_cons, List.take_zero]
  after_results_simp
  rfl

set_option maxRecDepth 8192 in
set_option maxHeartbeats 2000000 in
/-- Layer 3 of the message network's second bias. -/
theorem first50_b2 (VA : Valuation τ sig (Elt F)) :
    after (ops_part3.take 50) VA (no_index (Proc.devRef .tc main_v182)) = biasL (VA (Proc.devRef .tc main_arg10)) := by
  simp only [ops_part3, List.take_succ_cons, List.take_zero]
  after_results_simp
  rfl

set_option maxRecDepth 8192 in
set_option maxHeartbeats 2000000 in
/-- The rows of `main_v3` at the edges' source nodes. -/
theorem first50_xj (VA : Valuation τ sig (Elt F)) :
    after (ops_part3.take 50) VA (no_index (Proc.devRef .tc main_v201)) = Host.gather gather_S50000x128_S800000x1_S800000x128_1_0_n_n_0_1_1128 (VA (Proc.devRef .tc main_v3)) (wrapCol (srcRow (VA (Proc.devRef .tc main_arg1)))) := by
  simp only [ops_part3, List.take_succ_cons, List.take_zero]
  after_results_simp
  rfl

set_option maxRecDepth 8192 in
set_option maxHeartbeats 2000000 in
/-- The rows of `main_v3` at the edges' target nodes. -/
theorem first50_xi (VA : Valuation τ sig (Elt F)) :
    after (ops_part3.take 50) VA (no_index (Proc.devRef .tc main_v208)) = Host.gather gather_S50000x128_S800000x1_S800000x128_1_0_n_n_0_1_1128 (VA (Proc.devRef .tc main_v3)) (wrapCol (dstRow (VA (Proc.devRef .tc main_arg1)))) := by
  simp only [ops_part3, List.take_succ_cons, List.take_zero]
  after_results_simp
  rfl

set_option maxRecDepth 8192 in
set_option maxHeartbeats 2000000 in
/-- The edge features, untouched. -/
theorem first50_ea (VA : Valuation τ sig (Elt F)) :
    after (ops_part3.take 50) VA (no_index (Proc.devRef .tc main_arg2)) = VA (Proc.devRef .tc main_arg2) := by
  simp only [ops_part3, List.take_succ_cons, List.take_zero]
  after_results_simp

/-- The messages of layer 3: the message network on the encoded rows gathered at the edges' target and source nodes. -/
theorem afterW3_msg (V0 : Valuation τ sig (Elt F)) :
    afterW3 V0 (no_index (Proc.devRef .tc main_v218))
      = msgStage
          (Host.gather gather_S50000x128_S800000x1_S800000x128_1_0_n_n_0_1_1128
            (encStage (V0 (Proc.devRef .tc main_arg0)) (V0 (Proc.devRef .tc main_arg3)) (V0 (Proc.devRef .tc main_arg4)))
            (wrapCol (dstRow (V0 (Proc.devRef .tc main_arg1)))))
          (Host.gather gather_S50000x128_S800000x1_S800000x128_1_0_n_n_0_1_1128
            (encStage (V0 (Proc.devRef .tc main_arg0)) (V0 (Proc.devRef .tc main_arg3)) (V0 (Proc.devRef .tc main_arg4)))
            (wrapCol (srcRow (V0 (Proc.devRef .tc main_arg1)))))
          (V0 (Proc.devRef .tc main_arg2)) (V0 (Proc.devRef .tc main_arg7)) (V0 (Proc.devRef .tc main_arg8))
          (V0 (Proc.devRef .tc main_arg9)) (V0 (Proc.devRef .tc main_arg10)) := by
  rw [afterW3_split, msg_of, msgStage_eq]
  unfold afterW3a
  rw [first50_xi, first50_xj, first50_ea, first50_w1, first50_b1, first50_w2, first50_b2, afterW2_enc,
    afterW2_launch V0 main_arg1 (by decide) (by decide) (by decide),
    afterW2_launch V0 main_arg2 (by decide) (by decide) (by decide),
    afterW2_launch V0 main_arg7 (by decide) (by decide) (by decide),
    afterW2_launch V0 main_arg8 (by decide) (by decide) (by decide),
    afterW2_launch V0 main_arg9 (by decide) (by decide) (by decide),
    afterW2_launch V0 main_arg10 (by decide) (by decide) (by decide)]

/-- A buffer none of the first four windows writes still holds its launch contents after them. -/
theorem afterW3_launch (V0 : Valuation τ sig (Elt F)) (r : Ref sig .tc) (h0 : r ∉ ops_part0_W) (h1 : r ∉ ops_part1_W)
    (h2 : r ∉ ops_part2_W) (h3 : r ∉ ops_part3_W) : afterW3 V0 (Proc.devRef .tc r) = V0 (Proc.devRef .tc r) :=
  (afterW3_keep V0 r h3).trans (afterW2_launch V0 r h0 h1 h2)

/-! ## Window 4: the segment sum, the update network, the residual sum and the decoder -/

/-- The buffers' contents after the last window. -/
def afterW4 (V0 : Valuation τ sig (Elt F)) : Valuation τ sig (Elt F) := after ops_part4 (afterW3 V0)

set_option maxRecDepth 8192 in
/-- Each operation of window 4 writes one of the listed buffers. -/
theorem ops_part4_writes : (ops_part4 : List (HloOp τ sig (Elt F))).Forall fun op => op.writes ⊆ (ops_part4_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer window 4 does not write keeps its contents through it. -/
theorem afterW4_keep (V0 : Valuation τ sig (Elt F)) (r : Ref sig .tc) (h : r ∉ ops_part4_W) :
    afterW4 V0 (Proc.devRef .tc r) = afterW3 V0 (Proc.devRef .tc r) :=
  after_of_writes_sub ops_part4 _ ops_part4_writes h

/-- A buffer no window writes holds its launch contents at the end. -/
theorem afterW4_launch (V0 : Valuation τ sig (Elt F)) (r : Ref sig .tc) (h0 : r ∉ ops_part0_W) (h1 : r ∉ ops_part1_W)
    (h2 : r ∉ ops_part2_W) (h3 : r ∉ ops_part3_W) (h4 : r ∉ ops_part4_W) :
    afterW4 V0 (Proc.devRef .tc r) = V0 (Proc.devRef .tc r) :=
  (afterW4_keep V0 r h4).trans (afterW3_launch V0 r h0 h1 h2 h3)

/-- The update network, the residual sum and the decoder on layer-3 weights already cut out: `decStage` with its
    four slabs as arguments. -/
def decOn (h aggr : FVec F S50000x128 .f32) (u1 : FVec F S256x128 .f32) (c1 : FVec F S128 .f32)
    (u2 : FVec F S128x128 .f32) (c2 : FVec F S128 .f32) (a5 : FVec F S128x5 .f32) (a6 : FVec F S5 .f32) : FVec F S50000x5 .f32 :=
  addf (Host.dotGeneral dot_S50000x128_S128x5_S50000x5_1_0_0_1_n_n none
      (addf h (addf (Host.dotGeneral dot_S50000x128_S128x128_S50000x128_1_0_0_1_n_n none
          (relu50 (addf (Host.dotGeneral dot_S50000x256_S256x128_S50000x128_1_0_0_1_n_n none
              (concatenate S50000x256 1 [⟨S50000x128, h⟩, ⟨S50000x128, aggr⟩] concatenates_S50000x128_S50000x128_S50000x256_d1)
              u1) (bias50 c1)))
          u2) (bias50 c2)))
      a5)
    (broadcastInDim S50000x5 ![0, 1] bcast_S1x5_S50000x5_0_1 (broadcastInDim S1x5 ![1] bcast_S5_S1x5_1 a6))

theorem decStage_eq (h aggr : FVec F S50000x128 .f32) (a11 : FVec F S4x256x128 .f32) (a12 : FVec F S4x128 .f32)
    (a13 : FVec F S4x128x128 .f32) (a14 : FVec F S4x128 .f32) (a5 : FVec F S128x5 .f32) (a6 : FVec F S5 .f32) :
    decStage h aggr a11 a12 a13 a14 a5 a6 = decOn h aggr (u1L a11) (biasL a12) (sqL a13) (biasL a14) a5 a6 := rfl

/-- The buffers' contents after window 4's first two operations: the raw target column and the segment sum. -/
def afterW4a (VA : Valuation τ sig (Elt F)) : Valuation τ sig (Elt F) := after (ops_part4.take 2) VA

set_option maxRecDepth 8192 in
/-- The aggregated messages: the segment sum into the zeros at the raw target column. -/
theorem first2_aggr (VA : Valuation τ sig (Elt F)) :
    afterW4a VA (no_index (Proc.devRef .tc main_v221))
      = Host.scatterAdd scatter_S50000x128_S800000x1_S800000x128_1_0_0_1 (VA (Proc.devRef .tc main_v219))
          (rawCol (VA (Proc.devRef .tc main_v194))) (VA (Proc.devRef .tc main_v218)) := by
  unfold afterW4a
  simp only [ops_part4, List.take_succ_cons, List.take_zero]
  after_results_simp
  rfl

set_option maxRecDepth 8192 in
/-- The first two operations write only their own two buffers. -/
theorem first2_keep (VA : Valuation τ sig (Elt F)) (r : Ref sig .tc) (h : r ∉ [main_v220, main_v221]) :
    afterW4a VA (Proc.devRef .tc r) = VA (Proc.devRef .tc r) := by
  unfold afterW4a
  refine after_of_writes_sub (W := [main_v220, main_v221]) _ _ ?_ h
  simp only [ops_part4, List.take_succ_cons, List.take_zero, List.Forall, unary_writes, ternary_writes,
    Finset.singleton_subset_iff, List.mem_toFinset]
  repeat' apply And.intro
  all_goals exact List.mem_map_of_mem (by decide)

set_option maxRecDepth 8192 in
set_option maxHeartbeats 2000000 in
/-- The rest of window 4, from any contents: the update network and the decoder on what the buffers hold. -/
theorem dec_of (VB : Valuation τ sig (Elt F)) :
    after (ops_part4.drop 2) VB (no_index (Proc.devRef .tc main_v236))
      = decOn (VB (Proc.devRef .tc main_v3)) (VB (Proc.devRef .tc main_v221))
          (VB (Proc.devRef .tc main_v184)) (VB (Proc.devRef .tc main_v186)) (VB (Proc.devRef .tc main_v188))
          (VB (Proc.devRef .tc main_v190)) (VB (Proc.devRef .tc main_arg5)) (VB (Proc.devRef .tc main_arg6)) := by
  simp only [ops_part4, List.drop_succ_cons, List.drop_zero]
  after_results_simp
  rfl

/-- THE RESULT: after the last window `main_v236` holds the reference's total function of the launch contents. -/
theorem afterW4_out (V0 : Valuation τ sig (Elt F)) :
    afterW4 V0 (no_index (Proc.devRef .tc main_v236))
      = refTotal (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  have hsplit : afterW4 V0 = after (ops_part4.drop 2) (afterW4a (afterW3 V0)) := by
    unfold afterW4 afterW4a
    rw [← StableHlo.after_append, List.take_append_drop]
  rw [hsplit, dec_of, first2_aggr,
    first2_keep _ main_v3 (by decide), first2_keep _ main_v184 (by decide), first2_keep _ main_v186 (by decide),
    first2_keep _ main_v188 (by decide), first2_keep _ main_v190 (by decide), first2_keep _ main_arg5 (by decide),
    first2_keep _ main_arg6 (by decide),
    afterW3_enc, afterW3_zeros, afterW3_dst, afterW3_msg, afterW3_u1, afterW3_c1, afterW3_u2, afterW3_c2,
    afterW3_launch V0 main_arg5 (by decide) (by decide) (by decide) (by decide),
    afterW3_launch V0 main_arg6 (by decide) (by decide) (by decide) (by decide),
    ← decStage_eq]
  rfl

/-! ## The whole run -/

set_option maxRecDepth 8192 in
/-- Every operation of window 0 determines its results. -/
theorem ops_part0_fresh : ∀ op ∈ (ops_part0 : List (HloOp τ sig (Elt F))), op.fresh = ∅ := by
  refine List.forall_iff_forall_mem.mp ?_
  simp only [List.Forall]
  repeat' apply And.intro
  all_goals rfl

set_option maxRecDepth 8192 in
/-- Every operation of window 1 determines its results. -/
theorem ops_part1_fresh : ∀ op ∈ (ops_part1 : List (HloOp τ sig (Elt F))), op.fresh = ∅ := by
  refine List.forall_iff_forall_mem.mp ?_
  simp only [List.Forall]
  repeat' apply And.intro
  all_goals rfl

set_option maxRecDepth 8192 in
/-- Every operation of window 2 determines its results. -/
theorem ops_part2_fresh : ∀ op ∈ (ops_part2 : List (HloOp τ sig (Elt F))), op.fresh = ∅ := by
  refine List.forall_iff_forall_mem.mp ?_
  simp only [List.Forall]
  repeat' apply And.intro
  all_goals rfl

set_option maxRecDepth 8192 in
/-- Every operation of window 3 determines its results. -/
theorem ops_part3_fresh : ∀ op ∈ (ops_part3 : List (HloOp τ sig (Elt F))), op.fresh = ∅ := by
  refine List.forall_iff_forall_mem.mp ?_
  simp only [List.Forall]
  repeat' apply And.intro
  all_goals rfl

set_option maxRecDepth 8192 in
/-- Every operation of window 4 determines its results. -/
theorem ops_part4_fresh : ∀ op ∈ (ops_part4 : List (HloOp τ sig (Elt F))), op.fresh = ∅ := by
  refine List.forall_iff_forall_mem.mp ?_
  simp only [List.Forall]
  repeat' apply And.intro
  all_goals rfl

/-- Every operation of @main determines its results. -/
theorem ops_fresh : ∀ op ∈ (ops : List (HloOp τ sig (Elt F))), op.fresh = ∅ := by
  intro op h
  simp only [ops, List.mem_append] at h
  rcases h with h | h | h | h | h
  exacts [ops_part0_fresh op h, ops_part1_fresh op h, ops_part2_fresh op h, ops_part3_fresh op h, ops_part4_fresh op h]

/-- The five windows one after the other are the whole list. -/
theorem after_ops (V0 : Valuation τ sig (Elt F)) : after ops V0 = afterW4 V0 := by
  simp only [ops, StableHlo.after_append]
  rfl

set_option maxRecDepth 8192 in
/-- On every device, for any float values, from any memory with zero counters: every weakly fair execution of the
    reference's @main terminates with its result at the reference's total function of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236)
        = refTotal (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v236).trans (by rw [after_ops]; exact afterW4_out (launchContents m c)),
      (h c main_arg0).trans (by rw [after_ops]; exact afterW4_launch (launchContents m c) main_arg0 (by decide) (by decide) (by decide) (by decide) (by decide)),
      (h c main_arg1).trans (by rw [after_ops]; exact afterW4_launch (launchContents m c) main_arg1 (by decide) (by decide) (by decide) (by decide) (by decide)),
      (h c main_arg2).trans (by rw [after_ops]; exact afterW4_launch (launchContents m c) main_arg2 (by decide) (by decide) (by decide) (by decide) (by decide)),
      (h c main_arg3).trans (by rw [after_ops]; exact afterW4_launch (launchContents m c) main_arg3 (by decide) (by decide) (by decide) (by decide) (by decide)),
      (h c main_arg4).trans (by rw [after_ops]; exact afterW4_launch (launchContents m c) main_arg4 (by decide) (by decide) (by decide) (by decide) (by decide)),
      (h c main_arg5).trans (by rw [after_ops]; exact afterW4_launch (launchContents m c) main_arg5 (by decide) (by decide) (by decide) (by decide) (by decide)),
      (h c main_arg6).trans (by rw [after_ops]; exact afterW4_launch (launchContents m c) main_arg6 (by decide) (by decide) (by decide) (by decide) (by decide)),
      (h c main_arg7).trans (by rw [after_ops]; exact afterW4_launch (launchContents m c) main_arg7 (by decide) (by decide) (by decide) (by decide) (by decide)),
      (h c main_arg8).trans (by rw [after_ops]; exact afterW4_launch (launchContents m c) main_arg8 (by decide) (by decide) (by decide) (by decide) (by decide)),
      (h c main_arg9).trans (by rw [after_ops]; exact afterW4_launch (launchContents m c) main_arg9 (by decide) (by decide) (by decide) (by decide) (by decide)),
      (h c main_arg10).trans (by rw [after_ops]; exact afterW4_launch (launchContents m c) main_arg10 (by decide) (by decide) (by decide) (by decide) (by decide)),
      (h c main_arg11).trans (by rw [after_ops]; exact afterW4_launch (launchContents m c) main_arg11 (by decide) (by decide) (by decide) (by decide) (by decide)),
      (h c main_arg12).trans (by rw [after_ops]; exact afterW4_launch (launchContents m c) main_arg12 (by decide) (by decide) (by decide) (by decide) (by decide)),
      (h c main_arg13).trans (by rw [after_ops]; exact afterW4_launch (launchContents m c) main_arg13 (by decide) (by decide) (by decide) (by decide) (by decide)),
      (h c main_arg14).trans (by rw [after_ops]; exact afterW4_launch (launchContents m c) main_arg14 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefValueA.lean ====
/-
  The reference's encoder and message network, as the library's whole-array operations, are the
  specification's, entry by entry. A product of matrices on the host is the plain sum of products over the
  contracted coordinate; a bias broadcast twice (to a row, then down the rows) reads the bias at the column;
  the positive part is the maximum with zero; layer 3 of a stacked weight, cut out and reshaped, reads the
  stack at layer 3. The message network multiplies the 259 columns [x_i | x_j | e] laid side by side by the 259
  rows of the first weight: that sum is the three partial sums over the blocks of 128, 128 and 3.
-/
import proofs.«416000_j42125039239963_1_alg».proof.Proof.RefStages
import proofs.«416000_j42125039239963_1_alg».proof.Proof.SpecTotal
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValueA

open Cert.ReferenceIdeal Cert.ReferenceIdeal.RefStages
open Idealize.ShloMosaic Idealize.ShloMosaic.ValueIdx
open scoped BigOperators

variable [Cert.ReferenceIdeal.Facts]
open Cert.ReferenceIdeal.Facts₀ Cert.ReferenceIdeal.Facts

/-! ## The encoder's product, read at an entry -/

theorem encDot_lhs0 (i : S50000x128.Idx) (q : dot_S50000x5_S5x128_S50000x128_1_0_0_1_n_n.contr.Idx) :
    (dot_S50000x5_S5x128_S50000x128_1_0_0_1_n_n.lhsIdx i q 0).val = (i 0).val := by
  unfold DotDims.lhsIdx
  rw [dif_neg (show ¬(0 : Fin S50000x5.rank) ∈ dot_S50000x5_S5x128_S50000x128_1_0_0_1_n_n.lhsBatch from List.not_mem_nil),
    dif_pos (show (0 : Fin S50000x5.rank) ∈ dot_S50000x5_S5x128_S50000x128_1_0_0_1_n_n.lhsNonContracting from List.mem_singleton.2 rfl)]
  rfl
theorem encDot_lhs1 (i : S50000x128.Idx) (q : dot_S50000x5_S5x128_S50000x128_1_0_0_1_n_n.contr.Idx) :
    (dot_S50000x5_S5x128_S50000x128_1_0_0_1_n_n.lhsIdx i q 1).val = (q ⟨0, Nat.one_pos⟩).val :=
  dot_S50000x5_S5x128_S50000x128_1_0_0_1_n_n.lhsIdx_val_of_single rfl i q
theorem encDot_rhs0 (i : S50000x128.Idx) (q : dot_S50000x5_S5x128_S50000x128_1_0_0_1_n_n.contr.Idx) :
    (dot_S50000x5_S5x128_S50000x128_1_0_0_1_n_n.rhsIdx i q 0).val = (q ⟨0, Nat.one_pos⟩).val :=
  dot_S50000x5_S5x128_S50000x128_1_0_0_1_n_n.rhsIdx_val_of_single rfl i q
theorem encDot_rhs1 (i : S50000x128.Idx) (q : dot_S50000x5_S5x128_S50000x128_1_0_0_1_n_n.contr.Idx) :
    (dot_S50000x5_S5x128_S50000x128_1_0_0_1_n_n.rhsIdx i q 1).val = (i 1).val := by
  unfold DotDims.rhsIdx
  rw [dif_neg (show ¬(1 : Fin S5x128.rank) ∈ dot_S50000x5_S5x128_S50000x128_1_0_0_1_n_n.rhsBatch from List.not_mem_nil),
    dif_pos (show (1 : Fin S5x128.rank) ∈ dot_S50000x5_S5x128_S50000x128_1_0_0_1_n_n.rhsNonContracting from List.mem_singleton.2 rfl)]
  rfl

/-- Entry (n, c) of the product: the sum over the contracted coordinate of row n of the left factor times column c of the right. -/
theorem encDot_apply (x : FVec Ideal S50000x5 .f32) (w : FVec Ideal S5x128 .f32) (n : Fin 50000) (c : Fin 128) :
    Host.dotGeneral dot_S50000x5_S5x128_S50000x128_1_0_0_1_n_n none x w (ix2 n c) = ∑ t : Fin 5, x (ix2 n t) * w (ix2 t c) := by
  simp only [Host.dotGeneral]
  rw [Ideal.dotGeneral_apply, ← Equiv.sum_comp (contrEquiv1 dot_S50000x5_S5x128_S50000x128_1_0_0_1_n_n 5 rfl rfl).symm]
  refine Finset.sum_congr rfl fun k _ => ?_
  have hk := contrEquiv1_symm_val dot_S50000x5_S5x128_S50000x128_1_0_0_1_n_n 5 rfl rfl k
  have el : dot_S50000x5_S5x128_S50000x128_1_0_0_1_n_n.lhsIdx (ix2 n c) ((contrEquiv1 dot_S50000x5_S5x128_S50000x128_1_0_0_1_n_n 5 rfl rfl).symm k) = ix2 n k :=
    funext fun a => Fin.ext (by
      match a with
      | ⟨0, _⟩ => exact encDot_lhs0 _ _
      | ⟨1, _⟩ => exact (encDot_lhs1 _ _).trans hk)
  have er : dot_S50000x5_S5x128_S50000x128_1_0_0_1_n_n.rhsIdx (ix2 n c) ((contrEquiv1 dot_S50000x5_S5x128_S50000x128_1_0_0_1_n_n 5 rfl rfl).symm k) = ix2 k c :=
    funext fun a => Fin.ext (by
      match a with
      | ⟨0, _⟩ => exact (encDot_rhs0 _ _).trans hk
      | ⟨1, _⟩ => exact encDot_rhs1 _ _)
  rw [el, er]

/-! ## A bias broadcast to a row and then down the rows -/

/-- The bias as one row reads the bias at the column. -/
theorem biasRow_apply (b : FVec Ideal S128 .f32) (r : Fin 1) (c : Fin 128) :
    broadcastInDim S1x128 ![1] bcast_S128_S1x128_1 b (ix2 r c) = b (ix1 c) :=
  broadcastInDim_apply _ bcast_S128_S1x128_1 b (ix2 r c) (ix1 c) (fun a => match a with
    | ⟨0, _⟩ => by show c.val = if (128 : Nat) = 1 then 0 else c.val; rw [if_neg (by decide)])

/-- The bias row repeated down 50000 rows reads the bias at the column. -/
theorem bias50_apply (b : FVec Ideal S128 .f32) (n : Fin 50000) (c : Fin 128) :
    broadcastInDim S50000x128 ![0, 1] bcast_S1x128_S50000x128_0_1 (broadcastInDim S1x128 ![1] bcast_S128_S1x128_1 b) (ix2 n c)
      = b (ix1 c) := by
  rw [← biasRow_apply b 0 c]
  generalize broadcastInDim S1x128 ![1] bcast_S128_S1x128_1 b = y
  exact broadcastInDim_apply _ bcast_S1x128_S50000x128_0_1 y (ix2 n c) (ix2 0 c) (fun a => match a with
    | ⟨0, _⟩ => by show 0 = if (1 : Nat) = 1 then 0 else n.val; rw [if_pos rfl]
    | ⟨1, _⟩ => by show c.val = if (128 : Nat) = 1 then 0 else c.val; rw [if_neg (by decide)])

/-- The encoder. -/
theorem encStage_eq (x : FVec Ideal S50000x5 .f32) (w : FVec Ideal S5x128 .f32) (b : FVec Ideal S128 .f32) :
    encStage (F := Ideal) x w b = Cert.Spec.encoded x w b := by
  funext j
  obtain ⟨n, c, rfl⟩ : ∃ (n : Fin 50000) (c : Fin 128), j = ix2 n c := ⟨j 0, j 1, eq_ix2 j⟩
  unfold encStage Cert.Spec.encoded Cert.Spec.encAt
  rw [addf_apply, encDot_apply, bias50_apply]

/-! ## Layer 3 of a stacked weight, cut out and reshaped, reads the stack at layer 3 -/

/-- Layer 3 of the stacked 259 × 128 weights at (k, q). -/
theorem w1L_apply (a : FVec Ideal S4x259x128 .f32) (k : Fin 259) (q : Fin 128) :
    w1L (F := Ideal) a (ix2 k q) = a (ix3 Cert.Spec.layer k q) := by
  unfold w1L
  rw [shapeCast_apply _ shapeCasts_S1x259x128_S259x128 (ix2 k q) (ix3 (0 : Fin 1) k q) (by
    rewrite [Shape.rowMajor_val_three, Shape.rowMajor_val_two]
    show (0 * 259 + k.val) * 128 + q.val = k.val * 128 + q.val
    omega)]
  exact extractStridedSlice_apply ![3, 0, 0] a slices_S4x259x128_S1x259x128_3_0_0 (ix3 (0 : Fin 1) k q) (ix3 Cert.Spec.layer k q)
    (fun b => match b with
      | ⟨0, _⟩ => by show 3 = 3 + 0; omega
      | ⟨1, _⟩ => by show k.val = 0 + k.val; omega
      | ⟨2, _⟩ => by show q.val = 0 + q.val; omega)

/-- Layer 3 of the stacked 128 × 128 weights at (k, q). -/
theorem sqL_apply (a : FVec Ideal S4x128x128 .f32) (k : Fin 128) (q : Fin 128) :
    sqL (F := Ideal) a (ix2 k q) = a (ix3 Cert.Spec.layer k q) := by
  unfold sqL
  rw [shapeCast_apply _ shapeCasts_S1x128x128_S128x128 (ix2 k q) (ix3 (0 : Fin 1) k q) (by
    rewrite [Shape.rowMajor_val_three, Shape.rowMajor_val_two]
    show (0 * 128 + k.val) * 128 + q.val = k.val * 128 + q.val
    omega)]
  exact extractStridedSlice_apply ![3, 0, 0] a slices_S4x128x128_S1x128x128_3_0_0 (ix3 (0 : Fin 1) k q) (ix3 Cert.Spec.layer k q)
    (fun b => match b with
      | ⟨0, _⟩ => by show 3 = 3 + 0; omega
      | ⟨1, _⟩ => by show k.val = 0 + k.val; omega
      | ⟨2, _⟩ => by show q.val = 0 + q.val; omega)

/-- Layer 3 of the stacked biases at q. -/
theorem biasL_apply (a : FVec Ideal S4x128 .f32) (q : Fin 128) :
    biasL (F := Ideal) a (ix1 q) = a (ix2 Cert.Spec.layer q) := by
  unfold biasL
  rw [shapeCast_apply _ shapeCasts_S1x128_S128 (ix1 q) (ix2 (0 : Fin 1) q) (by
    rewrite [Shape.rowMajor_val_two, Shape.rowMajor_val_one]
    show 0 * 128 + q.val = q.val
    omega)]
  exact extractStridedSlice_apply ![3, 0] a slices_S4x128_S1x128_3_0 (ix2 (0 : Fin 1) q) (ix2 Cert.Spec.layer q)
    (fun b => match b with
      | ⟨0, _⟩ => by show 3 = 3 + 0; omega
      | ⟨1, _⟩ => by show q.val = 0 + q.val; omega)

/-! ## The bias and the zero on 800000 rows -/

/-- The bias row repeated down 800000 rows reads the bias at the column. -/
theorem bias800_apply (b : FVec Ideal S128 .f32) (e : Fin 800000) (c : Fin 128) :
    bias800 (F := Ideal) b (ix2 e c) = b (ix1 c) := by
  unfold bias800
  rw [← biasRow_apply b 0 c]
  generalize broadcastInDim S1x128 ![1] bcast_S128_S1x128_1 b = y
  exact broadcastInDim_apply _ bcast_S1x128_S800000x128_0_1 y (ix2 e c) (ix2 0 c) (fun a => match a with
    | ⟨0, _⟩ => by show 0 = if (1 : Nat) = 1 then 0 else e.val; rw [if_pos rfl]
    | ⟨1, _⟩ => by show c.val = if (128 : Nat) = 1 then 0 else c.val; rw [if_neg (by decide)])

/-- The positive part on 800000 × 128 is the maximum with zero, entry by entry. -/
theorem relu800_apply (x : FVec Ideal S800000x128 .f32) (e : Fin 800000) (c : Fin 128) :
    relu800 (F := Ideal) x (ix2 e c) = max (x (ix2 e c)) 0 := by
  unfold relu800
  rw [maximumf_apply, broadcastInDim_apply _ bcast_S_S800000x128 _ (ix2 e c) ix0 (fun a => a.elim0), constant_apply,
    Ideal.ofBits_zero_f32]

/-! ## The message network's first product, read at an entry -/

theorem msgDot1_lhs0 (i : S800000x128.Idx) (q : dot_S800000x259_S259x128_S800000x128_1_0_0_1_n_n.contr.Idx) :
    (dot_S800000x259_S259x128_S800000x128_1_0_0_1_n_n.lhsIdx i q 0).val = (i 0).val := by
  unfold DotDims.lhsIdx
  rw [dif_neg (show ¬(0 : Fin S800000x259.rank) ∈ dot_S800000x259_S259x128_S800000x128_1_0_0_1_n_n.lhsBatch from List.not_mem_nil),
    dif_pos (show (0 : Fin S800000x259.rank) ∈ dot_S800000x259_S259x128_S800000x128_1_0_0_1_n_n.lhsNonContracting from List.mem_singleton.2 rfl)]
  rfl
theorem msgDot1_lhs1 (i : S800000x128.Idx) (q : dot_S800000x259_S259x128_S800000x128_1_0_0_1_n_n.contr.Idx) :
    (dot_S800000x259_S259x128_S800000x128_1_0_0_1_n_n.lhsIdx i q 1).val = (q ⟨0, Nat.one_pos⟩).val :=
  dot_S800000x259_S259x128_S800000x128_1_0_0_1_n_n.lhsIdx_val_of_single rfl i q
theorem msgDot1_rhs0 (i : S800000x128.Idx) (q : dot_S800000x259_S259x128_S800000x128_1_0_0_1_n_n.contr.Idx) :
    (dot_S800000x259_S259x128_S800000x128_1_0_0_1_n_n.rhsIdx i q 0).val = (q ⟨0, Nat.one_pos⟩).val :=
  dot_S800000x259_S259x128_S800000x128_1_0_0_1_n_n.rhsIdx_val_of_single rfl i q
theorem msgDot1_rhs1 (i : S800000x128.Idx) (q : dot_S800000x259_S259x128_S800000x128_1_0_0_1_n_n.contr.Idx) :
    (dot_S800000x259_S259x128_S800000x128_1_0_0_1_n_n.rhsIdx i q 1).val = (i 1).val := by
  unfold DotDims.rhsIdx
  rw [dif_neg (show ¬(1 : Fin S259x128.rank) ∈ dot_S800000x259_S259x128_S800000x128_1_0_0_1_n_n.rhsBatch from List.not_mem_nil),
    dif_pos (show (1 : Fin S259x128.rank) ∈ dot_S800000x259_S259x128_S800000x128_1_0_0_1_n_n.rhsNonContracting from List.mem_singleton.2 rfl)]
  rfl

/-- Entry (n, c) of the product: the sum over the contracted coordinate of row n of the left factor times column c of the right. -/
theorem msgDot1_apply (x : FVec Ideal S800000x259 .f32) (w : FVec Ideal S259x128 .f32) (n : Fin 800000) (c : Fin 128) :
    Host.dotGeneral dot_S800000x259_S259x128_S800000x128_1_0_0_1_n_n none x w (ix2 n c) = ∑ t : Fin 259, x (ix2 n t) * w (ix2 t c) := by
  simp only [Host.dotGeneral]
  rw [Ideal.dotGeneral_apply, ← Equiv.sum_comp (contrEquiv1 dot_S800000x259_S259x128_S800000x128_1_0_0_1_n_n 259 rfl rfl).symm]
  refine Finset.sum_congr rfl fun k _ => ?_
  have hk := contrEquiv1_symm_val dot_S800000x259_S259x128_S800000x128_1_0_0_1_n_n 259 rfl rfl k
  have el : dot_S800000x259_S259x128_S800000x128_1_0_0_1_n_n.lhsIdx (ix2 n c) ((contrEquiv1 dot_S800000x259_S259x128_S800000x128_1_0_0_1_n_n 259 rfl rfl).symm k) = ix2 n k :=
    funext fun a => Fin.ext (by
      match a with
      | ⟨0, _⟩ => exact msgDot1_lhs0 _ _
      | ⟨1, _⟩ => exact (msgDot1_lhs1 _ _).trans hk)
  have er : dot_S800000x259_S259x128_S800000x128_1_0_0_1_n_n.rhsIdx (ix2 n c) ((contrEquiv1 dot_S800000x259_S259x128_S800000x128_1_0_0_1_n_n 259 rfl rfl).symm k) = ix2 k c :=
    funext fun a => Fin.ext (by
      match a with
      | ⟨0, _⟩ => exact (msgDot1_rhs0 _ _).trans hk
      | ⟨1, _⟩ => exact msgDot1_rhs1 _ _)
  rw [el, er]

/-! ## The message network's second product, read at an entry -/

theorem msgDot2_lhs0 (i : S800000x128.Idx) (q : dot_S800000x128_S128x128_S800000x128_1_0_0_1_n_n.contr.Idx) :
    (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch from List.not_mem_nil),
    dif_pos (show (0 : Fin S800000x128.rank) ∈ dot_S800000x128_S128x128_S800000x128_1_0_0_1_n_n.lhsNonContracting from List.mem_singleton.2 rfl)]
  rfl
theorem msgDot2_lhs1 (i : S800000x128.Idx) (q : dot_S800000x128_S128x128_S800000x128_1_0_0_1_n_n.contr.Idx) :
    (dot_S800000x128_S128x128_S800000x128_1_0_0_1_n_n.lhsIdx i q 1).val = (q ⟨0, Nat.one_pos⟩).val :=
  dot_S800000x128_S128x128_S800000x128_1_0_0_1_n_n.lhsIdx_val_of_single rfl i q
theorem msgDot2_rhs0 (i : S800000x128.Idx) (q : dot_S800000x128_S128x128_S800000x128_1_0_0_1_n_n.contr.Idx) :
    (dot_S800000x128_S128x128_S800000x128_1_0_0_1_n_n.rhsIdx i q 0).val = (q ⟨0, Nat.one_pos⟩).val :=
  dot_S800000x128_S128x128_S800000x128_1_0_0_1_n_n.rhsIdx_val_of_single rfl i q
theorem msgDot2_rhs1 (i : S800000x128.Idx) (q : dot_S800000x128_S128x128_S800000x128_1_0_0_1_n_n.contr.Idx) :
    (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch from List.not_mem_nil),
    dif_pos (show (1 : Fin S128x128.rank) ∈ dot_S800000x128_S128x128_S800000x128_1_0_0_1_n_n.rhsNonContracting from List.mem_singleton.2 rfl)]
  rfl

/-- Entry (n, c) of the product: the sum over the contracted coordinate of row n of the left factor times column c of the right. -/
theorem msgDot2_apply (x : FVec Ideal S800000x128 .f32) (w : FVec Ideal S128x128 .f32) (n : Fin 800000) (c : Fin 128) :
    Host.dotGeneral dot_S800000x128_S128x128_S800000x128_1_0_0_1_n_n none x w (ix2 n c) = ∑ t : Fin 128, x (ix2 n t) * w (ix2 t c) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 n c) ((contrEquiv1 dot_S800000x128_S128x128_S800000x128_1_0_0_1_n_n 128 rfl rfl).symm k) = ix2 n k :=
    funext fun a => Fin.ext (by
      match a with
      | ⟨0, _⟩ => exact msgDot2_lhs0 _ _
      | ⟨1, _⟩ => exact (msgDot2_lhs1 _ _).trans hk)
  have er : dot_S800000x128_S128x128_S800000x128_1_0_0_1_n_n.rhsIdx (ix2 n c) ((contrEquiv1 dot_S800000x128_S128x128_S800000x128_1_0_0_1_n_n 128 rfl rfl).symm k) = ix2 k c :=
    funext fun a => Fin.ext (by
      match a with
      | ⟨0, _⟩ => exact (msgDot2_rhs0 _ _).trans hk
      | ⟨1, _⟩ => exact msgDot2_rhs1 _ _)
  rw [el, er]

/-! ## The three arrays laid side by side, read in each block of columns -/

/-- Columns 0 … 127 are the first array's. -/
theorem cat_lo (xi xj : FVec Ideal S800000x128 .f32) (ea : FVec Ideal S800000x3 .f32) (e : Fin 800000) (k : Fin 128) :
    concatenate S800000x259 1 [⟨S800000x128, xi⟩, ⟨S800000x128, xj⟩, ⟨S800000x3, ea⟩] concatenates_S800000x128_S800000x128_S800000x3_S800000x259_d1 (ix2 e (Cert.Spec.lo259 k)) = xi (ix2 e k) :=
  concatenate_apply_piece (t := S800000x259) 1 [⟨S800000x128, xi⟩, ⟨S800000x128, xj⟩, ⟨S800000x3, ea⟩]
    concatenates_S800000x128_S800000x128_S800000x3_S800000x259_d1 (ix2 e (Cert.Spec.lo259 k))
    0 (by simp) S800000x128 xi rfl rfl 0 rfl (ix2 e k)
    (fun b hb => match b with
      | ⟨0, _⟩ => rfl
      | ⟨1, _⟩ => (hb (Fin.ext rfl)).elim)
    (by show 0 + k.val = k.val; omega)

/-- Columns 128 … 255 are the second array's. -/
theorem cat_mid (xi xj : FVec Ideal S800000x128 .f32) (ea : FVec Ideal S800000x3 .f32) (e : Fin 800000) (k : Fin 128) :
    concatenate S800000x259 1 [⟨S800000x128, xi⟩, ⟨S800000x128, xj⟩, ⟨S800000x3, ea⟩] concatenates_S800000x128_S800000x128_S800000x3_S800000x259_d1 (ix2 e (Cert.Spec.mid259 k)) = xj (ix2 e k) :=
  concatenate_apply_piece (t := S800000x259) 1 [⟨S800000x128, xi⟩, ⟨S800000x128, xj⟩, ⟨S800000x3, ea⟩]
    concatenates_S800000x128_S800000x128_S800000x3_S800000x259_d1 (ix2 e (Cert.Spec.mid259 k))
    1 (by simp) S800000x128 xj rfl rfl 128 rfl (ix2 e k)
    (fun b hb => match b with
      | ⟨0, _⟩ => rfl
      | ⟨1, _⟩ => (hb (Fin.ext rfl)).elim)
    (by show 128 + k.val = 128 + k.val; rfl)

/-- Columns 256 … 258 are the third array's. -/
theorem cat_hi (xi xj : FVec Ideal S800000x128 .f32) (ea : FVec Ideal S800000x3 .f32) (e : Fin 800000) (k : Fin 3) :
    concatenate S800000x259 1 [⟨S800000x128, xi⟩, ⟨S800000x128, xj⟩, ⟨S800000x3, ea⟩] concatenates_S800000x128_S800000x128_S800000x3_S800000x259_d1 (ix2 e (Cert.Spec.hi259 k)) = ea (ix2 e k) :=
  concatenate_apply_piece (t := S800000x259) 1 [⟨S800000x128, xi⟩, ⟨S800000x128, xj⟩, ⟨S800000x3, ea⟩]
    concatenates_S800000x128_S800000x128_S800000x3_S800000x259_d1 (ix2 e (Cert.Spec.hi259 k))
    2 (by simp) S800000x3 ea rfl rfl 256 rfl (ix2 e k)
    (fun b hb => match b with
      | ⟨0, _⟩ => rfl
      | ⟨1, _⟩ => (hb (Fin.ext rfl)).elim)
    (by show 256 + k.val = 256 + k.val; rfl)

/-! ## The hidden activation -/

/-- One edge's hidden activation: the product against the 259 columns laid side by side is the three partial products. -/
theorem hidden_apply (xi xj : FVec Ideal S800000x128 .f32) (ea : FVec Ideal S800000x3 .f32) (a7 : FVec Ideal S4x259x128 .f32)
    (a8 : FVec Ideal S4x128 .f32) (e : Fin 800000) (k : Fin 128) :
    relu800 (F := Ideal) (addf (Host.dotGeneral dot_S800000x259_S259x128_S800000x128_1_0_0_1_n_n none
        (concatenate S800000x259 1 [⟨S800000x128, xi⟩, ⟨S800000x128, xj⟩, ⟨S800000x3, ea⟩] concatenates_S800000x128_S800000x128_S800000x3_S800000x259_d1) (w1L a7)) (bias800 (biasL a8))) (ix2 e k)
      = Cert.Spec.msgHidden (fun k => xi (ix2 e k)) (fun k => xj (ix2 e k)) (fun k => ea (ix2 e k))
          (fun k q => a7 (ix3 Cert.Spec.layer (Cert.Spec.lo259 k) q)) (fun k q => a7 (ix3 Cert.Spec.layer (Cert.Spec.mid259 k) q))
          (fun k q => a7 (ix3 Cert.Spec.layer (Cert.Spec.hi259 k) q)) (fun q => a8 (ix2 Cert.Spec.layer q)) k := by
  rw [relu800_apply, addf_apply, msgDot1_apply, bias800_apply, biasL_apply]
  simp only [w1L_apply]
  exact Cert.Spec.msgHidden_unsplit (fun k => xi (ix2 e k)) (fun k => xj (ix2 e k)) (fun k => ea (ix2 e k))
    (fun t q => a7 (ix3 Cert.Spec.layer t q))
    (fun t => concatenate S800000x259 1 [⟨S800000x128, xi⟩, ⟨S800000x128, xj⟩, ⟨S800000x3, ea⟩] concatenates_S800000x128_S800000x128_S800000x3_S800000x259_d1 (ix2 e t))
    (cat_lo xi xj ea e) (cat_mid xi xj ea e) (cat_hi xi xj ea e) (fun q => a8 (ix2 Cert.Spec.layer q)) k

/-- The specification's message at an entry given by its coordinates. -/
theorem messages_apply (xi xj : FVec Ideal S800000x128 .f32) (ea : FVec Ideal S800000x3 .f32) (a7 : FVec Ideal S4x259x128 .f32)
    (a8 : FVec Ideal S4x128 .f32) (a9 : FVec Ideal S4x128x128 .f32) (a10 : FVec Ideal S4x128 .f32) (e : Fin 800000) (c : Fin 128) :
    Cert.Spec.messages xi xj ea a7 a8 a9 a10 (ix2 e c)
      = Cert.Spec.msgAt (fun k => xi (ix2 e k)) (fun k => xj (ix2 e k)) (fun k => ea (ix2 e k))
          (fun k q => a7 (ix3 Cert.Spec.layer (Cert.Spec.lo259 k) q)) (fun k q => a7 (ix3 Cert.Spec.layer (Cert.Spec.mid259 k) q))
          (fun k q => a7 (ix3 Cert.Spec.layer (Cert.Spec.hi259 k) q)) (fun q => a8 (ix2 Cert.Spec.layer q))
          (fun k q => a9 (ix3 Cert.Spec.layer k q)) (fun q => a10 (ix2 Cert.Spec.layer q)) c := rfl

/-- The message network. -/
theorem msgStage_eq (xi xj : FVec Ideal S800000x128 .f32) (ea : FVec Ideal S800000x3 .f32) (a7 : FVec Ideal S4x259x128 .f32)
    (a8 : FVec Ideal S4x128 .f32) (a9 : FVec Ideal S4x128x128 .f32) (a10 : FVec Ideal S4x128 .f32) :
    msgStage (F := Ideal) xi xj ea a7 a8 a9 a10 = Cert.Spec.messages xi xj ea a7 a8 a9 a10 := by
  funext j
  obtain ⟨e, c, rfl⟩ : ∃ (e : Fin 800000) (c : Fin 128), j = ix2 e c := ⟨j 0, j 1, eq_ix2 j⟩
  rw [messages_apply]
  unfold msgStage Cert.Spec.msgAt
  rw [addf_apply, msgDot2_apply, bias800_apply, biasL_apply]
  refine congrArg (· + a10 (ix2 Cert.Spec.layer c)) (Finset.sum_congr rfl fun k _ => ?_)
  rw [sqL_apply, hidden_apply]

end Cert.ReferenceIdeal.RefValueA

end
-- ==== Proof.RefValueB.lean ====
/-
  The reference's update network, residual sum and decoder are the specification's, entry by entry (the
  update multiplies the 256 columns [h | aggr] laid side by side by the 256 rows of its first weight: the two
  partial sums over the blocks of 128); a row of the edge list, wrapped and laid as a column, is that row where
  every entry is a node index; the array the segment sum starts from is zero.
-/
import proofs.«416000_j42125039239963_1_alg».proof.Proof.RefStages
import proofs.«416000_j42125039239963_1_alg».proof.Proof.SpecTotal
import proofs.«416000_j42125039239963_1_alg».proof.Proof.IdxFacts
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValueB

open Cert.ReferenceIdeal Cert.ReferenceIdeal.RefStages
open Idealize.ShloMosaic Idealize.ShloMosaic.ValueIdx
open scoped BigOperators

variable [Cert.ReferenceIdeal.Facts]
open Cert.ReferenceIdeal.Facts₀ Cert.ReferenceIdeal.Facts

/-! ## Layer 3 of each stacked weight, read at an index -/

/-- Entry (k, c) of layer 3 of the stacked 256 × 128 weights. -/
theorem u1L_apply (a : FVec Ideal S4x256x128 .f32) (k : Fin 256) (c : Fin 128) :
    u1L a (ix2 k c) = a (ix3 (3 : Fin 4) k c) := by
  unfold u1L
  refine (shapeCast_1ab_ab_apply _ shapeCasts_S1x256x128_S256x128 k c).trans ?_
  exact extractStridedSlice_apply ![3, 0, 0] a slices_S4x256x128_S1x256x128_3_0_0 (ix3 (0 : Fin 1) k c)
    (ix3 (3 : Fin 4) k c) (fun ax => match ax with
      | ⟨0, _⟩ => rfl
      | ⟨1, _⟩ => by show k.val = 0 + k.val; omega
      | ⟨2, _⟩ => by show c.val = 0 + c.val; omega)

/-- Entry (k, c) of layer 3 of the stacked 128 × 128 weights. -/
theorem sqL_apply (a : FVec Ideal S4x128x128 .f32) (k c : Fin 128) :
    sqL a (ix2 k c) = a (ix3 (3 : Fin 4) k c) := by
  unfold sqL
  refine (shapeCast_1ab_ab_apply _ shapeCasts_S1x128x128_S128x128 k c).trans ?_
  exact extractStridedSlice_apply ![3, 0, 0] a slices_S4x128x128_S1x128x128_3_0_0 (ix3 (0 : Fin 1) k c)
    (ix3 (3 : Fin 4) k c) (fun ax => match ax with
      | ⟨0, _⟩ => rfl
      | ⟨1, _⟩ => by show k.val = 0 + k.val; omega
      | ⟨2, _⟩ => by show c.val = 0 + c.val; omega)

/-- Entry c of layer 3 of the stacked biases. -/
theorem biasL_apply (a : FVec Ideal S4x128 .f32) (c : Fin 128) :
    biasL a (ix1 c) = a (ix2 (3 : Fin 4) c) := by
  unfold biasL
  refine (shapeCast_1a_a_apply _ shapeCasts_S1x128_S128 c).trans ?_
  exact extractStridedSlice_apply ![3, 0] a slices_S4x128_S1x128_3_0 (ix2 (0 : Fin 1) c)
    (ix2 (3 : Fin 4) c) (fun ax => match ax with
      | ⟨0, _⟩ => rfl
      | ⟨1, _⟩ => by show c.val = 0 + c.val; omega)

/-! ## A bias laid over the rows, the positive part, the zero array -/

/-- A bias of 128 laid over 50000 rows reads, at (n, c), its entry c. -/
theorem bias50_apply (b : FVec Ideal S128 .f32) (n : Fin 50000) (c : Fin 128) :
    bias50 b (ix2 n c) = b (ix1 c) := by
  unfold bias50
  refine (broadcastInDim_apply _ bcast_S1x128_S50000x128_0_1 _ (ix2 n c) (ix2 (0 : Fin 1) c) (fun ax => match ax with
    | ⟨0, _⟩ => by show 0 = if (1 : Nat) = 1 then 0 else n.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun ax => match ax with
    | ⟨0, _⟩ => by show c.val = if (128 : Nat) = 1 then 0 else c.val; rw [if_neg (by decide)])

/-- The decoder's bias of 5 laid over 50000 rows reads, at (n, q), its entry q. -/
theorem decBias_apply (b : FVec Ideal S5 .f32) (n : Fin 50000) (q : Fin 5) :
    broadcastInDim S50000x5 ![0, 1] bcast_S1x5_S50000x5_0_1 (broadcastInDim S1x5 ![1] bcast_S5_S1x5_1 b) (ix2 n q)
      = b (ix1 q) := by
  refine (broadcastInDim_apply _ bcast_S1x5_S50000x5_0_1 _ (ix2 n q) (ix2 (0 : Fin 1) q) (fun ax => match ax with
    | ⟨0, _⟩ => by show 0 = if (1 : Nat) = 1 then 0 else n.val; rw [if_pos rfl]
    | ⟨1, _⟩ => by show q.val = if (5 : Nat) = 1 then 0 else q.val; rw [if_neg (by decide)])).trans ?_
  exact broadcastInDim_apply _ bcast_S5_S1x5_1 b (ix2 (0 : Fin 1) q) (ix1 q) (fun ax => match ax with
    | ⟨0, _⟩ => by show q.val = if (5 : Nat) = 1 then 0 else q.val; rw [if_neg (by decide)])

/-- The zero scalar laid over 50000 × 128 reads zero everywhere. -/
theorem zero50_apply (i : S50000x128.Idx) :
    broadcastInDim S50000x128 ![] bcast_S_S50000x128 (constant (F := Ideal) S_ .f32 0x00000000#32) i = (0 : EReal) :=
  (broadcastInDim_apply _ bcast_S_S50000x128 (constant (F := Ideal) S_ .f32 0x00000000#32) i (fun a => a.elim0)
    (fun a => a.elim0)).trans Ideal.ofBits_zero_f32

/-- The positive part at an index. -/
theorem relu50_apply (x : FVec Ideal S50000x128 .f32) (i : S50000x128.Idx) : relu50 x i = max (x i) 0 := by
  unfold relu50
  rw [maximumf_apply, zero50_apply]

/-! ## The rows of the edge list as columns of start indices -/

/-- Entry e of the source row is entry (0, e) of the edge list. -/
theorem srcRow_apply (a1 : IVec S2x800000 32) (e : Fin 800000) : srcRow a1 (ix1 e) = a1 (ix2 (0 : Fin 2) e) := by
  unfold srcRow
  refine (shapeCast_1a_a_apply _ shapeCasts_S1x800000_S800000 e).trans ?_
  exact slice2_axis0_apply 0 a1 slices_S2x800000_S1x800000_0_0 (0 : Fin 1) e (0 : Fin 2) rfl

/-- Entry e of the target row is entry (1, e) of the edge list. -/
theorem dstRow_apply (a1 : IVec S2x800000 32) (e : Fin 800000) : dstRow a1 (ix1 e) = a1 (ix2 (1 : Fin 2) e) := by
  unfold dstRow
  refine (shapeCast_1a_a_apply _ shapeCasts_S1x800000_S800000 e).trans ?_
  exact slice2_axis0_apply 1 a1 slices_S2x800000_S1x800000_1_0 (0 : Fin 1) e (1 : Fin 2) rfl

/-- A vector laid as a column reads, at (e, 0), its entry e. -/
theorem rawCol_apply (v : IVec S800000 32) (e : Fin 800000) (z : Fin 1) : rawCol v (ix2 e z) = v (ix1 e) := by
  unfold rawCol
  exact broadcastInDim_apply _ bcast_S800000_S800000x1_0 v (ix2 e z) (ix1 e) (fun ax => match ax with
    | ⟨0, _⟩ => by show e.val = if (800000 : Nat) = 1 then 0 else e.val; rw [if_neg (by decide)])

/-- A vector wrapped and laid as a column reads, at (e, 0), the wrap of its entry e. -/
theorem wrapCol_apply (v : IVec S800000 32) (e : Fin 800000) (z : Fin 1) :
    wrapCol v (ix2 e z)
      = Scalar.select (IntOp.cmpi .slt (v (ix1 e)) 0#32) (IntOp.addi (v (ix1 e)) 50000#32) (v (ix1 e)) := by
  unfold wrapCol
  exact broadcastInDim_apply _ bcast_S800000_S800000x1_0 _ (ix2 e z) (ix1 e) (fun ax => match ax with
    | ⟨0, _⟩ => by show e.val = if (800000 : Nat) = 1 then 0 else e.val; rw [if_neg (by decide)])

/-! ## The three products, read at an index

Each contracts the left operand's second axis against the right operand's first: entry (n, c) is the sum over k of the
left operand at (n, k) times the right operand at (k, c). -/

/-- The product against the 256-row weight: the operands' coordinates at an output entry and a contraction position. -/
theorem lhs_cat_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.mpr rfl)]
  rfl
theorem lhs_cat_1 (i : S50000x128.Idx) (q : dot_S50000x256_S256x128_S50000x128_1_0_0_1_n_n.contr.Idx) :
    (dot_S50000x256_S256x128_S50000x128_1_0_0_1_n_n.lhsIdx i q 1).val = (q ⟨0, Nat.one_pos⟩).val :=
  dot_S50000x256_S256x128_S50000x128_1_0_0_1_n_n.lhsIdx_val_of_single rfl i q
theorem rhs_cat_0 (i : S50000x128.Idx) (q : dot_S50000x256_S256x128_S50000x128_1_0_0_1_n_n.contr.Idx) :
    (dot_S50000x256_S256x128_S50000x128_1_0_0_1_n_n.rhsIdx i q 0).val = (q ⟨0, Nat.one_pos⟩).val :=
  dot_S50000x256_S256x128_S50000x128_1_0_0_1_n_n.rhsIdx_val_of_single rfl i q
theorem rhs_cat_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.mpr rfl)]
  rfl

/-- The product of the 256 columns laid side by side with the 256-row weight, at (n, c). -/
theorem cat_apply (l : FVec Ideal S50000x256 .f32) (r : FVec Ideal S256x128 .f32) (n : Fin 50000) (c : Fin 128) :
    Host.dotGeneral dot_S50000x256_S256x128_S50000x128_1_0_0_1_n_n none l r (ix2 n c) = ∑ k : Fin 256, l (ix2 n k) * r (ix2 k c) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 n c) ((contrEquiv1 dot_S50000x256_S256x128_S50000x128_1_0_0_1_n_n 256 rfl rfl).symm k) = ix2 n k :=
    funext fun a => Fin.ext (by
      match a with
      | ⟨0, _⟩ => exact lhs_cat_0 _ _
      | ⟨1, _⟩ => exact (lhs_cat_1 _ _).trans hk)
  have er : dot_S50000x256_S256x128_S50000x128_1_0_0_1_n_n.rhsIdx (ix2 n c) ((contrEquiv1 dot_S50000x256_S256x128_S50000x128_1_0_0_1_n_n 256 rfl rfl).symm k) = ix2 k c :=
    funext fun a => Fin.ext (by
      match a with
      | ⟨0, _⟩ => exact (rhs_cat_0 _ _).trans hk
      | ⟨1, _⟩ => exact rhs_cat_1 _ _)
  rw [el, er]

/-- The product against a 128 × 128 weight: the operands' coordinates at an output entry and a contraction position. -/
theorem lhs_sq_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
theorem lhs_sq_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhs_sq_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhs_sq_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The product with a 128 × 128 weight, at (n, c). -/
theorem sq_apply (l : FVec Ideal S50000x128 .f32) (r : FVec Ideal S128x128 .f32) (n : Fin 50000) (c : Fin 128) :
    Host.dotGeneral dot_S50000x128_S128x128_S50000x128_1_0_0_1_n_n none l r (ix2 n c) = ∑ k : Fin 128, l (ix2 n k) * r (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n c) ((contrEquiv1 dot_S50000x128_S128x128_S50000x128_1_0_0_1_n_n 128 rfl rfl).symm k) = ix2 n k :=
    funext fun a => Fin.ext (by
      match a with
      | ⟨0, _⟩ => exact lhs_sq_0 _ _
      | ⟨1, _⟩ => exact (lhs_sq_1 _ _).trans hk)
  have er : dot_S50000x128_S128x128_S50000x128_1_0_0_1_n_n.rhsIdx (ix2 n c) ((contrEquiv1 dot_S50000x128_S128x128_S50000x128_1_0_0_1_n_n 128 rfl rfl).symm k) = ix2 k c :=
    funext fun a => Fin.ext (by
      match a with
      | ⟨0, _⟩ => exact (rhs_sq_0 _ _).trans hk
      | ⟨1, _⟩ => exact rhs_sq_1 _ _)
  rw [el, er]

/-- The decoder's product: the operands' coordinates at an output entry and a contraction position. -/
theorem lhs_dec_0 (i : S50000x5.Idx) (q : dot_S50000x128_S128x5_S50000x5_1_0_0_1_n_n.contr.Idx) :
    (dot_S50000x128_S128x5_S50000x5_1_0_0_1_n_n.lhsIdx i q 0).val = (i 0).val := by
  unfold DotDims.lhsIdx
  rw [dif_neg (show ¬(0 : Fin S50000x128.rank) ∈ dot_S50000x128_S128x5_S50000x5_1_0_0_1_n_n.lhsBatch from List.not_mem_nil),
    dif_pos (show (0 : Fin S50000x128.rank) ∈ dot_S50000x128_S128x5_S50000x5_1_0_0_1_n_n.lhsNonContracting from List.mem_singleton.mpr rfl)]
  rfl
theorem lhs_dec_1 (i : S50000x5.Idx) (q : dot_S50000x128_S128x5_S50000x5_1_0_0_1_n_n.contr.Idx) :
    (dot_S50000x128_S128x5_S50000x5_1_0_0_1_n_n.lhsIdx i q 1).val = (q ⟨0, Nat.one_pos⟩).val :=
  dot_S50000x128_S128x5_S50000x5_1_0_0_1_n_n.lhsIdx_val_of_single rfl i q
theorem rhs_dec_0 (i : S50000x5.Idx) (q : dot_S50000x128_S128x5_S50000x5_1_0_0_1_n_n.contr.Idx) :
    (dot_S50000x128_S128x5_S50000x5_1_0_0_1_n_n.rhsIdx i q 0).val = (q ⟨0, Nat.one_pos⟩).val :=
  dot_S50000x128_S128x5_S50000x5_1_0_0_1_n_n.rhsIdx_val_of_single rfl i q
theorem rhs_dec_1 (i : S50000x5.Idx) (q : dot_S50000x128_S128x5_S50000x5_1_0_0_1_n_n.contr.Idx) :
    (dot_S50000x128_S128x5_S50000x5_1_0_0_1_n_n.rhsIdx i q 1).val = (i 1).val := by
  unfold DotDims.rhsIdx
  rw [dif_neg (show ¬(1 : Fin S128x5.rank) ∈ dot_S50000x128_S128x5_S50000x5_1_0_0_1_n_n.rhsBatch from List.not_mem_nil),
    dif_pos (show (1 : Fin S128x5.rank) ∈ dot_S50000x128_S128x5_S50000x5_1_0_0_1_n_n.rhsNonContracting from List.mem_singleton.mpr rfl)]
  rfl

/-- The decoder's product, at (n, c). -/
theorem dec_apply (l : FVec Ideal S50000x128 .f32) (r : FVec Ideal S128x5 .f32) (n : Fin 50000) (c : Fin 5) :
    Host.dotGeneral dot_S50000x128_S128x5_S50000x5_1_0_0_1_n_n none l r (ix2 n c) = ∑ k : Fin 128, l (ix2 n k) * r (ix2 k c) := by
  simp only [Host.dotGeneral]
  rw [Ideal.dotGeneral_apply, ← Equiv.sum_comp (contrEquiv1 dot_S50000x128_S128x5_S50000x5_1_0_0_1_n_n 128 rfl rfl).symm]
  refine Finset.sum_congr rfl fun k _ => ?_
  have hk := contrEquiv1_symm_val dot_S50000x128_S128x5_S50000x5_1_0_0_1_n_n 128 rfl rfl k
  have el : dot_S50000x128_S128x5_S50000x5_1_0_0_1_n_n.lhsIdx (ix2 n c) ((contrEquiv1 dot_S50000x128_S128x5_S50000x5_1_0_0_1_n_n 128 rfl rfl).symm k) = ix2 n k :=
    funext fun a => Fin.ext (by
      match a with
      | ⟨0, _⟩ => exact lhs_dec_0 _ _
      | ⟨1, _⟩ => exact (lhs_dec_1 _ _).trans hk)
  have er : dot_S50000x128_S128x5_S50000x5_1_0_0_1_n_n.rhsIdx (ix2 n c) ((contrEquiv1 dot_S50000x128_S128x5_S50000x5_1_0_0_1_n_n 128 rfl rfl).symm k) = ix2 k c :=
    funext fun a => Fin.ext (by
      match a with
      | ⟨0, _⟩ => exact (rhs_dec_0 _ _).trans hk
      | ⟨1, _⟩ => exact rhs_dec_1 _ _)
  rw [el, er]

/-! ## The encoded and the aggregated rows laid side by side -/

/-- Column k of the first 128 of the 256 is column k of the encoded rows. -/
theorem cat_lo (h aggr : FVec Ideal S50000x128 .f32) (n : Fin 50000) (k : Fin 128) :
    concatenate S50000x256 1 [⟨S50000x128, h⟩, ⟨S50000x128, aggr⟩] concatenates_S50000x128_S50000x128_S50000x256_d1
      (ix2 n (Cert.Spec.lo256 k)) = h (ix2 n k) :=
  concatenate_pair_apply_left 1 h aggr concatenates_S50000x128_S50000x128_S50000x256_d1 (ix2 n (Cert.Spec.lo256 k)) rfl
    (ix2 n k) (fun b => match b with
      | ⟨0, _⟩ => rfl
      | ⟨1, _⟩ => rfl)

/-- Column 128 + k of the 256 is column k of the aggregated rows. -/
theorem cat_hi (h aggr : FVec Ideal S50000x128 .f32) (n : Fin 50000) (k : Fin 128) :
    concatenate S50000x256 1 [⟨S50000x128, h⟩, ⟨S50000x128, aggr⟩] concatenates_S50000x128_S50000x128_S50000x256_d1
      (ix2 n (Cert.Spec.hi256 k)) = aggr (ix2 n k) :=
  concatenate_pair_apply_right 1 h aggr concatenates_S50000x128_S50000x128_S50000x256_d1 (ix2 n (Cert.Spec.hi256 k)) rfl rfl
    (ix2 n k) (fun b => match b with
      | ⟨0, _⟩ => fun _ => rfl
      | ⟨1, _⟩ => fun hb => absurd rfl hb)
    (by show k.val + 128 = 128 + k.val; omega)

/-! ## The three stages at an index -/

/-- The hidden activations of the update at (n, c): the specification's, of node n's encoded and aggregated rows. -/
theorem hid_apply (h aggr : FVec Ideal S50000x128 .f32) (a11 : FVec Ideal S4x256x128 .f32) (a12 : FVec Ideal S4x128 .f32)
    (n : Fin 50000) (c : Fin 128) :
    relu50 (addf (Host.dotGeneral dot_S50000x256_S256x128_S50000x128_1_0_0_1_n_n none
        (concatenate S50000x256 1 [⟨S50000x128, h⟩, ⟨S50000x128, aggr⟩] concatenates_S50000x128_S50000x128_S50000x256_d1)
        (u1L a11)) (bias50 (biasL a12))) (ix2 n c)
      = Cert.Spec.updHidden (fun k => h (ix2 n k)) (fun k => aggr (ix2 n k))
          (fun k q => a11 (ix3 Cert.Spec.layer (Cert.Spec.lo256 k) q)) (fun k q => a11 (ix3 Cert.Spec.layer (Cert.Spec.hi256 k) q))
          (fun q => a12 (ix2 Cert.Spec.layer q)) c := by
  rw [relu50_apply, addf_apply, cat_apply, bias50_apply, biasL_apply]
  simp only [u1L_apply]
  exact Cert.Spec.updHidden_unsplit (fun k => h (ix2 n k)) (fun k => aggr (ix2 n k)) (fun k q => a11 (ix3 (3 : Fin 4) k q))
    (fun k => concatenate S50000x256 1 [⟨S50000x128, h⟩, ⟨S50000x128, aggr⟩]
      concatenates_S50000x128_S50000x128_S50000x256_d1 (ix2 n k))
    (cat_lo h aggr n) (cat_hi h aggr n) (fun q => a12 (ix2 (3 : Fin 4) q)) c

/-- The updated rows with the residual sum at (n, c): the specification's. -/
theorem row_apply (h aggr : FVec Ideal S50000x128 .f32) (a11 : FVec Ideal S4x256x128 .f32) (a12 : FVec Ideal S4x128 .f32)
    (a13 : FVec Ideal S4x128x128 .f32) (a14 : FVec Ideal S4x128 .f32) (n : Fin 50000) (c : Fin 128) :
    addf h (addf (Host.dotGeneral dot_S50000x128_S128x128_S50000x128_1_0_0_1_n_n none
        (relu50 (addf (Host.dotGeneral dot_S50000x256_S256x128_S50000x128_1_0_0_1_n_n none
          (concatenate S50000x256 1 [⟨S50000x128, h⟩, ⟨S50000x128, aggr⟩] concatenates_S50000x128_S50000x128_S50000x256_d1)
          (u1L a11)) (bias50 (biasL a12))))
        (sqL a13)) (bias50 (biasL a14))) (ix2 n c)
      = Cert.Spec.updRow (fun k => h (ix2 n k)) (fun k => aggr (ix2 n k))
          (fun k q => a11 (ix3 Cert.Spec.layer (Cert.Spec.lo256 k) q)) (fun k q => a11 (ix3 Cert.Spec.layer (Cert.Spec.hi256 k) q))
          (fun q => a12 (ix2 Cert.Spec.layer q)) (fun k q => a13 (ix3 Cert.Spec.layer k q))
          (fun q => a14 (ix2 Cert.Spec.layer q)) c := by
  unfold Cert.Spec.updRow
  rw [addf_apply, addf_apply, sq_apply, bias50_apply, biasL_apply]
  simp only [sqL_apply, hid_apply]
  rfl

/-- The update network, the residual sum and the decoder. -/
theorem decStage_eq (h aggr : FVec Ideal S50000x128 .f32) (a11 : FVec Ideal S4x256x128 .f32) (a12 : FVec Ideal S4x128 .f32)
    (a13 : FVec Ideal S4x128x128 .f32) (a14 : FVec Ideal S4x128 .f32) (a5 : FVec Ideal S128x5 .f32) (a6 : FVec Ideal S5 .f32) :
    decStage (F := Ideal) h aggr a11 a12 a13 a14 a5 a6 = Cert.Spec.decoded h aggr a11 a12 a13 a14 a5 a6 := by
  funext j
  obtain ⟨n, q, rfl⟩ : ∃ (n : Fin 50000) (q : Fin 5), j = ix2 n q := ⟨j 0, j 1, eq_ix2 j⟩
  unfold decStage Cert.Spec.decoded Cert.Spec.outAt
  rw [addf_apply, dec_apply, decBias_apply]
  simp only [row_apply]

/-- The source row, wrapped, as a column: the row itself where every entry is a node index. -/
theorem wrapCol_src (a1 : IVec S2x800000 32) (hidx : ∀ i : S2x800000.Idx, (a1 i).toNat < 50000) :
    wrapCol (srcRow a1) = Cert.Spec.endpoints a1 0 := by
  funext j
  obtain ⟨e, z, rfl⟩ : ∃ (e : Fin 800000) (z : Fin 1), j = ix2 e z := ⟨j 0, j 1, eq_ix2 j⟩
  rw [wrapCol_apply, srcRow_apply, Cert.IdxFacts.wrap_self (hidx _)]
  rfl

/-- The target row, wrapped, as a column: the row itself where every entry is a node index. -/
theorem wrapCol_dst (a1 : IVec S2x800000 32) (hidx : ∀ i : S2x800000.Idx, (a1 i).toNat < 50000) :
    wrapCol (dstRow a1) = Cert.Spec.endpoints a1 1 := by
  funext j
  obtain ⟨e, z, rfl⟩ : ∃ (e : Fin 800000) (z : Fin 1), j = ix2 e z := ⟨j 0, j 1, eq_ix2 j⟩
  rw [wrapCol_apply, dstRow_apply, Cert.IdxFacts.wrap_self (hidx _)]
  rfl

/-- The target row as it is, as a column. -/
theorem rawCol_dst (a1 : IVec S2x800000 32) : rawCol (dstRow a1) = Cert.Spec.endpoints a1 1 := by
  funext j
  obtain ⟨e, z, rfl⟩ : ∃ (e : Fin 800000) (z : Fin 1), j = ix2 e z := ⟨j 0, j 1, eq_ix2 j⟩
  rw [rawCol_apply, dstRow_apply]
  rfl

/-- The array the segment sum starts from is zero everywhere. -/
theorem zeros50_eq : zeros50 (F := Ideal) = fun _ => (0 : EReal) := by
  unfold zeros50
  exact funext zero50_apply

end Cert.ReferenceIdeal.RefValueB

end
-- ==== Proof.RefGlue.lean ====
/-
  The reference's whole result is the specification's function of its arguments, where every entry of the edge
  list is a node index: the encoder, the two wrapped columns, the message network, the zero array, the raw
  target column and the update / decoder network, each replaced by its specification; the two row gathers and
  the segment sum stay as they are, applied to equal operands.
-/
import proofs.«416000_j42125039239963_1_alg».proof.Proof.RefValueA
import proofs.«416000_j42125039239963_1_alg».proof.Proof.RefValueB

noncomputable section

namespace Cert.ReferenceIdeal.RefGlue

open Cert.ReferenceIdeal Cert.ReferenceIdeal.RefStages Idealize.ShloMosaic

variable [Cert.ReferenceIdeal.Facts]

theorem refTotal_eq (a0 : FVec Ideal S50000x5 .f32) (a1 : IVec S2x800000 32) (a2 : FVec Ideal S800000x3 .f32) (a3 : FVec Ideal S5x128 .f32)
    (a4 : FVec Ideal S128 .f32) (a5 : FVec Ideal S128x5 .f32) (a6 : FVec Ideal S5 .f32) (a7 : FVec Ideal S4x259x128 .f32)
    (a8 : FVec Ideal S4x128 .f32) (a9 : FVec Ideal S4x128x128 .f32) (a10 : FVec Ideal S4x128 .f32) (a11 : FVec Ideal S4x256x128 .f32)
    (a12 : FVec Ideal S4x128 .f32) (a13 : FVec Ideal S4x128x128 .f32) (a14 : FVec Ideal S4x128 .f32)
    (hidx : ∀ i : S2x800000.Idx, (a1 i).toNat < 50000) :
    refTotal (F := Ideal) a0 a1 a2 a3 a4 a5 a6 a7 a8 a9 a10 a11 a12 a13 a14
      = Cert.Spec.total (fun x i => Host.gather gather_S50000x128_S800000x1_S800000x128_1_0_n_n_0_1_1128 x i)
          (fun x i u => Host.scatterAdd (F := Ideal) (φ := .f32) scatter_S50000x128_S800000x1_S800000x128_1_0_0_1 x i u)
          a0 a1 a2 a3 a4 a5 a6 a7 a8 a9 a10 a11 a12 a13 a14 := by
  unfold refTotal Cert.Spec.total
  dsimp only
  rw [Cert.ReferenceIdeal.RefValueA.encStage_eq, Cert.ReferenceIdeal.RefValueB.wrapCol_src a1 hidx,
    Cert.ReferenceIdeal.RefValueB.wrapCol_dst a1 hidx, Cert.ReferenceIdeal.RefValueB.rawCol_dst,
    Cert.ReferenceIdeal.RefValueB.zeros50_eq, Cert.ReferenceIdeal.RefValueA.msgStage_eq,
    Cert.ReferenceIdeal.RefValueB.decStage_eq]

end Cert.ReferenceIdeal.RefGlue

end
-- ==== Proof.lean ====
/-
  Two programs compute one message-passing layer on a graph of 50000 nodes and 800000 edges: a kernel of three
  tiled stages (encoder; per-edge message network; node update, residual sum and decoder) with the row gathers
  and the segment sum on the host between them, and a plain array program. Over the extended reals they agree
  wherever every float input is finite and every entry of the edge list is a node index (0 ≤ entry < 50000).

  Both results are the ONE function Cert.Spec.total of the fifteen arguments (Proof/Spec.lean, SpecTotal.lean).
  Kernel side: the run of the three regions ends with the result array at the last segment boundary's contents
  (Proof/KernelRun.lean); each region leaves its output array at one whole-array function of its entry arrays —
  every grid point computes its block of rows and the blocks tile the array (Proof/EncValue.lean,
  MsgValue.lean, UpdValue.lean); threading those through the host operations between the regions gives
  Cert.Spec.total (Proof/KernelFold.lean), the masked row gather being the plain one where the indices are in
  range (Proof/KernelTake.lean). Reference side: its run read window by window ends at the composition of its
  live operations (Proof/RefOps.lean, RefRun.lean, RefStages.lean), which is Cert.Spec.total entry by entry
  (Proof/RefValueA.lean, RefValueB.lean, RefGlue.lean). The only algebra between the two is regrouping a sum
  over 259 = 128 + 128 + 3 (resp. 256 = 128 + 128) coordinates — the kernel multiplies by the row blocks of a
  weight separately, the reference multiplies the columns laid side by side by the whole weight — which holds
  on the extended reals with no finiteness. The index range (Proof/PreIdx.lean) is where the two programs
  would otherwise differ: one masks an out-of-range gather with a fill, the other clamps it.
  The idealization rewrote no operation, so the kernel's sanctioned idealization is its own text.
-/
import proofs.«416000_j42125039239963_1_alg».proof.Defs
import proofs.«416000_j42125039239963_1_alg».proof.Proof.Gen.Kernel
import proofs.«416000_j42125039239963_1_alg».proof.Proof.Gen.Kernel.Frame
import proofs.«416000_j42125039239963_1_alg».proof.Proof.Gen.KernelIdeal
import proofs.«416000_j42125039239963_1_alg».proof.Proof.Gen.KernelIdeal.Frame
import proofs.«416000_j42125039239963_1_alg».proof.Proof.Gen.ReferenceIdeal
import proofs.«416000_j42125039239963_1_alg».proof.Proof.Gen.Pre_finite_inputs
import proofs.«416000_j42125039239963_1_alg».proof.Proof.KernelRun
import proofs.«416000_j42125039239963_1_alg».proof.Proof.EncValue
import proofs.«416000_j42125039239963_1_alg».proof.Proof.MsgValue
import proofs.«416000_j42125039239963_1_alg».proof.Proof.UpdValue
import proofs.«416000_j42125039239963_1_alg».proof.Proof.KernelFold
import proofs.«416000_j42125039239963_1_alg».proof.Proof.PreIdx
import proofs.«416000_j42125039239963_1_alg».proof.Proof.RefRun
import proofs.«416000_j42125039239963_1_alg».proof.Proof.RefGlue
import Idealize.ShloMosaic.Adequacy
import Idealize.ShloMosaic.Init

noncomputable section

namespace Cert.Proof

open Idealize.ShloMosaic Idealize.SL.Sem

/-- The two programs' records of the row gather's dimensions are one record. -/
theorem gather_dims_eq : Cert.ReferenceIdeal.gather_S50000x128_S800000x1_S800000x128_1_0_n_n_0_1_1128 = Cert.KernelIdeal.gather_S50000x128_S800000x1_S800000x128_1_0_n_n_0_1_1128 := rfl
/-- The two programs' records of the row scatter's dimensions are one record. -/
theorem scatter_dims_eq : Cert.ReferenceIdeal.scatter_S50000x128_S800000x1_S800000x128_1_0_0_1 = Cert.KernelIdeal.scatter_S50000x128_S800000x1_S800000x128_1_0_0_1 := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The ideal pass rewrote no operation: nothing to preserve. -/
theorem preserves : Cert.preserves_Kernel_KernelIdeal := trivial

/-- Both programs, run from memories that agree on the arguments, end with the result array at the
    specification's function of those arguments. -/
theorem algebraic : Cert.algebraic_KernelIdeal_ReferenceIdeal := by
  intro m ρ m' ρ' hpre hagree
  have hidx : ∀ (c : Dev Cert.KernelIdeal.nD) (i : Cert.KernelIdeal.S2x800000.Idx),
      ((m ((c.tc : Thread Cert.KernelIdeal.nD Cert.KernelIdeal.τ).loc Cert.KernelIdeal.main_arg1) : Cert.KernelIdeal.S2x800000.Idx → BitVec 32) i).toNat < 50000 :=
    fun c => Cert.PreIdx.idx_lt _ _ _ _ _ _ _ _ _ _ _ _ _ _ _ (hpre c)
  refine ⟨fun c => Cert.Spec.total (fun x i => Host.gather Cert.KernelIdeal.gather_S50000x128_S800000x1_S800000x128_1_0_n_n_0_1_1128 x i)
        (fun x i u => Host.scatterAdd (F := Ideal) (φ := .f32) Cert.KernelIdeal.scatter_S50000x128_S800000x1_S800000x128_1_0_0_1 x i u)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run (Cert.KernelIdeal.defs (F := Ideal)) _ _).mono
      (fun r h c => ⟨(h c).1.trans (Cert.KernelIdeal.Fold.result_eq m ρ c
          (fun V c => Cert.KernelIdeal.EncValue.final V c) (fun V c => Cert.KernelIdeal.MsgValue.final V c)
          (fun V c => Cert.KernelIdeal.UpdValue.final V c) (hidx c)), (h c).2⟩)
      (Cert.KernelIdeal.GenRun.run_result (F := Ideal) m ρ)
  · refine (θ_run (Cert.ReferenceIdeal.defs (F := Ideal)) _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    refine (Cert.ReferenceIdeal.RefGlue.refTotal_eq _ _ _ _ _ _ _ _ _ _ _ _ _ _ _ (hidx c)).trans ?_
    rw [gather_dims_eq, scatter_dims_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
